-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_tau" .f32 0x3FD55555#32 ((8388608 / 5033165 : ℝ) : EReal)
  ∧ IdealRules.named_const.Statement Cert.KernelIdeal.κ "inv_tau" .f32 0x3FD55555#32 ((8388608 / 5033165 : ℝ) : EReal)
  ∧ IdealRules.named_const.Statement Cert.KernelIdeal.κ "inv_tau" .f32 0x3FD55555#32 ((8388608 / 5033165 : ℝ) : EReal)
  ∧ IdealRules.named_const.Statement Cert.KernelIdeal.κ "inv_tau" .f32 0x3FD55555#32 ((8388608 / 5033165 : ℝ) : EReal)
  ∧ IdealRules.named_const.Statement Cert.KernelIdeal.κ "inv_tau" .f32 0x3FD55555#32 ((8388608 / 5033165 : ℝ) : EReal)
  ∧ IdealRules.named_const.Statement Cert.KernelIdeal.κ "inv_tau" .f32 0x3FD55555#32 ((8388608 / 5033165 : ℝ) : EReal)
  ∧ IdealRules.named_const.Statement Cert.KernelIdeal.κ "inv_tau" .f32 0x3FD55555#32 ((8388608 / 5033165 : ℝ) : EReal)
  ∧ IdealRules.named_const.Statement Cert.KernelIdeal.κ "inv_tau" .f32 0x3FD55555#32 ((8388608 / 5033165 : ℝ) : EReal)
  ∧ IdealRules.named_const.Statement Cert.KernelIdeal.κ "inv_tau" .f32 0x3FD55555#32 ((8388608 / 5033165 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v43_0)) (v2 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v43_0) = v1 c
          ∧ r.2.mem ((c.tc : Thread Cert.KernelIdeal.nD Cert.KernelIdeal.τ).loc Cert.KernelIdeal.main_v47) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096x9 : Shape := ⟨3, ![2048, 4096, 9]⟩
abbrev S2048x4096 : Shape := ⟨2, ![2048, 4096]⟩
abbrev S2048x4096x2 : Shape := ⟨3, ![2048, 4096, 2]⟩
abbrev S_ : Shape := ⟨0, ![]⟩

class Facts : Prop where
  bcast_S_S2048x4096x9 : S_.BroadcastsInDim S2048x4096x9 (![] : Fin 0 → Fin S2048x4096x9.rank)
  reducesTo_S2048x4096x9_S_d0_1_2 : S2048x4096x9.ReducesTo [0, 1, 2] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S2048x4096x2 : S_.BroadcastsInDim S2048x4096x2 (![] : Fin 0 → Fin S2048x4096x2.rank)
  reducesTo_S2048x4096x2_S_d0_1_2 : S2048x4096x2.ReducesTo [0, 1, 2] S_

variable [Facts]

def fn {F : FTy → Type} [FloatOps F] (main_arg0 : FVec F S2048x4096x9 .f32) (main_arg1 : FVec F S2048x4096 .f32) (main_arg2 : FVec F S2048x4096x2 .f32) : IVec S_ 1 :=
  let main_v0 : FVec F S2048x4096x9 .f32 := Host.absf main_arg0
  let main_cst : FVec F S_ .f32 := constant S_ .f32 0x7F800000#32
  let main_v1 : FVec F S2048x4096x9 .f32 := broadcastInDim S2048x4096x9 ![] bcast_S_S2048x4096x9 main_cst
  let main_v2 : IVec S2048x4096x9 1 := cmpf .olt main_v0 main_v1
  let main_c : IVec S_ 1 := constantI S_ 1 1#1
  let main_v3 : IVec S_ 1 := (fun x v => Host.reduce IntOp.andi x v reducesTo_S2048x4096x9_S_d0_1_2 h_S_) main_v2 main_c
  let main_v4 : FVec F S2048x4096 .f32 := Host.absf main_arg1
  let main_cst_0 : FVec F S_ .f32 := constant S_ .f32 0x7F800000#32
  let main_v5 : FVec F S2048x4096 .f32 := broadcastInDim S2048x4096 ![] bcast_S_S2048x4096 main_cst_0
  let main_v6 : IVec S2048x4096 1 := cmpf .olt main_v4 main_v5
  let main_c_1 : IVec S_ 1 := constantI S_ 1 1#1
  let main_v7 : IVec S_ 1 := (fun x v => Host.reduce IntOp.andi x v reducesTo_S2048x4096_S_d0_1 h_S_) main_v6 main_c_1
  let main_v8 : IVec S_ 1 := andi main_v3 main_v7
  let main_v9 : FVec F S2048x4096x2 .f32 := Host.absf main_arg2
  let main_cst_2 : FVec F S_ .f32 := constant S_ .f32 0x7F800000#32
  let main_v10 : FVec F S2048x4096x2 .f32 := broadcastInDim S2048x4096x2 ![] bcast_S_S2048x4096x2 main_cst_2
  let main_v11 : IVec S2048x4096x2 1 := cmpf .olt main_v9 main_v10
  let main_c_3 : IVec S_ 1 := constantI S_ 1 1#1
  let main_v12 : IVec S_ 1 := (fun x v => Host.reduce IntOp.andi x v reducesTo_S2048x4096x2_S_d0_1_2 h_S_) main_v11 main_c_3
  let main_v13 : IVec S_ 1 := andi main_v8 main_v12
  main_v13
-- ==== Kernel.lean ====
abbrev S2048x4096x9 : Shape := ⟨3, ![2048, 4096, 9]⟩
abbrev S2048x4096 : Shape := ⟨2, ![2048, 4096]⟩
abbrev S2048x4096x2 : Shape := ⟨3, ![2048, 4096, 2]⟩
abbrev S9x2048x4096 : Shape := ⟨3, ![9, 2048, 4096]⟩
abbrev S2048x4096x1 : Shape := ⟨3, ![2048, 4096, 1]⟩
abbrev S9x256x512 : Shape := ⟨3, ![9, 256, 512]⟩
abbrev S256x512 : Shape := ⟨2, ![256, 512]⟩
abbrev S1x256x512 : Shape := ⟨3, ![1, 256, 512]⟩
abbrev S1x2048x4096 : Shape := ⟨3, ![1, 2048, 4096]⟩
abbrev S0x4096 : Shape := ⟨2, ![0, 4096]⟩
abbrev S2048x0 : Shape := ⟨2, ![2048, 0]⟩
abbrev S2048x1 : Shape := ⟨2, ![2048, 1]⟩
abbrev S2048x4095 : Shape := ⟨2, ![2048, 4095]⟩
abbrev S1x4096 : Shape := ⟨2, ![1, 4096]⟩
abbrev S2047x4096 : Shape := ⟨2, ![2047, 4096]⟩

abbrev nBuf : Space → Nat
  | .hbm => 98
  | .vmem => 18
  | .smem => 0
  | _ => 0

abbrev bufTy : (tb : Table) → Fin (tcTables nBuf tb) → BufTy
  | .hbm, ⟨0, _⟩ => ⟨S2048x4096x9, .f32⟩
  | .hbm, ⟨1, _⟩ => ⟨S2048x4096, .f32⟩
  | .hbm, ⟨2, _⟩ => ⟨S2048x4096x2, .f32⟩
  | .hbm, ⟨3, _⟩ => ⟨S9x2048x4096, .f32⟩
  | .hbm, ⟨4, _⟩ => ⟨S2048x4096x1, .f32⟩
  | .hbm, ⟨5, _⟩ => ⟨S2048x4096, .f32⟩
  | .hbm, ⟨6, _⟩ => ⟨S2048x4096x1, .f32⟩
  | .hbm, ⟨7, _⟩ => ⟨S2048x4096, .f32⟩
  | .hbm, ⟨8, _⟩ => ⟨S9x2048x4096, .f32⟩
  | .hbm, ⟨9, _⟩ => ⟨S1x2048x4096, .f32⟩
  | .hbm, ⟨10, _⟩ => ⟨S2048x4096, .f32⟩
  | .hbm, ⟨11, _⟩ => ⟨S2048x4096, .f32⟩
  | .hbm, ⟨12, _⟩ => ⟨S0x4096, .f32⟩
  | .hbm, ⟨13, _⟩ => ⟨S2048x4096, .f32⟩
  | .hbm, ⟨14, _⟩ => ⟨S2048x4096, .f32⟩
  | .hbm, ⟨15, _⟩ => ⟨S2048x0, .f32⟩
  | .hbm, ⟨16, _⟩ => ⟨S2048x4096, .f32⟩
  | .hbm, ⟨17, _⟩ => ⟨S1x2048x4096, .f32⟩
  | .hbm, ⟨18, _⟩ => ⟨S2048x4096, .f32⟩
  | .hbm, ⟨19, _⟩ => ⟨S2048x4096, .f32⟩
  | .hbm, ⟨20, _⟩ => ⟨S0x4096, .f32⟩
  | .hbm, ⟨21, _⟩ => ⟨S2048x4096, .f32⟩
  | .hbm, ⟨22, _⟩ => ⟨S2048x1, .f32⟩
  | .hbm, ⟨23, _⟩ => ⟨S2048x4095, .f32⟩
  | .hbm, ⟨24, _⟩ => ⟨S2048x4096, .f32⟩
  | .hbm, ⟨25, _⟩ => ⟨S1x2048x4096, .f32⟩
  | .hbm, ⟨26, _⟩ => ⟨S2048x4096, .f32⟩
  | .hbm, ⟨27, _⟩ => ⟨S1x4096, .f32⟩
  | .hbm, ⟨28, _⟩ => ⟨S2047x4096, .f32⟩
  | .hbm, ⟨29, _⟩ => ⟨S2048x4096, .f32⟩
  | .hbm, ⟨30, _⟩ => ⟨S2048x4096, .f32⟩
  | .hbm, ⟨31, _⟩ => ⟨S2048x0, .f32⟩
  | .hbm, ⟨32, _⟩ => ⟨S2048x4096, .f32⟩
  | .hbm, ⟨33, _⟩ => ⟨S1x2048x4096, .f32⟩
  | .hbm, ⟨34, _⟩ => ⟨S2048x4096, .f32⟩
  | .hbm, ⟨35, _⟩ => ⟨S2048x4096, .f32⟩
  | .hbm, ⟨36, _⟩ => ⟨S0x4096, .f32⟩
  | .hbm, ⟨37, _⟩ => ⟨S2048x4096, .f32⟩
  | .hbm, ⟨38, _⟩ => ⟨S2048x4095, .f32⟩
  | .hbm, ⟨39, _⟩ => ⟨S2048x1, .f32⟩
  | .hbm, ⟨40, _⟩ => ⟨S2048x4096, .f32⟩
  | .hbm, ⟨41, _⟩ => ⟨S1x2048x4096, .f32⟩
  | .hbm, ⟨42, _⟩ => ⟨S2048x4096, .f32⟩
  | .hbm, ⟨43, _⟩ => ⟨S2047x4096, .f32⟩
  | .hbm, ⟨44, _⟩ => ⟨S1x4096, .f32⟩
  | .hbm, ⟨45, _⟩ => ⟨S2048x4096, .f32⟩
  | .hbm, ⟨46, _⟩ => ⟨S2048x4096, .f32⟩
  | .hbm, ⟨47, _⟩ => ⟨S2048x0, .f32⟩
  | .hbm, ⟨48, _⟩ => ⟨S2048x4096, .f32⟩
  | .hbm, ⟨49, _⟩ => ⟨S1x2048x4096, .f32⟩
  | .hbm, ⟨50, _⟩ => ⟨S2048x4096, .f32⟩
  | .hbm, ⟨51, _⟩ => ⟨S1x4096, .f32⟩
  | .hbm, ⟨52, _⟩ => ⟨S2047x4096, .f32⟩
  | .hbm, ⟨53, _⟩ => ⟨S2048x4096, .f32⟩
  | .hbm, ⟨54, _⟩ => ⟨S2048x1, .f32⟩
  | .hbm, ⟨55, _⟩ => ⟨S2048x4095, .f32⟩
  | .hbm, ⟨56, _⟩ => ⟨S2048x4096, .f32⟩
  | .hbm, ⟨57, _⟩ => ⟨S1x2048x4096, .f32⟩
  | .hbm, ⟨58, _⟩ => ⟨S2048x4096, .f32⟩
  | .hbm, ⟨59, _⟩ => ⟨S1x4096, .f32⟩
  | .hbm, ⟨60, _⟩ => ⟨S2047x4096, .f32⟩
  | .hbm, ⟨61, _⟩ => ⟨S2048x4096, .f32⟩
  | .hbm, ⟨62, _⟩ => ⟨S2048x4095, .f32⟩
  | .hbm, ⟨63, _⟩ => ⟨S2048x1, .f32⟩
  | .hbm, ⟨64, _⟩ => ⟨S2048x4096, .f32⟩
  | .hbm, ⟨65, _⟩ => ⟨S1x2048x4096, .f32⟩
  | .hbm, ⟨66, _⟩ => ⟨S2048x4096, .f32⟩
  | .hbm, ⟨67, _⟩ => ⟨S2047x4096, .f32⟩
  | .hbm, ⟨68, _⟩ => ⟨S1x4096, .f32⟩
  | .hbm, ⟨69, _⟩ => ⟨S2048x4096, .f32⟩
  | .hbm, ⟨70, _⟩ => ⟨S2048x4095, .f32⟩
  | .hbm, ⟨71, _⟩ => ⟨S2048x1, .f32⟩
  | .hbm, ⟨72, _⟩ => ⟨S2048x4096, .f32⟩
  | .hbm, ⟨73, _⟩ => ⟨S1x2048x4096, .f32⟩
  | .hbm, ⟨74, _⟩ => ⟨S2048x4096, .f32⟩
  | .hbm, ⟨75, _⟩ => ⟨S2047x4096, .f32⟩
  | .hbm, ⟨76, _⟩ => ⟨S1x4096, .f32⟩
  | .hbm, ⟨77, _⟩ => ⟨S2048x4096, .f32⟩
  | .hbm, ⟨78, _⟩ => ⟨S2048x1, .f32⟩
  | .hbm, ⟨79, _⟩ => ⟨S2048x4095, .f32⟩
  | .hbm, ⟨80, _⟩ => ⟨S2048x4096, .f32⟩
  | .hbm, ⟨81, _⟩ => ⟨S1x2048x4096, .f32⟩
  | .hbm, ⟨82, _⟩ => ⟨S1x2048x4096, .f32⟩
  | .hbm, ⟨83, _⟩ => ⟨S1x2048x4096, .f32⟩
  | .hbm, ⟨84, _⟩ => ⟨S1x2048x4096, .f32⟩
  | .hbm, ⟨85, _⟩ => ⟨S1x2048x4096, .f32⟩
  | .hbm, ⟨86, _⟩ => ⟨S1x2048x4096, .f32⟩
  | .hbm, ⟨87, _⟩ => ⟨S1x2048x4096, .f32⟩
  | .hbm, ⟨88, _⟩ => ⟨S1x2048x4096, .f32⟩
  | .hbm, ⟨89, _⟩ => ⟨S1x2048x4096, .f32⟩
  | .hbm, ⟨90, _⟩ => ⟨S9x2048x4096, .f32⟩
  | .hbm, ⟨91, _⟩ => ⟨S2048x4096, .f32⟩
  | .hbm, ⟨92, _⟩ => ⟨S2048x4096, .f32⟩
  | .hbm, ⟨93, _⟩ => ⟨S2048x4096, .f32⟩
  | .hbm, ⟨94, _⟩ => ⟨S2048x4096x9, .f32⟩
  | .hbm, ⟨95, _⟩ => ⟨S2048x4096x1, .f32⟩
  | .hbm, ⟨96, _⟩ => ⟨S2048x4096x1, .f32⟩
  | .hbm, ⟨97, _⟩ => ⟨S2048x4096x2, .f32⟩
  | .local _ .vmem, ⟨0, _⟩ => ⟨S9x256x512, .f32⟩
  | .local _ .vmem, ⟨1, _⟩ => ⟨S9x256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S9x256x512, .f32⟩
  | .local _ .vmem, ⟨9, _⟩ => ⟨S9x256x512, .f32⟩
  | .local _ .vmem, ⟨10, _⟩ => ⟨S9x256x512, .f32⟩
  | .local _ .vmem, ⟨11, _⟩ => ⟨S9x256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | _, _ => ⟨S2048x4096x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_call3_v0 : Ref sig .tc := ⟨.hbm, 35, rfl⟩
abbrev main_call3_v1 : Ref sig .tc := ⟨.hbm, 36, rfl⟩
abbrev main_call3_v2 : Ref sig .tc := ⟨.hbm, 37, rfl⟩
abbrev main_call3_v3 : Ref sig .tc := ⟨.hbm, 38, rfl⟩
abbrev main_call3_v4 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_call4_v0 : Ref sig .tc := ⟨.hbm, 43, rfl⟩
abbrev main_call4_v1 : Ref sig .tc := ⟨.hbm, 44, rfl⟩
abbrev main_call4_v2 : Ref sig .tc := ⟨.hbm, 45, rfl⟩
abbrev main_call4_v3 : Ref sig .tc := ⟨.hbm, 46, rfl⟩
abbrev main_call4_v4 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_call5_v0 : Ref sig .tc := ⟨.hbm, 51, rfl⟩
abbrev main_call5_v1 : Ref sig .tc := ⟨.hbm, 52, rfl⟩
abbrev main_call5_v2 : Ref sig .tc := ⟨.hbm, 53, rfl⟩
abbrev main_call5_v3 : Ref sig .tc := ⟨.hbm, 54, rfl⟩
abbrev main_call5_v4 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_call6_v0 : Ref sig .tc := ⟨.hbm, 59, rfl⟩
abbrev main_call6_v1 : Ref sig .tc := ⟨.hbm, 60, rfl⟩
abbrev main_call6_v2 : Ref sig .tc := ⟨.hbm, 61, rfl⟩
abbrev main_call6_v3 : Ref sig .tc := ⟨.hbm, 62, rfl⟩
abbrev main_call6_v4 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_call7_v0 : Ref sig .tc := ⟨.hbm, 67, rfl⟩
abbrev main_call7_v1 : Ref sig .tc := ⟨.hbm, 68, rfl⟩
abbrev main_call7_v2 : Ref sig .tc := ⟨.hbm, 69, rfl⟩
abbrev main_call7_v3 : Ref sig .tc := ⟨.hbm, 70, rfl⟩
abbrev main_call7_v4 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_call8_v0 : Ref sig .tc := ⟨.hbm, 75, rfl⟩
abbrev main_call8_v1 : Ref sig .tc := ⟨.hbm, 76, rfl⟩
abbrev main_call8_v2 : Ref sig .tc := ⟨.hbm, 77, rfl⟩
abbrev main_call8_v3 : Ref sig .tc := ⟨.hbm, 78, rfl⟩
abbrev main_call8_v4 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43_0 : Ref sig .tc := ⟨.hbm, 91, rfl⟩
abbrev main_v43_1 : Ref sig .tc := ⟨.hbm, 92, rfl⟩
abbrev main_v43_2 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S9x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S9x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S9x256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  transposes_S2048x4096x9_S9x2048x4096_2_0_1 : S2048x4096x9.Transposes [2, 0, 1] S9x2048x4096
  slices_S2048x4096x2_S2048x4096x1_0_0_0 : S2048x4096x2.Slices ![0, 0, 0] S2048x4096x1
  shapeCasts_S2048x4096x1_S2048x4096 : S2048x4096x1.ShapeCasts S2048x4096
  slices_S2048x4096x2_S2048x4096x1_0_0_1 : S2048x4096x2.Slices ![0, 0, 1] S2048x4096x1
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S9x256x512_S1x256x512_0_0_0 : ∀ a, (![0, 0, 0] : Fin 3 → Nat) a + S1x256x512.size a ≤ S9x256x512.size a
  h_S1x256x512 : 0 < S1x256x512.numel
  shapeCasts_S1x256x512_S256x512 : S1x256x512.ShapeCasts S256x512
  shapeCasts_S256x512_S1x256x512 : S256x512.ShapeCasts S1x256x512
  inb_S9x256x512_S1x256x512_1_0_0 : ∀ a, (![1, 0, 0] : Fin 3 → Nat) a + S1x256x512.size a ≤ S9x256x512.size a
  inb_S9x256x512_S1x256x512_2_0_0 : ∀ a, (![2, 0, 0] : Fin 3 → Nat) a + S1x256x512.size a ≤ S9x256x512.size a
  inb_S9x256x512_S1x256x512_3_0_0 : ∀ a, (![3, 0, 0] : Fin 3 → Nat) a + S1x256x512.size a ≤ S9x256x512.size a
  inb_S9x256x512_S1x256x512_4_0_0 : ∀ a, (![4, 0, 0] : Fin 3 → Nat) a + S1x256x512.size a ≤ S9x256x512.size a
  inb_S9x256x512_S1x256x512_5_0_0 : ∀ a, (![5, 0, 0] : Fin 3 → Nat) a + S1x256x512.size a ≤ S9x256x512.size a
  inb_S9x256x512_S1x256x512_6_0_0 : ∀ a, (![6, 0, 0] : Fin 3 → Nat) a + S1x256x512.size a ≤ S9x256x512.size a
  inb_S9x256x512_S1x256x512_7_0_0 : ∀ a, (![7, 0, 0] : Fin 3 → Nat) a + S1x256x512.size a ≤ S9x256x512.size a
  inb_S9x256x512_S1x256x512_8_0_0 : ∀ a, (![8, 0, 0] : Fin 3 → Nat) a + S1x256x512.size a ≤ S9x256x512.size a
  slices_S9x2048x4096_S1x2048x4096_0_0_0 : S9x2048x4096.Slices ![0, 0, 0] S1x2048x4096
  shapeCasts_S1x2048x4096_S2048x4096 : S1x2048x4096.ShapeCasts S2048x4096
  slices_S2048x4096_S2048x4096_0_0 : S2048x4096.Slices ![0, 0] S2048x4096
  slices_S2048x4096_S0x4096_0_0 : S2048x4096.Slices ![0, 0] S0x4096
  concatenates_S2048x4096_S0x4096_S2048x4096_d0 : Shape.Concatenates [S2048x4096, S0x4096] S2048x4096 0
  slices_S2048x4096_S2048x0_0_0 : S2048x4096.Slices ![0, 0] S2048x0
  concatenates_S2048x4096_S2048x0_S2048x4096_d1 : Shape.Concatenates [S2048x4096, S2048x0] S2048x4096 1
  slices_S9x2048x4096_S1x2048x4096_1_0_0 : S9x2048x4096.Slices ![1, 0, 0] S1x2048x4096
  slices_S2048x4096_S2048x1_0_4095 : S2048x4096.Slices ![0, 4095] S2048x1
  slices_S2048x4096_S2048x4095_0_0 : S2048x4096.Slices ![0, 0] S2048x4095
  concatenates_S2048x1_S2048x4095_S2048x4096_d1 : Shape.Concatenates [S2048x1, S2048x4095] S2048x4096 1
  slices_S9x2048x4096_S1x2048x4096_2_0_0 : S9x2048x4096.Slices ![2, 0, 0] S1x2048x4096
  slices_S2048x4096_S1x4096_2047_0 : S2048x4096.Slices ![2047, 0] S1x4096
  slices_S2048x4096_S2047x4096_0_0 : S2048x4096.Slices ![0, 0] S2047x4096
  concatenates_S1x4096_S2047x4096_S2048x4096_d0 : Shape.Concatenates [S1x4096, S2047x4096] S2048x4096 0
  slices_S9x2048x4096_S1x2048x4096_3_0_0 : S9x2048x4096.Slices ![3, 0, 0] S1x2048x4096
  slices_S2048x4096_S2048x4095_0_1 : S2048x4096.Slices ![0, 1] S2048x4095
  slices_S2048x4096_S2048x1_0_0 : S2048x4096.Slices ![0, 0] S2048x1
  concatenates_S2048x4095_S2048x1_S2048x4096_d1 : Shape.Concatenates [S2048x4095, S2048x1] S2048x4096 1
  slices_S9x2048x4096_S1x2048x4096_4_0_0 : S9x2048x4096.Slices ![4, 0, 0] S1x2048x4096
  slices_S2048x4096_S2047x4096_1_0 : S2048x4096.Slices ![1, 0] S2047x4096
  slices_S2048x4096_S1x4096_0_0 : S2048x4096.Slices ![0, 0] S1x4096
  concatenates_S2047x4096_S1x4096_S2048x4096_d0 : Shape.Concatenates [S2047x4096, S1x4096] S2048x4096 0
  slices_S9x2048x4096_S1x2048x4096_5_0_0 : S9x2048x4096.Slices ![5, 0, 0] S1x2048x4096
  slices_S9x2048x4096_S1x2048x4096_6_0_0 : S9x2048x4096.Slices ![6, 0, 0] S1x2048x4096
  slices_S9x2048x4096_S1x2048x4096_7_0_0 : S9x2048x4096.Slices ![7, 0, 0] S1x2048x4096
  slices_S9x2048x4096_S1x2048x4096_8_0_0 : S9x2048x4096.Slices ![8, 0, 0] S1x2048x4096
  bcast_S2048x4096_S1x2048x4096_1_2 : S2048x4096.BroadcastsInDim S1x2048x4096 (![1, 2] : Fin 2 → Fin S1x2048x4096.rank)
  concatenates_S1x2048x4096_S1x2048x4096_S1x2048x4096_S1x2048x4096_S1x2048x4096_S1x2048x4096_S1x2048x4096_S1x2048x4096_S1x2048x4096_S9x2048x4096_d0 : Shape.Concatenates [S1x2048x4096, S1x2048x4096, S1x2048x4096, S1x2048x4096, S1x2048x4096, S1x2048x4096, S1x2048x4096, S1x2048x4096, S1x2048x4096] S9x2048x4096 0
  transposes_S9x2048x4096_S2048x4096x9_1_2_0 : S9x2048x4096.Transposes [1, 2, 0] S2048x4096x9
  bcast_S2048x4096_S2048x4096x1_0_1 : S2048x4096.BroadcastsInDim S2048x4096x1 (![0, 1] : Fin 2 → Fin S2048x4096x1.rank)
  concatenates_S2048x4096x1_S2048x4096x1_S2048x4096x2_d2 : Shape.Concatenates [S2048x4096x1, S2048x4096x1] S2048x4096x2 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S9x256x512.size a ≤ S9x2048x4096.size a
  hwx0_0 : ∀ i : grid0.Coords, EltTy.bits .f32 = 32 ∨ (Rect.block (s := S9x2048x4096) S9x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S2048x4096.size a
  hwx0_1 : ∀ i : grid0.Coords, EltTy.bits .f32 = 32 ∨ (Rect.block (s := S2048x4096) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S2048x4096.size a
  hwx0_2 : ∀ i : grid0.Coords, EltTy.bits .f32 = 32 ∨ (Rect.block (s := S2048x4096) S256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S2048x4096.size a
  hwx0_3 : ∀ i : grid0.Coords, EltTy.bits .f32 = 32 ∨ (Rect.block (s := S2048x4096) S256x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S9x256x512.size a ≤ S9x2048x4096.size a
  hwx0_4 : ∀ i : grid0.Coords, EltTy.bits .f32 = 32 ∨ (Rect.block (s := S9x2048x4096) S9x256x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S9x256x512.size a ≤ S9x2048x4096.size a
  hwx1_0 : ∀ i : grid1.Coords, EltTy.bits .f32 = 32 ∨ (Rect.block (s := S9x2048x4096) S9x256x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x512.size a ≤ S2048x4096.size a
  hwx1_1 : ∀ i : grid1.Coords, EltTy.bits .f32 = 32 ∨ (Rect.block (s := S2048x4096) S256x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x512.size a ≤ S2048x4096.size a
  hwx1_2 : ∀ i : grid1.Coords, EltTy.bits .f32 = 32 ∨ (Rect.block (s := S2048x4096) S256x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x512.size a ≤ S2048x4096.size a
  hwx1_3 : ∀ i : grid1.Coords, EltTy.bits .f32 = 32 ∨ (Rect.block (s := S2048x4096) S256x512.size (cc1_transform_3 i) (hinb1_3 i)).WholeWords (EltTy.packing .f32)

variable [Facts₀]

abbrev win0_0 : Pipeline.Window sig grid0 :=
  Pipeline.Window.ofSpec (Memref.whole main_v0) S9x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S9x256x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v42) S9x256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43_0) S256x512.size cc1_transform_1 reads1_1 true false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43_1) S256x512.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43_2) S256x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2048x4096x9 : Shape := ⟨3, ![2048, 4096, 9]⟩
abbrev S2048x4096 : Shape := ⟨2, ![2048, 4096]⟩
abbrev S2048x4096x2 : Shape := ⟨3, ![2048, 4096, 2]⟩
abbrev S9x2 : Shape := ⟨2, ![9, 2]⟩
abbrev S9 : Shape := ⟨1, ![9]⟩
abbrev S_ : Shape := ⟨0, ![]⟩
abbrev S2048x4096x1 : Shape := ⟨3, ![2048, 4096, 1]⟩
abbrev S1x1x9 : Shape := ⟨3, ![1, 1, 9]⟩
abbrev S0x4096 : Shape := ⟨2, ![0, 4096]⟩
abbrev S2048x0 : Shape := ⟨2, ![2048, 0]⟩
abbrev S2048x1 : Shape := ⟨2, ![2048, 1]⟩
abbrev S2048x4095 : Shape := ⟨2, ![2048, 4095]⟩
abbrev S1x4096 : Shape := ⟨2, ![1, 4096]⟩
abbrev S2047x4096 : Shape := ⟨2, ![2047, 4096]⟩

abbrev nBuf : Space → Nat
  | .hbm => 126
  | .vmem => 0
  | .smem => 0
  | _ => 0

abbrev bufTy : (tb : Table) → Fin (tcTables nBuf tb) → BufTy
  | .hbm, ⟨0, _⟩ => ⟨S2048x4096x9, .f32⟩
  | .hbm, ⟨1, _⟩ => ⟨S2048x4096, .f32⟩
  | .hbm, ⟨2, _⟩ => ⟨S2048x4096x2, .f32⟩
  | .hbm, ⟨3, _⟩ => ⟨S9x2, .f32⟩
  | .hbm, ⟨4, _⟩ => ⟨S9, .f32⟩
  | .hbm, ⟨5, _⟩ => ⟨S9x2, .f32⟩
  | .hbm, ⟨6, _⟩ => ⟨S2048x4096x9, .f32⟩
  | .hbm, ⟨7, _⟩ => ⟨S2048x4096x2, .f32⟩
  | .hbm, ⟨8, _⟩ => ⟨S_, .f32⟩
  | .hbm, ⟨9, _⟩ => ⟨S2048x4096, .f32⟩
  | .hbm, ⟨10, _⟩ => ⟨S2048x4096x1, .f32⟩
  | .hbm, ⟨11, _⟩ => ⟨S2048x4096x1, .f32⟩
  | .hbm, ⟨12, _⟩ => ⟨S1x1x9, .f32⟩
  | .hbm, ⟨13, _⟩ => ⟨S2048x4096x9, .f32⟩
  | .hbm, ⟨14, _⟩ => ⟨S2048x4096x9, .f32⟩
  | .hbm, ⟨15, _⟩ => ⟨S2048x4096x9, .f32⟩
  | .hbm, ⟨16, _⟩ => ⟨S_, .f32⟩
  | .hbm, ⟨17, _⟩ => ⟨S2048x4096x9, .f32⟩
  | .hbm, ⟨18, _⟩ => ⟨S2048x4096x9, .f32⟩
  | .hbm, ⟨19, _⟩ => ⟨S_, .f32⟩
  | .hbm, ⟨20, _⟩ => ⟨S2048x4096x9, .f32⟩
  | .hbm, ⟨21, _⟩ => ⟨S2048x4096x9, .f32⟩
  | .hbm, ⟨22, _⟩ => ⟨S_, .f32⟩
  | .hbm, ⟨23, _⟩ => ⟨S2048x4096x9, .f32⟩
  | .hbm, ⟨24, _⟩ => ⟨S2048x4096x9, .f32⟩
  | .hbm, ⟨25, _⟩ => ⟨S2048x4096x9, .f32⟩
  | .hbm, ⟨26, _⟩ => ⟨S2048x4096x9, .f32⟩
  | .hbm, ⟨27, _⟩ => ⟨S_, .f32⟩
  | .hbm, ⟨28, _⟩ => ⟨S2048x4096x1, .f32⟩
  | .hbm, ⟨29, _⟩ => ⟨S2048x4096x1, .f32⟩
  | .hbm, ⟨30, _⟩ => ⟨S2048x4096x9, .f32⟩
  | .hbm, ⟨31, _⟩ => ⟨S2048x4096x9, .f32⟩
  | .hbm, ⟨32, _⟩ => ⟨S2048x4096x9, .f32⟩
  | .hbm, ⟨33, _⟩ => ⟨S2048x4096x9, .f32⟩
  | .hbm, ⟨34, _⟩ => ⟨S_, .f32⟩
  | .hbm, ⟨35, _⟩ => ⟨S2048x4096x9, .f32⟩
  | .hbm, ⟨36, _⟩ => ⟨S2048x4096x9, .f32⟩
  | .hbm, ⟨37, _⟩ => ⟨S2048x4096x9, .f32⟩
  | .hbm, ⟨38, _⟩ => ⟨S2048x4096x1, .f32⟩
  | .hbm, ⟨39, _⟩ => ⟨S2048x4096, .f32⟩
  | .hbm, ⟨40, _⟩ => ⟨S2048x4096, .f32⟩
  | .hbm, ⟨41, _⟩ => ⟨S0x4096, .f32⟩
  | .hbm, ⟨42, _⟩ => ⟨S2048x4096, .f32⟩
  | .hbm, ⟨43, _⟩ => ⟨S2048x4096, .f32⟩
  | .hbm, ⟨44, _⟩ => ⟨S2048x0, .f32⟩
  | .hbm, ⟨45, _⟩ => ⟨S2048x4096, .f32⟩
  | .hbm, ⟨46, _⟩ => ⟨S2048x4096x1, .f32⟩
  | .hbm, ⟨47, _⟩ => ⟨S2048x4096, .f32⟩
  | .hbm, ⟨48, _⟩ => ⟨S2048x4096, .f32⟩
  | .hbm, ⟨49, _⟩ => ⟨S0x4096, .f32⟩
  | .hbm, ⟨50, _⟩ => ⟨S2048x4096, .f32⟩
  | .hbm, ⟨51, _⟩ => ⟨S2048x1, .f32⟩
  | .hbm, ⟨52, _⟩ => ⟨S2048x4095, .f32⟩
  | .hbm, ⟨53, _⟩ => ⟨S2048x4096, .f32⟩
  | .hbm, ⟨54, _⟩ => ⟨S2048x4096x1, .f32⟩
  | .hbm, ⟨55, _⟩ => ⟨S2048x4096, .f32⟩
  | .hbm, ⟨56, _⟩ => ⟨S1x4096, .f32⟩
  | .hbm, ⟨57, _⟩ => ⟨S2047x4096, .f32⟩
  | .hbm, ⟨58, _⟩ => ⟨S2048x4096, .f32⟩
  | .hbm, ⟨59, _⟩ => ⟨S2048x4096, .f32⟩
  | .hbm, ⟨60, _⟩ => ⟨S2048x0, .f32⟩
  | .hbm, ⟨61, _⟩ => ⟨S2048x4096, .f32⟩
  | .hbm, ⟨62, _⟩ => ⟨S2048x4096x1, .f32⟩
  | .hbm, ⟨63, _⟩ => ⟨S2048x4096, .f32⟩
  | .hbm, ⟨64, _⟩ => ⟨S2048x4096, .f32⟩
  | .hbm, ⟨65, _⟩ => ⟨S0x4096, .f32⟩
  | .hbm, ⟨66, _⟩ => ⟨S2048x4096, .f32⟩
  | .hbm, ⟨67, _⟩ => ⟨S2048x4095, .f32⟩
  | .hbm, ⟨68, _⟩ => ⟨S2048x1, .f32⟩
  | .hbm, ⟨69, _⟩ => ⟨S2048x4096, .f32⟩
  | .hbm, ⟨70, _⟩ => ⟨S2048x4096x1, .f32⟩
  | .hbm, ⟨71, _⟩ => ⟨S2048x4096, .f32⟩
  | .hbm, ⟨72, _⟩ => ⟨S2047x4096, .f32⟩
  | .hbm, ⟨73, _⟩ => ⟨S1x4096, .f32⟩
  | .hbm, ⟨74, _⟩ => ⟨S2048x4096, .f32⟩
  | .hbm, ⟨75, _⟩ => ⟨S2048x4096, .f32⟩
  | .hbm, ⟨76, _⟩ => ⟨S2048x0, .f32⟩
  | .hbm, ⟨77, _⟩ => ⟨S2048x4096, .f32⟩
  | .hbm, ⟨78, _⟩ => ⟨S2048x4096x1, .f32⟩
  | .hbm, ⟨79, _⟩ => ⟨S2048x4096, .f32⟩
  | .hbm, ⟨80, _⟩ => ⟨S1x4096, .f32⟩
  | .hbm, ⟨81, _⟩ => ⟨S2047x4096, .f32⟩
  | .hbm, ⟨82, _⟩ => ⟨S2048x4096, .f32⟩
  | .hbm, ⟨83, _⟩ => ⟨S2048x1, .f32⟩
  | .hbm, ⟨84, _⟩ => ⟨S2048x4095, .f32⟩
  | .hbm, ⟨85, _⟩ => ⟨S2048x4096, .f32⟩
  | .hbm, ⟨86, _⟩ => ⟨S2048x4096x1, .f32⟩
  | .hbm, ⟨87, _⟩ => ⟨S2048x4096, .f32⟩
  | .hbm, ⟨88, _⟩ => ⟨S1x4096, .f32⟩
  | .hbm, ⟨89, _⟩ => ⟨S2047x4096, .f32⟩
  | .hbm, ⟨90, _⟩ => ⟨S2048x4096, .f32⟩
  | .hbm, ⟨91, _⟩ => ⟨S2048x4095, .f32⟩
  | .hbm, ⟨92, _⟩ => ⟨S2048x1, .f32⟩
  | .hbm, ⟨93, _⟩ => ⟨S2048x4096, .f32⟩
  | .hbm, ⟨94, _⟩ => ⟨S2048x4096x1, .f32⟩
  | .hbm, ⟨95, _⟩ => ⟨S2048x4096, .f32⟩
  | .hbm, ⟨96, _⟩ => ⟨S2047x4096, .f32⟩
  | .hbm, ⟨97, _⟩ => ⟨S1x4096, .f32⟩
  | .hbm, ⟨98, _⟩ => ⟨S2048x4096, .f32⟩
  | .hbm, ⟨99, _⟩ => ⟨S2048x4095, .f32⟩
  | .hbm, ⟨100, _⟩ => ⟨S2048x1, .f32⟩
  | .hbm, ⟨101, _⟩ => ⟨S2048x4096, .f32⟩
  | .hbm, ⟨102, _⟩ => ⟨S2048x4096x1, .f32⟩
  | .hbm, ⟨103, _⟩ => ⟨S2048x4096, .f32⟩
  | .hbm, ⟨104, _⟩ => ⟨S2047x4096, .f32⟩
  | .hbm, ⟨105, _⟩ => ⟨S1x4096, .f32⟩
  | .hbm, ⟨106, _⟩ => ⟨S2048x4096, .f32⟩
  | .hbm, ⟨107, _⟩ => ⟨S2048x1, .f32⟩
  | .hbm, ⟨108, _⟩ => ⟨S2048x4095, .f32⟩
  | .hbm, ⟨109, _⟩ => ⟨S2048x4096, .f32⟩
  | .hbm, ⟨110, _⟩ => ⟨S2048x4096x1, .f32⟩
  | .hbm, ⟨111, _⟩ => ⟨S2048x4096x1, .f32⟩
  | .hbm, ⟨112, _⟩ => ⟨S2048x4096x1, .f32⟩
  | .hbm, ⟨113, _⟩ => ⟨S2048x4096x1, .f32⟩
  | .hbm, ⟨114, _⟩ => ⟨S2048x4096x1, .f32⟩
  | .hbm, ⟨115, _⟩ => ⟨S2048x4096x1, .f32⟩
  | .hbm, ⟨116, _⟩ => ⟨S2048x4096x1, .f32⟩
  | .hbm, ⟨117, _⟩ => ⟨S2048x4096x1, .f32⟩
  | .hbm, ⟨118, _⟩ => ⟨S2048x4096x1, .f32⟩
  | .hbm, ⟨119, _⟩ => ⟨S2048x4096x9, .f32⟩
  | .hbm, ⟨120, _⟩ => ⟨S_, .f32⟩
  | .hbm, ⟨121, _⟩ => ⟨S2048x4096, .f32⟩
  | .hbm, ⟨122, _⟩ => ⟨S2048x4096x2, .f32⟩
  | .hbm, ⟨123, _⟩ => ⟨S2048x4096x1, .f32⟩
  | .hbm, ⟨124, _⟩ => ⟨S2048x4096x2, .f32⟩
  | .hbm, ⟨125, _⟩ => ⟨S2048x4096x2, .f32⟩
  | _, _ => ⟨S2048x4096x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_v0 : Ref sig .tc := ⟨.hbm, 6, rfl⟩
abbrev main_v1 : Ref sig .tc := ⟨.hbm, 7, rfl⟩
abbrev main_cst_2 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev main_v12 : Ref sig .tc := ⟨.hbm, 21, rfl⟩
abbrev main_cst_5 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_6 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_call4_v0 : Ref sig .tc := ⟨.hbm, 72, rfl⟩
abbrev main_call4_v1 : Ref sig .tc := ⟨.hbm, 73, rfl⟩
abbrev main_call4_v2 : Ref sig .tc := ⟨.hbm, 74, rfl⟩
abbrev main_call4_v3 : Ref sig .tc := ⟨.hbm, 75, rfl⟩
abbrev main_call4_v4 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_call5_v0 : Ref sig .tc := ⟨.hbm, 80, rfl⟩
abbrev main_call5_v1 : Ref sig .tc := ⟨.hbm, 81, rfl⟩
abbrev main_call5_v2 : Ref sig .tc := ⟨.hbm, 82, rfl⟩
abbrev main_call5_v3 : Ref sig .tc := ⟨.hbm, 83, rfl⟩
abbrev main_call5_v4 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_call6_v0 : Ref sig .tc := ⟨.hbm, 88, rfl⟩
abbrev main_call6_v1 : Ref sig .tc := ⟨.hbm, 89, rfl⟩
abbrev main_call6_v2 : Ref sig .tc := ⟨.hbm, 90, rfl⟩
abbrev main_call6_v3 : Ref sig .tc := ⟨.hbm, 91, rfl⟩
abbrev main_call6_v4 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_call7_v0 : Ref sig .tc := ⟨.hbm, 96, rfl⟩
abbrev main_call7_v1 : Ref sig .tc := ⟨.hbm, 97, rfl⟩
abbrev main_call7_v2 : Ref sig .tc := ⟨.hbm, 98, rfl⟩
abbrev main_call7_v3 : Ref sig .tc := ⟨.hbm, 99, rfl⟩
abbrev main_call7_v4 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_call8_v0 : Ref sig .tc := ⟨.hbm, 104, rfl⟩
abbrev main_call8_v1 : Ref sig .tc := ⟨.hbm, 105, rfl⟩
abbrev main_call8_v2 : Ref sig .tc := ⟨.hbm, 106, rfl⟩
abbrev main_call8_v3 : Ref sig .tc := ⟨.hbm, 107, rfl⟩
abbrev main_call8_v4 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_cst_8 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩

abbrev nD : Nat := 1
abbrev τ : Topo := Topo.v7x

variable {F : FTy → Type} [FloatOps F]

class Facts₀ : Prop where
  reducesTo_S2048x4096x2_S2048x4096_d2 : S2048x4096x2.ReducesTo [2] S2048x4096
  h_S_ : 0 < S_.numel
  bcast_S2048x4096_S2048x4096x1_0_1 : S2048x4096.BroadcastsInDim S2048x4096x1 (![0, 1] : Fin 2 → Fin S2048x4096x1.rank)
  bcast_S9_S1x1x9_2 : S9.BroadcastsInDim S1x1x9 (![2] : Fin 1 → Fin S1x1x9.rank)
  bcast_S1x1x9_S2048x4096x9_0_1_2 : S1x1x9.BroadcastsInDim S2048x4096x9 (![0, 1, 2] : Fin 3 → Fin S2048x4096x9.rank)
  bcast_S2048x4096x1_S2048x4096x9_0_1_2 : S2048x4096x1.BroadcastsInDim S2048x4096x9 (![0, 1, 2] : Fin 3 → Fin S2048x4096x9.rank)
  bcast_S_S2048x4096x9 : S_.BroadcastsInDim S2048x4096x9 (![] : Fin 0 → Fin S2048x4096x9.rank)
  bcast_S_S2048x4096x1 : S_.BroadcastsInDim S2048x4096x1 (![] : Fin 0 → Fin S2048x4096x1.rank)
  slices_S2048x4096x9_S2048x4096x1_0_0_0 : S2048x4096x9.Slices ![0, 0, 0] S2048x4096x1
  shapeCasts_S2048x4096x1_S2048x4096 : S2048x4096x1.ShapeCasts S2048x4096
  slices_S2048x4096_S2048x4096_0_0 : S2048x4096.Slices ![0, 0] S2048x4096
  slices_S2048x4096_S0x4096_0_0 : S2048x4096.Slices ![0, 0] S0x4096
  concatenates_S2048x4096_S0x4096_S2048x4096_d0 : Shape.Concatenates [S2048x4096, S0x4096] S2048x4096 0
  slices_S2048x4096_S2048x0_0_0 : S2048x4096.Slices ![0, 0] S2048x0
  concatenates_S2048x4096_S2048x0_S2048x4096_d1 : Shape.Concatenates [S2048x4096, S2048x0] S2048x4096 1
  slices_S2048x4096x9_S2048x4096x1_0_0_1 : S2048x4096x9.Slices ![0, 0, 1] S2048x4096x1
  slices_S2048x4096_S2048x1_0_4095 : S2048x4096.Slices ![0, 4095] S2048x1
  slices_S2048x4096_S2048x4095_0_0 : S2048x4096.Slices ![0, 0] S2048x4095
  concatenates_S2048x1_S2048x4095_S2048x4096_d1 : Shape.Concatenates [S2048x1, S2048x4095] S2048x4096 1
  slices_S2048x4096x9_S2048x4096x1_0_0_2 : S2048x4096x9.Slices ![0, 0, 2] S2048x4096x1
  slices_S2048x4096_S1x4096_2047_0 : S2048x4096.Slices ![2047, 0] S1x4096
  slices_S2048x4096_S2047x4096_0_0 : S2048x4096.Slices ![0, 0] S2047x4096
  concatenates_S1x4096_S2047x4096_S2048x4096_d0 : Shape.Concatenates [S1x4096, S2047x4096] S2048x4096 0
  slices_S2048x4096x9_S2048x4096x1_0_0_3 : S2048x4096x9.Slices ![0, 0, 3] S2048x4096x1
  slices_S2048x4096_S2048x4095_0_1 : S2048x4096.Slices ![0, 1] S2048x4095
  slices_S2048x4096_S2048x1_0_0 : S2048x4096.Slices ![0, 0] S2048x1
  concatenates_S2048x4095_S2048x1_S2048x4096_d1 : Shape.Concatenates [S2048x4095, S2048x1] S2048x4096 1
  slices_S2048x4096x9_S2048x4096x1_0_0_4 : S2048x4096x9.Slices ![0, 0, 4] S2048x4096x1
  slices_S2048x4096_S2047x4096_1_0 : S2048x4096.Slices ![1, 0] S2047x4096
  slices_S2048x4096_S1x4096_0_0 : S2048x4096.Slices ![0, 0] S1x4096
  concatenates_S2047x4096_S1x4096_S2048x4096_d0 : Shape.Concatenates [S2047x4096, S1x4096] S2048x4096 0
  slices_S2048x4096x9_S2048x4096x1_0_0_5 : S2048x4096x9.Slices ![0, 0, 5] S2048x4096x1
  slices_S2048x4096x9_S2048x4096x1_0_0_6 : S2048x4096x9.Slices ![0, 0, 6] S2048x4096x1
  slices_S2048x4096x9_S2048x4096x1_0_0_7 : S2048x4096x9.Slices ![0, 0, 7] S2048x4096x1
  slices_S2048x4096x9_S2048x4096x1_0_0_8 : S2048x4096x9.Slices ![0, 0, 8] S2048x4096x1
  concatenates_S2048x4096x1_S2048x4096x1_S2048x4096x1_S2048x4096x1_S2048x4096x1_S2048x4096x1_S2048x4096x1_S2048x4096x1_S2048x4096x1_S2048x4096x9_d2 : Shape.Concatenates [S2048x4096x1, S2048x4096x1, S2048x4096x1, S2048x4096x1, S2048x4096x1, S2048x4096x1, S2048x4096x1, S2048x4096x1, S2048x4096x1] S2048x4096x9 2
  reducesTo_S2048x4096x9_S2048x4096_d2 : S2048x4096x9.ReducesTo [2] S2048x4096
  bcast_S2048x4096x1_S2048x4096x2_0_1_2 : S2048x4096x1.BroadcastsInDim S2048x4096x2 (![0, 1, 2] : Fin 3 → Fin S2048x4096x2.rank)
  dot_S2048x4096x2_S9x2_S2048x4096x9_2_1_01_0_n_n_wf : DotDims.WF S2048x4096x2 S9x2 S2048x4096x9 [2] [1] [0, 1] [0] [] []
  dot_S2048x4096x9_S9x2_S2048x4096x2_2_0_01_1_n_n_wf : DotDims.WF S2048x4096x9 S9x2 S2048x4096x2 [2] [0] [0, 1] [1] [] []

variable [Facts₀]

def dot_S2048x4096x2_S9x2_S2048x4096x9_2_1_01_0_n_n : DotDims S2048x4096x2 S9x2 S2048x4096x9 where
  lhsContracting := [2]
  rhsContracting := [1]
  lhsNonContracting := [0, 1]
  rhsNonContracting := [0]
  lhsBatch := []
  rhsBatch := []
  wf := dot_S2048x4096x2_S9x2_S2048x4096x9_2_1_01_0_n_n_wf
def dot_S2048x4096x9_S9x2_S2048x4096x2_2_0_01_1_n_n : DotDims S2048x4096x9 S9x2 S2048x4096x2 where
  lhsContracting := [2]
  rhsContracting := [0]
  lhsNonContracting := [0, 1]
  rhsNonContracting := [1]
  lhsBatch := []
  rhsBatch := []
  wf := dot_S2048x4096x9_S9x2_S2048x4096x2_2_0_01_1_n_n_wf

class Facts : Prop extends Facts₀ where

variable [Facts]
-- ==== Proof.BBody0.lean ====
/-
  The collision kernel at one grid point.  The point's blocks are a 9 x 256 x 512 tile of the channel-first
  populations and the 256 x 512 tiles of density and the two velocity components; the body stores, channel by
  channel, the relaxed populations of the tile, each channel a function of the three 256 x 512 tiles and of that
  channel of the input tile.  Stated here: what the body leaves in the output tile (nine slabs, one per channel),
  that the body run on whole staging buffers does leave it, and the pipeline's proof data and body obligation
  built on it, at any float instance and for any contents `V` the region is entered with.
-/
import proofs.«419865_j42563125903664_3_alg».proof.Proof.Gen.Kernel.Launch
import proofs.«419865_j42563125903664_3_alg».proof.Proof.Gen.Kernel.Skeleton
import proofs.«419865_j42563125903664_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 256 x 512 tile and the nine one-channel slabs of the 9 x 256 x 512 tile. -/
abbrev rT : Rect S256x512 := Rect.unit (s := S256x512) ![0, 0] S256x512.size inb_S256x512_S256x512_0_0
abbrev rC0 : Rect S9x256x512 := Rect.unit (s := S9x256x512) ![0, 0, 0] S1x256x512.size inb_S9x256x512_S1x256x512_0_0_0
abbrev rC1 : Rect S9x256x512 := Rect.unit (s := S9x256x512) ![1, 0, 0] S1x256x512.size inb_S9x256x512_S1x256x512_1_0_0
abbrev rC2 : Rect S9x256x512 := Rect.unit (s := S9x256x512) ![2, 0, 0] S1x256x512.size inb_S9x256x512_S1x256x512_2_0_0
abbrev rC3 : Rect S9x256x512 := Rect.unit (s := S9x256x512) ![3, 0, 0] S1x256x512.size inb_S9x256x512_S1x256x512_3_0_0
abbrev rC4 : Rect S9x256x512 := Rect.unit (s := S9x256x512) ![4, 0, 0] S1x256x512.size inb_S9x256x512_S1x256x512_4_0_0
abbrev rC5 : Rect S9x256x512 := Rect.unit (s := S9x256x512) ![5, 0, 0] S1x256x512.size inb_S9x256x512_S1x256x512_5_0_0
abbrev rC6 : Rect S9x256x512 := Rect.unit (s := S9x256x512) ![6, 0, 0] S1x256x512.size inb_S9x256x512_S1x256x512_6_0_0
abbrev rC7 : Rect S9x256x512 := Rect.unit (s := S9x256x512) ![7, 0, 0] S1x256x512.size inb_S9x256x512_S1x256x512_7_0_0
abbrev rC8 : Rect S9x256x512 := Rect.unit (s := S9x256x512) ![8, 0, 0] S1x256x512.size inb_S9x256x512_S1x256x512_8_0_0

/-- The output tile after the body, from the four input tiles: its nine stores as pieces, LAST FIRST; each
    payload is the skeleton's, over the tiles the body loaded (`xr` density, `xu` / `xv` the velocity components,
    `xf` the populations). -/
def out0_4 (xf : Vec F S9x256x512 .f32) (xr xu xv : Vec F S256x512 .f32) : Vec F S9x256x512 .f32 :=
  have v0 := View.ld xr rT
  have v1 := View.ld xu rT
  have v3 := View.ld xv rT
  have v2 := k0_pay2 v1
  have v4 := k0_pay3 v3
  have v7 := k0_pay4 v1 v3
  have v111 := View.ld xf rC3
  View.canon [
    ⟨rC8, k0_pay1 v0 v2 v4 v7 (View.ld xf rC8)⟩,
    ⟨rC7, k0_pay21 v0 v2 v4 v7 (View.ld xf rC7)⟩,
    ⟨rC6, k0_pay20 (k0_pay19 v0 v2 v4 v7) (View.ld xf rC6)⟩,
    ⟨rC5, k0_pay18 v0 v7 (k0_pay16 v2 v4) (k0_pay17 (F := F)) (View.ld xf rC5)⟩,
    ⟨rC4, k0_pay15 v0 v2 v4 v7 (View.ld xf rC4)⟩,
    ⟨rC3, k0_pay14 (k0_pay12 v111) (k0_pay13 v0 v2 v4 v7 v111)⟩,
    ⟨rC2, k0_pay11 v7 (k0_pay7 v2 v4) (k0_pay8 v0) (k0_pay9 v2 v4) (k0_pay10 (F := F)) (View.ld xf rC2)⟩,
    ⟨rC1, k0_pay6 v0 v2 v4 v7 (Scalar.ofBits .f32 0x3F800000#32) (View.ld xf rC1)⟩,
    ⟨rC0, k0_pay5 v0 v1 v3 (View.ld xf rC0)⟩]

/-- The proof data of the collision pipeline on core `c`: the arrays as the region finds them; after the body at
    point `t` each input's buffer at its block and the output's at `out0_4` of the input blocks; the class invariant;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-! ## The input windows' buffers -/

/-- The populations' staging buffer holds the populations' block at every point, fetched there or not. -/
theorem before0_0 (c : Dev nD) (t : Fin cfg0.N) (d) : (dat0 V c).before 0 t d = iblk0 V c 0 t := by
  refine ((dat0 V c).before_in_eq_fetched 0 rfl (fun _ => rfl) (fun _ _ _ => rfl) (fun t => ?_) t d).trans ?_
  · rw [after0_0]; unfold Dat.blockOf iblk0; rw [A_eq0]; try rfl
  · unfold Dat.fetched Dat.blockOf iblk0; rw [A_eq0]; try rfl

/-- The density's staging buffer holds the density's block at every point. -/
theorem before0_1 (c : Dev nD) (t : Fin cfg0.N) (d) : (dat0 V c).before 1 t d = iblk0 V c 1 t := by
  refine ((dat0 V c).before_in_eq_fetched 1 rfl (fun _ => rfl) (fun _ _ _ => rfl) (fun t => ?_) t d).trans ?_
  · rw [after0_1]; unfold Dat.blockOf iblk0; rw [A_eq0]; try rfl
  · unfold Dat.fetched Dat.blockOf iblk0; rw [A_eq0]; try rfl

/-- The first velocity component's staging buffer holds its block at every point. -/
theorem before0_2 (c : Dev nD) (t : Fin cfg0.N) (d) : (dat0 V c).before 2 t d = iblk0 V c 2 t := by
  refine ((dat0 V c).before_in_eq_fetched 2 rfl (fun _ => rfl) (fun _ _ _ => rfl) (fun t => ?_) t d).trans ?_
  · rw [after0_2]; unfold Dat.blockOf iblk0; rw [A_eq0]; try rfl
  · unfold Dat.fetched Dat.blockOf iblk0; rw [A_eq0]; try rfl

/-- The second velocity component's staging buffer holds its block at every point. -/
theorem before0_3 (c : Dev nD) (t : Fin cfg0.N) (d) : (dat0 V c).before 3 t d = iblk0 V c 3 t := by
  refine ((dat0 V c).before_in_eq_fetched 3 rfl (fun _ => rfl) (fun _ _ _ => rfl) (fun t => ?_) t d).trans ?_
  · rw [after0_3]; unfold Dat.blockOf iblk0; rw [A_eq0]; try rfl
  · unfold Dat.fetched Dat.blockOf iblk0; rw [A_eq0]; try rfl

/-! ## The nine slabs cover the output tile -/

/-- One slab per channel, each the full 256 x 512 plane: every index of the 9 x 256 x 512 tile lies in the slab
    of its channel. -/
theorem cover0_4 (p0 p1 p2 p3 p4 p5 p6 p7 p8 : Vec F S1x256x512 .f32) (y : S9x256x512.Idx) :
    ∃ pc ∈ ([⟨rC8, p8⟩, ⟨rC7, p7⟩, ⟨rC6, p6⟩, ⟨rC5, p5⟩, ⟨rC4, p4⟩, ⟨rC3, p3⟩, ⟨rC2, p2⟩, ⟨rC1, p1⟩, ⟨rC0, p0⟩] : List (View.Piece (Elt F) S9x256x512 .f32)), y ∈ pc.1.set :=
  View.cover_of_tiled [⟨rC8, p8⟩, ⟨rC7, p7⟩, ⟨rC6, p6⟩, ⟨rC5, p5⟩, ⟨rC4, p4⟩, ⟨rC3, p3⟩, ⟨rC2, p2⟩, ⟨rC1, p1⟩, ⟨rC0, p0⟩] S1x256x512.size (by rfl) y

/-! ## The body's triple -/

set_option maxHeartbeats 4000000 in
/-- The collision body on whole staging buffers — the four inputs' at read contents `xf`, `xr`, `xu`, `xv`, the
    output's at anything — runs to the continuation holding the inputs' as they were and the output's at
    `out0_4` of them: the body only loads the inputs, and its nine stores, one slab each, cover the output, so what
    the output buffer held before (the slabs the body loads from it and drops included) does not matter. -/
theorem sound_kernel0 (c : Dev nD) (E : Set ℕ) (i : grid0.Coords)
    (arg2 : Memref sig .tc .vmem S9x256x512 .f32) (harg2 : arg2.IsWhole)
    (arg3 : Memref sig .tc .vmem S256x512 .f32) (harg3 : arg3.IsWhole)
    (arg4 : Memref sig .tc .vmem S256x512 .f32) (harg4 : arg4.IsWhole)
    (arg5 : Memref sig .tc .vmem S256x512 .f32) (harg5 : arg5.IsWhole)
    (arg6 : Memref sig .tc .vmem S9x256x512 .f32) (harg6 : arg6.IsWhole)
    (xf : Vec F S9x256x512 .f32) (xr xu xv : Vec F S256x512 .f32) (K : PUnit → sProp 𝕄) :
    iprop(owns (c : Thread nD τ) arg2 fullShare xf ∗ owns (c : Thread nD τ) arg3 fullShare xr
        ∗ owns (c : Thread nD τ) arg4 fullShare xu ∗ owns (c : Thread nD τ) arg5 fullShare xv
        ∗ (∃ d, owns (c : Thread nD τ) arg6 fullShare d)
        ∗ (iprop(owns (c : Thread nD τ) arg2 fullShare xf ∗ owns (c : Thread nD τ) arg3 fullShare xr
            ∗ owns (c : Thread nD τ) arg4 fullShare xu ∗ owns (c : Thread nD τ) arg5 fullShare xv
            ∗ owns (c : Thread nD τ) arg6 fullShare (out0_4 xf xr xu xv)) -∗ K ⟨⟩))
      ⊢ wp frame (wpE (defs₀ (F := F)) Variants.none c none) E
          (cc0_collide_kernel i arg2 harg2 arg3 harg3 arg4 harg4 arg5 harg5 arg6 harg6) K := by
  simp only [cc0_collide_kernel_eq_skeleton]; unfold cc0_collide_kernel_skel
  unfold owns
  iintro ⟨⟨%f2, %hf2, H2⟩, ⟨%f3, %hf3, H3⟩, ⟨%f4, %hf4, H4⟩, ⟨%f5, %hf5, H5⟩, ⟨%d6, %f6, -, H6⟩, Hk⟩
  subst hf2 hf3 hf4 hf5
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_4 _ _ _ _ _ _ _ _ _)

/-! ## The body obligation, at a generic point -/

/-- What the body is called with at point `t`: the invariant, the core's debts, and each window's current staging
    buffer whole at what the pipeline left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What the body returns: the same, each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the four inputs' buffers hold their blocks, whatever the output's holds, so the body's
    triple applies at the blocks; the invariant and the debts are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BBody1.lean ====
/-
  The lift kernel at one grid point.  The point's input block is a 9 x 256 x 512 tile of the streamed
  channel-first populations; the body stores three 256 x 512 tiles: the sum of the nine channels (density), and
  the two velocity-weighted sums each divided by that density.  Stated here: what the body leaves in each output
  tile, that the body run on whole staging buffers leaves it, and the pipeline's proof data and body obligation, at
  any float instance and for any contents `V` the region is entered with.
-/
import proofs.«419865_j42563125903664_3_alg».proof.Proof.Gen.Kernel.Launch
import proofs.«419865_j42563125903664_3_alg».proof.Proof.Gen.Kernel.Skeleton
import proofs.«419865_j42563125903664_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 256 x 512 tile and the nine one-channel slabs of the 9 x 256 x 512 tile. -/
abbrev sT : Rect S256x512 := Rect.unit (s := S256x512) ![0, 0] S256x512.size inb_S256x512_S256x512_0_0
abbrev sC0 : Rect S9x256x512 := Rect.unit (s := S9x256x512) ![0, 0, 0] S1x256x512.size inb_S9x256x512_S1x256x512_0_0_0
abbrev sC1 : Rect S9x256x512 := Rect.unit (s := S9x256x512) ![1, 0, 0] S1x256x512.size inb_S9x256x512_S1x256x512_1_0_0
abbrev sC2 : Rect S9x256x512 := Rect.unit (s := S9x256x512) ![2, 0, 0] S1x256x512.size inb_S9x256x512_S1x256x512_2_0_0
abbrev sC3 : Rect S9x256x512 := Rect.unit (s := S9x256x512) ![3, 0, 0] S1x256x512.size inb_S9x256x512_S1x256x512_3_0_0
abbrev sC4 : Rect S9x256x512 := Rect.unit (s := S9x256x512) ![4, 0, 0] S1x256x512.size inb_S9x256x512_S1x256x512_4_0_0
abbrev sC5 : Rect S9x256x512 := Rect.unit (s := S9x256x512) ![5, 0, 0] S1x256x512.size inb_S9x256x512_S1x256x512_5_0_0
abbrev sC6 : Rect S9x256x512 := Rect.unit (s := S9x256x512) ![6, 0, 0] S1x256x512.size inb_S9x256x512_S1x256x512_6_0_0
abbrev sC7 : Rect S9x256x512 := Rect.unit (s := S9x256x512) ![7, 0, 0] S1x256x512.size inb_S9x256x512_S1x256x512_7_0_0
abbrev sC8 : Rect S9x256x512 := Rect.unit (s := S9x256x512) ![8, 0, 0] S1x256x512.size inb_S9x256x512_S1x256x512_8_0_0

/-- The running sums the body keeps after the first four and after all nine channels (the skeleton's payloads over
    the loaded slabs of the input tile `x`). -/
def acc1_rho (x : Vec F S9x256x512 .f32) : FVec F S256x512 .f32 :=
  k1_pay17 (k1_pay7 (View.ld x sC0) (View.ld x sC1) (View.ld x sC2) (View.ld x sC3)) (k1_pay10 (View.ld x sC4))
    (View.ld x sC5) (View.ld x sC6) (View.ld x sC7) (View.ld x sC8)
def acc1_ux (x : Vec F S9x256x512 .f32) : FVec F S256x512 .f32 :=
  k1_pay14 (k1_pay8 (View.ld x sC0) (View.ld x sC1) (View.ld x sC2) (View.ld x sC3)) (k1_pay10 (View.ld x sC4))
    (View.ld x sC5) (View.ld x sC6) (View.ld x sC7)
def acc1_uy (x : Vec F S9x256x512 .f32) : FVec F S256x512 .f32 :=
  k1_pay15 (k1_pay9 (View.ld x sC0) (View.ld x sC1) (View.ld x sC2) (View.ld x sC3)) (k1_pay10 (View.ld x sC4))
    (View.ld x sC5) (View.ld x sC6) (View.ld x sC7)

/-- Each output tile after the body, from the input tile: its one store as a piece. -/
def out1_1 (x : Vec F S9x256x512 .f32) : Vec F S256x512 .f32 :=
  View.canon [⟨sT, acc1_rho x⟩]
def out1_2 (x : Vec F S9x256x512 .f32) : Vec F S256x512 .f32 :=
  View.canon [⟨sT, k1_pay1 (acc1_ux x) (acc1_rho x) (k1_pay18 (View.ld x sC8))⟩]
def out1_3 (x : Vec F S9x256x512 .f32) : Vec F S256x512 .f32 :=
  View.canon [⟨sT, k1_pay2 (acc1_uy x) (k1_pay16 (View.ld x sC8)) (acc1_rho x)⟩]

/-- The proof data of the lift pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
    | ⟨2, _⟩ => out1_2 (iblk1 V c 0 t)
    | ⟨3, _⟩ => out1_3 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]
theorem after1_2 (c : Dev nD) (t : Fin cfg1.N) : (dat1 V c).after 2 t = out1_2 (iblk1 V c 0 t) := by dsimp only [dat1]
theorem after1_3 (c : Dev nD) (t : Fin cfg1.N) : (dat1 V c).after 3 t = out1_3 (iblk1 V c 0 t) := by dsimp only [dat1]

/-- The input window's staging buffer holds the point's block whether or not the point fetched it: the window is
    uncut and never idle, and the body leaves the block where it found it. -/
theorem before1_0 (c : Dev nD) (t : Fin cfg1.N) (d) : (dat1 V c).before 0 t d = iblk1 V c 0 t := by
  have hkeep : ∀ t, (cfg1.win 0).cut (cfg1.grid.coords t) ((dat1 V c).after 0 t) = (dat1 V c).blockOf 0 t := by
    intro t
    rw [after1_0]
    unfold Dat.blockOf iblk1
    rw [A_eq1]
    try rfl
  rw [(dat1 V c).before_in_eq_fetched 0 rfl (fun _ => rfl) (fun _ _ _ => rfl) hkeep t d]
  unfold Dat.fetched Dat.blockOf iblk1
  rw [A_eq1]
  try rfl

/-- One whole-tile piece covers the tile. -/
theorem cover1 (p : Vec F S256x512 .f32) (y : S256x512.Idx) :
    ∃ pc ∈ ([⟨sT, p⟩] : List (View.Piece (Elt F) S256x512 .f32)), y ∈ pc.1.set :=
  View.cover_of_tiled [⟨sT, p⟩] S256x512.size (by rfl) y

set_option maxHeartbeats 1000000 in
/-- The body on whole staging buffers: the input tile is read and left alone, each output tile ends at its
    `out1_k` of the input tile whatever it held before. -/
theorem sound_kernel1 (c : Dev nD) (E : Set ℕ) (i : grid1.Coords)
    (arg2 : Memref sig .tc .vmem S9x256x512 .f32) (harg2 : arg2.IsWhole)
    (arg3 : Memref sig .tc .vmem S256x512 .f32) (harg3 : arg3.IsWhole)
    (arg4 : Memref sig .tc .vmem S256x512 .f32) (harg4 : arg4.IsWhole)
    (arg5 : Memref sig .tc .vmem S256x512 .f32) (harg5 : arg5.IsWhole)
    (x : Vec F S9x256x512 .f32) (K : PUnit → sProp 𝕄) :
    iprop(owns (c : Thread nD τ) arg2 fullShare x ∗ (∃ d, owns (c : Thread nD τ) arg3 fullShare d)
        ∗ (∃ d, owns (c : Thread nD τ) arg4 fullShare d) ∗ (∃ d, owns (c : Thread nD τ) arg5 fullShare d)
        ∗ (iprop(owns (c : Thread nD τ) arg2 fullShare x ∗ owns (c : Thread nD τ) arg3 fullShare (out1_1 x)
            ∗ owns (c : Thread nD τ) arg4 fullShare (out1_2 x) ∗ owns (c : Thread nD τ) arg5 fullShare (out1_3 x)) -∗ K ⟨⟩))
      ⊢ wp frame (wpE (defs₀ (F := F)) Variants.none c none) E (cc1_macro_kernel i arg2 harg2 arg3 harg3 arg4 harg4 arg5 harg5) K := by
  simp only [cc1_macro_kernel_eq_skeleton]; unfold cc1_macro_kernel_skel
  unfold owns
  iintro ⟨⟨%f2, %hf2, H2⟩, ⟨%d3, %f3, -, H3⟩, ⟨%d4, %f4, -, H4⟩, ⟨%d5, %f5, -, H5⟩, Hk⟩
  subst hf2
  sl_exec
  sl_step
  iapply Hk
  isplitl [H2]
  · iexists f2; isplitr; · ipureintro; rfl
    iexact H2
  isplitl [H3]
  · iexists _; isplitr
    swap; · iexact H3
    ipureintro
    exact View.read_writes_eq_canon _ _ _ (cover1 _)
  isplitl [H4]
  · iexists _; isplitr
    swap; · iexact H4
    ipureintro
    exact View.read_writes_eq_canon _ _ _ (cover1 _)
  iexists _; isplitr
  swap; · iexact H5
  ipureintro
  exact View.read_writes_eq_canon _ _ _ (cover1 _)

/-- The outputs' staging buffers are handed over at whatever they hold; the input's at its block. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- After the body every window's staging buffer is at the proof data's `after`. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at a point: the invariant and the core's debts are carried past it untouched, the four staging
    buffers go through `sound_kernel1` with the input tile at the point's block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) _)
  isplitl [H0]; · iexact H0
  isplitl [H1]; · iexists _; iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BRun.lean ====
/-
  The whole program as a run: the two pipelines' proof data put at the contents their regions are entered with,
  what each region leaves in the arrays it writes, and the run itself - every weakly fair execution of the program
  ends, with every unscoped buffer at the contents obtained by threading the launch memory through the host
  stretches and the two regions.
-/
import proofs.«419865_j42563125903664_3_alg».proof.Proof.Gen.Kernel.Launch
import proofs.«419865_j42563125903664_3_alg».proof.Proof.Gen.Kernel.Skeleton
import proofs.«419865_j42563125903664_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«419865_j42563125903664_3_alg».proof.Proof.Gen.Kernel.Regions
import proofs.«419865_j42563125903664_3_alg».proof.Proof.BFrameAll
import proofs.«419865_j42563125903664_3_alg».proof.Proof.BBody0
import proofs.«419865_j42563125903664_3_alg».proof.Proof.BBody1
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two regions leave

Region 0 is entered with the buffers at Gen.V1 and writes its one output array; region 1 is entered with the
buffers at Gen.V21, which depends on what region 0 left, and writes its three output arrays.  So the unknowns are
chosen in two steps: first what is read after region 0, then, over it, what is read after region 1. -/

/-- The buffers as region 0 leaves them: each of its five arrays at what the pipeline holds there after the last
    point, every other buffer as the region found it. -/
def exit0 (c : Dev nD) : Valuation τ sig (Elt F) :=
  Pipeline.withArrays spec0 c (Gen.V1 m c) fun w => (dat0 (fun c b => Gen.V1 m c b) c).arrAt w cfg0.N

theorem exit0_at (c : Dev nD) (w : Fin cfg0.W) :
    exit0 m c (Proc.devRef .tc (Pipeline.arrRef spec0 w)) = (dat0 (fun c b => Gen.V1 m c b) c).arrAt w cfg0.N := by
  unfold exit0; exact Pipeline.withArrays_arr spec0 winFacts0.arr_inj c _ _ w

/-- The unknowns as far as region 1's entry reads them: region 0's exit contents at every index. -/
def outsA : Gen.Outs (F := F) := fun _ r c => exit0 m c (Proc.devRef .tc r)

/-- The buffers as region 1 leaves them, over what region 0 left. -/
def exit1 (c : Dev nD) : Valuation τ sig (Elt F) :=
  Pipeline.withArrays spec1 c (Gen.V21 m (outsA m) c) fun w => (dat1 (fun c b => Gen.V21 m (outsA m) c b) c).arrAt w cfg1.N

theorem exit1_at (c : Dev nD) (w : Fin cfg1.W) :
    exit1 m c (Proc.devRef .tc (Pipeline.arrRef spec1 w)) = (dat1 (fun c b => Gen.V21 m (outsA m) c b) c).arrAt w cfg1.N := by
  unfold exit1; exact Pipeline.withArrays_arr spec1 winFacts1.arr_inj c _ _ w

/-- What the regions leave in the arrays they write: region 0 the relaxed populations' array (read at item 2),
    region 1 the three lifted fields' arrays (read at item 22); each is its pipeline's array after the last point. -/
def outs (m : (ℓ : Loc nD τ sig) → Buf (Elt F) ℓ) : Gen.Outs (F := F) := fun J r c =>
  if J = 2 then exit0 m c (Proc.devRef .tc r) else exit1 m c (Proc.devRef .tc r)

/-- At item 2 the unknowns are region 0's exit contents, at item 22 region 1's. -/
theorem outs_at2 (r : Ref sig .tc) (c : Dev nD) : outs m 2 r c = outsA m 2 r c := if_pos rfl
theorem outs_at22 (r : Ref sig .tc) (c : Dev nD) : outs m 22 r c = exit1 m c (Proc.devRef .tc r) := if_neg (by decide)

/-- Region 1's entry contents read the unknowns at item 2 only. -/
theorem V21_outs (c : Dev nD) : Gen.V21 m (outs m) c = Gen.V21 m (outsA m) c := by
  simp only [Gen.V21, Gen.V20, Gen.V19, Gen.V18, Gen.V17, Gen.V16, Gen.V15, Gen.V14, Gen.V13, Gen.V12, Gen.V11, Gen.V10,
    Gen.V9, Gen.V8, Gen.V7, Gen.V6, Gen.V5, Gen.V4, Gen.V3, Gen.V2, outs_at2]

theorem entry1_eq :
    (fun (c : Dev nD) (b : Ref sig .tc) => Gen.V21 m (outs m) c b)
      = fun (c : Dev nD) (b : Ref sig .tc) => Gen.V21 m (outsA m) c b := by
  funext c b; rw [V21_outs]

theorem outs_2 (c : Dev nD) :
    outs m 2 main_v5 c = (dat0 (fun c b => Gen.V1 m c b) c).arrAt 4 cfg0.N :=
  (outs_at2 m main_v5 c).trans (exit0_at m c 4)

/-- At item 22 each array of region 1 holds what its pipeline leaves there. -/
theorem outs_22 (c : Dev nD) (w : Fin cfg1.W) :
    outs m 22 (Pipeline.arrRef spec1 w) c = (dat1 (fun c b => Gen.V21 m (outs m) c b) c).arrAt w cfg1.N := by
  rw [entry1_eq m]
  exact (outs_at22 m _ c).trans (exit1_at m c w)

theorem outs_22_0 (c : Dev nD) :
    outs m 22 main_v43_0 c = (dat1 (fun c b => Gen.V21 m (outs m) c b) c).arrAt 1 cfg1.N := outs_22 m c 1
theorem outs_22_1 (c : Dev nD) :
    outs m 22 main_v43_1 c = (dat1 (fun c b => Gen.V21 m (outs m) c b) c).arrAt 2 cfg1.N := outs_22 m c 2
theorem outs_22_2 (c : Dev nD) :
    outs m 22 main_v43_2 c = (dat1 (fun c b => Gen.V21 m (outs m) c b) c).arrAt 3 cfg1.N := outs_22 m c 3

/-! ## The generated boundary contents at the regions' arrays

Gen.V2 is Gen.V1 changed at the output array alone and Gen.V22 is Gen.V21 changed at the three output arrays alone;
an input window's array is never written back, so it leaves its region as it entered. -/

/-- Region 0's arrays at its exit: the four inputs as entered, the output at the unknown read at item 2. -/
theorem exit0_arr (c : Dev nD) (w : Fin cfg0.W) :
    (dat0 (fun c b => Gen.V1 m c b) c).arrAt w cfg0.N = Gen.V2 m (outs m) c (Pipeline.arrRef spec0 w) := by
  have hin : ∀ w : Fin cfg0.W, w ≠ 4 → (cfg0.win w).isOut = false ∧ Pipeline.arrRef spec0 w ≠ main_v5 := by decide
  by_cases hw : w = 4
  · subst hw
    exact (outs_2 m c).symm.trans (Function.update_self (Proc.devRef .tc main_v5 : DevRef τ sig) (outs m 2 main_v5 c) (Gen.V1 m c)).symm
  · exact ((dat0 _ c).arrAt_in w (hin w hw).1 _).trans <| (A_eq0 _ c w).trans
      (Function.update_of_ne (StableHlo.devRef_ne_of_ne (hin w hw).2) _ _).symm

/-- Off region 0's arrays nothing changes across it. -/
theorem exit0_rest (c : Dev nD) (b : Ref sig .tc) (hb : b ∉ Finset.univ.image (Pipeline.arrRef spec0)) :
    Gen.V2 m (outs m) c b = Gen.V1 m c b :=
  Function.update_of_ne (StableHlo.devRef_ne_of_ne fun e => hb (Finset.mem_image.mpr ⟨4, Finset.mem_univ _, e.symm⟩)) _ _

/-- Region 1's arrays at its exit: the input as entered, each output at the unknown read at item 22. -/
theorem exit1_arr (c : Dev nD) (w : Fin cfg1.W) :
    (dat1 (fun c b => Gen.V21 m (outs m) c b) c).arrAt w cfg1.N = Gen.V22 m (outs m) c (Pipeline.arrRef spec1 w) := by
  have h01 : (Proc.devRef .tc main_v43_0 : DevRef τ sig) ≠ Proc.devRef .tc main_v43_1 := StableHlo.devRef_ne_of_ne (by decide)
  have h02 : (Proc.devRef .tc main_v43_0 : DevRef τ sig) ≠ Proc.devRef .tc main_v43_2 := StableHlo.devRef_ne_of_ne (by decide)
  have h12 : (Proc.devRef .tc main_v43_1 : DevRef τ sig) ≠ Proc.devRef .tc main_v43_2 := StableHlo.devRef_ne_of_ne (by decide)
  match w with
  | ⟨0, _⟩ =>
    exact ((dat1 _ c).arrAt_in 0 rfl _).trans <| (A_eq1 _ c 0).trans (Gen.V22_of m (outs m) c main_v42 (by decide)).symm
  | ⟨1, _⟩ =>
    refine (outs_22_0 m c).symm.trans ?_
    simp only [Gen.V22, Function.update_of_ne h01, Function.update_of_ne h02, Function.update_self]
  | ⟨2, _⟩ =>
    refine (outs_22_1 m c).symm.trans ?_
    simp only [Gen.V22, Function.update_of_ne h12, Function.update_self]
  | ⟨3, _⟩ =>
    refine (outs_22_2 m c).symm.trans ?_
    simp only [Gen.V22, Function.update_self]

/-- Off region 1's arrays nothing changes across it. -/
theorem exit1_rest (c : Dev nD) (b : Ref sig .tc) (hb : b ∉ Finset.univ.image (Pipeline.arrRef spec1)) :
    Gen.V22 m (outs m) c b = Gen.V21 m (outs m) c b :=
  Gen.V22_of m (outs m) c b fun hmem => by
    have hall : ∀ b' ∈ ([main_v43_0, main_v43_1, main_v43_2] : List (Ref sig .tc)), ∃ w, Pipeline.arrRef spec1 w = b' := by decide
    obtain ⟨w, e⟩ := hall b hmem
    exact hb (Finset.mem_image.mpr ⟨w, Finset.mem_univ _, e⟩)

/-! ## The proof data, and what rides beside the buffers -/

/-- Both pipelines' proof data, each at the contents its region is entered with. -/
def pdats : (p : Fin 2) → (c : Dev nD) → Dat τ (Elt F) Unit ℕ (UR sig nD τ) ℕ (cfgs p) c
  | ⟨0, _⟩ => fun c => dat0 (fun c b => Gen.V1 m c b) c
  | ⟨1, _⟩ => fun c => dat1 (fun c b => Gen.V21 m (outs m) c b) c

/-- No core owes another core anything in this program: no pair has a level. -/
abbrev noL : GSem nD τ sig → Finset Unit := fun _ => ∅
abbrev noLv : GSem nD τ sig → Unit → ℕ := fun _ _ => 0

/-- Beside the buffers a core carries, between any two items, its generator register at some state and the fact
    that it owes nothing. -/
abbrev Beside (c : Dev nD) : sProp 𝕄 :=
  iprop((∃ r, prngReg c r) ∗ ∃ W, owes (c : Thread nD τ) (0 : CellTallies nD τ sig Unit) W)

/-- No table is prefetched: the tables' resource is empty. -/
theorem noTables (p : Fin 2) (c : Dev nD) :
    (Pipeline.prefHeld (pcfgs (F := F) p).pre c (fun _ => fullShare) (Gen.adm (F := F) p).1 : sProp 𝕄) = BI.emp := by
  unfold Pipeline.prefHeld
  rw [show (Finset.univ : Finset (Fin (pcfgs (F := F) p).pre.K)) = ∅ from rfl, BI.bigSep_empty]

/-! ## The two regions as segments -/

set_option backward.isDefEq.respectTransparency.types false in
/-- Region 0 as a segment.  It is entered with every unscoped buffer at Gen.V1 m beside Beside, and left with
    every unscoped buffer at Gen.V2 m (outs m) beside Beside.  At entry the pipeline's arrays are taken out of the unscoped
    buffers and the generator register goes into the region invariant; at exit both come back, the arrays at what the
    pipeline left.  The kernel has no semaphore of its own and owes nothing at any point. -/
def reg0 : Pipeline.RegionSeg (pcfgs (F := F)) Gen.adm (pdats m) () defs₀ Variants.none noL noLv 0 where
  win := launch0.win.to₀
  block_pos := launch0.block_pos
  stage_whole := launch0.stage_whole
  K := PEmpty
  osem k := k.elim
  ho := Pipeline.OwnSemFacts.none _
  hbody c := (body_obligation0 (fun c b => Gen.V1 m c b) c).loose
  hwaits := Pipeline.hwaits_of_owed_zero _ _ _ _ noL noLv 0 fun _ _ => rfl
  pre c := iprop(StableHlo.held (c : Thread nD τ) (Pipeline.ucRefs τ sig) (Gen.V1 m c) ∗ Beside c)
  post c := iprop(StableHlo.held (c : Thread nD τ) (Pipeline.ucRefs τ sig) (Gen.V2 m (outs m) c) ∗ Beside c)
  X c := iprop(∃ r, prngReg c r)
  Y c := iprop(∃ r, prngReg c r)
  Z c := Pipeline.unscopedRest (Ix := Unit) (Name := ℕ) (U := UR sig nD τ) (Lvl := ℕ) spec0 c (fun b => Gen.V1 m c b)
  hentry c := by
    have hsplit := Pipeline.arrays_of_unscopedBufs (p := 0) (pcfgs (F := F)) Gen.adm (pdats m) launch0.win launch0.arr_whole c
      ((pdats m 0 c).share_full fun _ => rfl) (fun b => Gen.V1 m c b) fun _ => rfl
    rw [Pipeline.unscopedBufs_held] at hsplit
    rw [Pipeline.ownSems0_none, noTables]
    iintro ⟨⟨Hbufs, Hreg, %W, Howes⟩, -, -⟩
    ihave Hparts := hsplit $$ Hbufs
    icases Hparts with ⟨Harr, Hrest⟩
    imodintro
    isplitl [Harr]; · iexact Harr
    isplitr; · iempintro
    isplitl [Howes]
    · unfold Pipeline.Dat.owesAt Pipeline.owesWithin
      iexists W
      isplitr; · ipureintro; exact fun _ _ => Or.inl trivial
      iexact Howes
    isplitl [Hreg]; · iexact Hreg
    iexact Hrest
  hin c := by
    rw [noTables, show (pdats m 0 c).Φ 0 = Pipeline.ΦA spec0 c from rfl]
    unfold Pipeline.ΦA
    iintro ⟨Hreg, -, Hscoped⟩
    isplitl [Hscoped]; · iexact Hscoped
    iexact Hreg
  hout c := by
    rw [Pipeline.ownSems0_none, show (pdats m 0 c).Φ (Fin.last _) = Pipeline.ΦA spec0 c from rfl]
    unfold Pipeline.ΦA
    iintro ⟨Hscoped, Hreg⟩
    isplitl [Hreg]; · iexact Hreg
    isplitr; · iempintro
    iexact Hscoped
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (fun b => Gen.V1 m c b) (fun b => Gen.V2 m (outs m) c b) ((pdats m 0 c).arrAt · cfg0.N) (exit0_arr m c) (exit0_rest m c)
    rw [Pipeline.unscopedBufs_held] at hjoin
    iintro ⟨Harr, Howes, Hreg, Hrest⟩
    imodintro
    isplitl [Harr Hrest]
    · iapply hjoin
      isplitl [Harr]; · iexact Harr
      iexact Hrest
    isplitl [Hreg]; · iexact Hreg
    unfold Pipeline.Dat.owesAt Pipeline.owesWithin
    icases Howes with ⟨%W, -, Howes⟩
    iexists W; iexact Howes

set_option backward.isDefEq.respectTransparency.types false in
/-- Region 1 as a segment.  It is entered with every unscoped buffer at Gen.V21 m (outs m) beside Beside, and left with
    every unscoped buffer at Gen.V22 m (outs m) beside Beside.  At entry the pipeline's arrays are taken out of the unscoped
    buffers and the generator register goes into the region invariant; at exit both come back, the arrays at what the
    pipeline left.  The kernel has no semaphore of its own and owes nothing at any point. -/
def reg1 : Pipeline.RegionSeg (pcfgs (F := F)) Gen.adm (pdats m) () defs₀ Variants.none noL noLv 1 where
  win := launch1.win.to₀
  block_pos := launch1.block_pos
  stage_whole := launch1.stage_whole
  K := PEmpty
  osem k := k.elim
  ho := Pipeline.OwnSemFacts.none _
  hbody c := (body_obligation1 (fun c b => Gen.V21 m (outs m) c b) c).loose
  hwaits := Pipeline.hwaits_of_owed_zero _ _ _ _ noL noLv 1 fun _ _ => rfl
  pre c := iprop(StableHlo.held (c : Thread nD τ) (Pipeline.ucRefs τ sig) (Gen.V21 m (outs m) c) ∗ Beside c)
  post c := iprop(StableHlo.held (c : Thread nD τ) (Pipeline.ucRefs τ sig) (Gen.V22 m (outs m) c) ∗ Beside c)
  X c := iprop(∃ r, prngReg c r)
  Y c := iprop(∃ r, prngReg c r)
  Z c := Pipeline.unscopedRest (Ix := Unit) (Name := ℕ) (U := UR sig nD τ) (Lvl := ℕ) spec1 c (fun b => Gen.V21 m (outs m) c b)
  hentry c := by
    have hsplit := Pipeline.arrays_of_unscopedBufs (p := 1) (pcfgs (F := F)) Gen.adm (pdats m) launch1.win launch1.arr_whole c
      ((pdats m 1 c).share_full fun _ => rfl) (fun b => Gen.V21 m (outs m) c b) fun _ => rfl
    rw [Pipeline.unscopedBufs_held] at hsplit
    rw [Pipeline.ownSems0_none, noTables]
    iintro ⟨⟨Hbufs, Hreg, %W, Howes⟩, -, -⟩
    ihave Hparts := hsplit $$ Hbufs
    icases Hparts with ⟨Harr, Hrest⟩
    imodintro
    isplitl [Harr]; · iexact Harr
    isplitr; · iempintro
    isplitl [Howes]
    · unfold Pipeline.Dat.owesAt Pipeline.owesWithin
      iexists W
      isplitr; · ipureintro; exact fun _ _ => Or.inl trivial
      iexact Howes
    isplitl [Hreg]; · iexact Hreg
    iexact Hrest
  hin c := by
    rw [noTables, show (pdats m 1 c).Φ 0 = Pipeline.ΦA spec1 c from rfl]
    unfold Pipeline.ΦA
    iintro ⟨Hreg, -, Hscoped⟩
    isplitl [Hscoped]; · iexact Hscoped
    iexact Hreg
  hout c := by
    rw [Pipeline.ownSems0_none, show (pdats m 1 c).Φ (Fin.last _) = Pipeline.ΦA spec1 c from rfl]
    unfold Pipeline.ΦA
    iintro ⟨Hscoped, Hreg⟩
    isplitl [Hreg]; · iexact Hreg
    isplitr; · iempintro
    iexact Hscoped
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (fun b => Gen.V21 m (outs m) c b) (fun b => Gen.V22 m (outs m) c b) ((pdats m 1 c).arrAt · cfg1.N) (exit1_arr m c) (exit1_rest m c)
    rw [Pipeline.unscopedBufs_held] at hjoin
    iintro ⟨Harr, Howes, Hreg, Hrest⟩
    imodintro
    isplitl [Harr Hrest]
    · iapply hjoin
      isplitl [Harr]; · iexact Harr
      iexact Hrest
    isplitl [Hreg]; · iexact Hreg
    unfold Pipeline.Dat.owesAt Pipeline.owesWithin
    icases Howes with ⟨%W, -, Howes⟩
    iexists W; iexact Howes

/-! ## The run -/

/-- The run: every weakly fair execution from `m` with zero counters terminates, nothing faulting, and every
    unscoped buffer of every core ends at the last item's contents. -/
theorem run_all : θ_run defs (onTc (τ := τ) (main (F := F))) ⟨m, fun _ => 0, ρ⟩ (fun r => ∀ (c : Dev nD) (b : Ref sig .tc),
      ¬ (Proc.devRef .tc b : DevRef τ sig).isScoped →
      r.2.mem ((c.tc : Thread nD τ).loc b) = Gen.V23 m (outs m) c (Proc.devRef .tc b)) :=
  Gen.frame_cond_all m emb₁ () Variants.none noL noLv (fun _ _ => rfl) ρ (outs m) (pdats m)
    (O₀ := 0) (G := fun _ => (BI.emp : sProp 𝕄))
    (u₀ := initOf (Pipeline.cells cfgs cellOf_inj) (Pipeline.launchToks cfgs cellOf_inj))
    (hu₀ := by
      rw [BI.bigSep_emp_const]
      iintro Hown
      imodintro
      isplitl [Hown]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hown
      iempintro)
    (E := fun _ => Beside)
    (hE0 := Pipeline.initEach noL noLv fun c => by
      iintro ⟨⟨-, Howes, -, Hreg, -⟩, -⟩
      imodintro
      isplitl [Hreg]; · iexists _; iexact Hreg
      iexists ∅; iexact Howes)
    (hE2 := fun c => by iintro ⟨-, Howes⟩; iexact Howes)
    (R0 := reg0 m) (hpre0 := fun _ => .rfl) (hpost0 := fun _ => .rfl)
    (R1 := reg1 m) (hpre1 := fun _ => .rfl) (hpost1 := fun _ => .rfl)

end Cert.Kernel.Hand

end
-- ==== Proof.Spec.lean ====
/-
  One D2Q9 lattice-Boltzmann step (collide, stream, lift) as plain functions of the three input arrays on the
  extended reals: what both programs compute, index by index.

  A site is a row/column pair of the 2048 x 4096 lattice.  For direction `q` with weight `w q` and velocity
  `(cx q, cy q)` the equilibrium at a site is `w rho (1 + 3 cu + 4.5 cu^2 - 1.5 |u|^2)`, `cu = cx ux + cy uy`;
  the collision relaxes `f` towards it, `f - (f - feq) k` with `k = 1 / tau`; streaming applies to channel `q` of
  the relaxed field a fixed rearrangement `roll q` of the lattice (a parameter here: both programs apply the same
  one); the lift sums the nine streamed channels (density) and their velocity-weighted sums divided by the density.
  Every numeral is the extended real its f32 word denotes, so that the same word on both sides is never evaluated.
-/
import Idealize.ShloMosaic.PureOps.Ideal
import Idealize.ShloMosaic.Lib.ValueIdx

noncomputable section

namespace Cert.Lbm

open Idealize.ShloMosaic Idealize.ShloMosaic.ValueIdx

/-- A lattice site: row and column. -/
abbrev Site : Type := (⟨2, ![2048, 4096]⟩ : Shape).Idx
/-- A scalar field on the lattice. -/
abbrev Field : Type := Site → EReal
/-- Nine channels per site, channel last / channel first; two velocity components per site. -/
abbrev ArrL : Type := (⟨3, ![2048, 4096, 9]⟩ : Shape).Idx → EReal
abbrev ArrF : Type := (⟨3, ![9, 2048, 4096]⟩ : Shape).Idx → EReal
abbrev ArrU : Type := (⟨3, ![2048, 4096, 2]⟩ : Shape).Idx → EReal

/-- The extended real an f32 word denotes. -/
abbrev lit (w : BitVec 32) : EReal := Ideal.ofBits .f32 w

/-- The lattice weights 4/9, 1/9 (x4), 1/36 (x4), as the f32 words both programs carry. -/
def wgt : Fin 9 → EReal :=
  ![lit 0x3EE38E39#32, lit 0x3DE38E39#32, lit 0x3DE38E39#32, lit 0x3DE38E39#32, lit 0x3DE38E39#32,
    lit 0x3CE38E39#32, lit 0x3CE38E39#32, lit 0x3CE38E39#32, lit 0x3CE38E39#32]
/-- The lattice velocities' first components 0, 1, 0, -1, 0, 1, -1, -1, 1. -/
def cx : Fin 9 → EReal :=
  ![lit 0x00000000#32, lit 0x3F800000#32, lit 0x00000000#32, lit 0xBF800000#32, lit 0x00000000#32,
    lit 0x3F800000#32, lit 0xBF800000#32, lit 0xBF800000#32, lit 0x3F800000#32]
/-- The lattice velocities' second components 0, 0, 1, 0, -1, 1, 1, -1, -1. -/
def cy : Fin 9 → EReal :=
  ![lit 0x00000000#32, lit 0x00000000#32, lit 0x3F800000#32, lit 0x00000000#32, lit 0xBF800000#32,
    lit 0x3F800000#32, lit 0x3F800000#32, lit 0xBF800000#32, lit 0xBF800000#32]

/-- The relaxation rate: the reciprocal of the relaxation time's f32 value 5033165 / 8388608. -/
def rate : EReal := ((8388608 / 5033165 : ℝ) : EReal)

/-- The equilibrium of a direction of weight `w` and velocity `(a, b)` at density `rho` and velocity `(ux, uy)`. -/
def feq (w a b rho ux uy : EReal) : EReal :=
  (w * rho) * (((lit 0x3F800000#32 + lit 0x40400000#32 * (a * ux + b * uy))
      + (lit 0x40900000#32 * (a * ux + b * uy)) * (a * ux + b * uy))
    - lit 0x3FC00000#32 * (ux * ux + uy * uy))

/-- The relaxed population of direction `q`. -/
def post (q : Fin 9) (rho ux uy f : EReal) : EReal :=
  f - (f - feq (wgt q) (cx q) (cy q) rho ux uy) * rate

/-- The relaxed populations, channel first, from the channel-first populations, the density and the two velocity
    components as separate fields. -/
def postF (g : ArrF) (rho ux uy : Field) : ArrF :=
  fun j => post (j 0) (rho (ix2 (j 1) (j 2))) (ux (ix2 (j 1) (j 2))) (uy (ix2 (j 1) (j 2))) (g j)

/-- Channel `q` of the relaxed populations as a field, from the three input arrays. -/
def postCh (f : ArrL) (rho : Field) (u : ArrU) (q : Fin 9) : Field :=
  fun s => post q (rho s) (u (ix3 (s 0) (s 1) 0)) (u (ix3 (s 0) (s 1) 1)) (f (ix3 (s 0) (s 1) q))

variable (roll : Fin 9 → Field → Field)

/-- Channel `q` after streaming. -/
def streamed (f : ArrL) (rho : Field) (u : ArrU) (q : Fin 9) : Field := roll q (postCh f rho u q)

/-- The sum of nine terms, associated to the left. -/
def sum9 (a : Fin 9 → EReal) : EReal := a 0 + a 1 + a 2 + a 3 + a 4 + a 5 + a 6 + a 7 + a 8

/-- The lifted density, momentum components and velocity components of nine channel fields at a site. -/
def dens (h : Fin 9 → Field) : Field := fun s => sum9 fun q => h q s
def momx (h : Fin 9 → Field) : Field := fun s => sum9 fun q => h q s * cx q
def momy (h : Fin 9 → Field) : Field := fun s => sum9 fun q => h q s * cy q
def velx (h : Fin 9 → Field) : Field := fun s => Ideal.div (momx h s) (dens h s)
def vely (h : Fin 9 → Field) : Field := fun s => Ideal.div (momy h s) (dens h s)

/-- The three results: the streamed populations, channel last; the density; the velocity. -/
def outF (f : ArrL) (rho : Field) (u : ArrU) : ArrL :=
  fun j => streamed roll f rho u (j 2) (ix2 (j 0) (j 1))
def outRho (f : ArrL) (rho : Field) (u : ArrU) : Field := dens (streamed roll f rho u)
def outU (f : ArrL) (rho : Field) (u : ArrU) : ArrU :=
  fun j => if (j 2).val = 0 then velx (streamed roll f rho u) (ix2 (j 0) (j 1))
    else vely (streamed roll f rho u) (ix2 (j 0) (j 1))

end Cert.Lbm

end
-- ==== Proof.KBody0.lean ====
/-
  The collision kernel at one grid point.  The point's blocks are a 9 x 256 x 512 tile of the channel-first
  populations and the 256 x 512 tiles of density and the two velocity components; the body stores, channel by
  channel, the relaxed populations of the tile, each channel a function of the three 256 x 512 tiles and of that
  channel of the input tile.  Stated here: what the body leaves in the output tile (nine slabs, one per channel),
  that the body run on whole staging buffers does leave it, and the pipeline's proof data and body obligation
  built on it, at any float instance and for any contents `V` the region is entered with.
-/
import proofs.«419865_j42563125903664_3_alg».proof.Proof.Gen.KernelIdeal.Launch
import proofs.«419865_j42563125903664_3_alg».proof.Proof.Gen.KernelIdeal.Skeleton
import proofs.«419865_j42563125903664_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 256 x 512 tile and the nine one-channel slabs of the 9 x 256 x 512 tile. -/
abbrev rT : Rect S256x512 := Rect.unit (s := S256x512) ![0, 0] S256x512.size inb_S256x512_S256x512_0_0
abbrev rC0 : Rect S9x256x512 := Rect.unit (s := S9x256x512) ![0, 0, 0] S1x256x512.size inb_S9x256x512_S1x256x512_0_0_0
abbrev rC1 : Rect S9x256x512 := Rect.unit (s := S9x256x512) ![1, 0, 0] S1x256x512.size inb_S9x256x512_S1x256x512_1_0_0
abbrev rC2 : Rect S9x256x512 := Rect.unit (s := S9x256x512) ![2, 0, 0] S1x256x512.size inb_S9x256x512_S1x256x512_2_0_0
abbrev rC3 : Rect S9x256x512 := Rect.unit (s := S9x256x512) ![3, 0, 0] S1x256x512.size inb_S9x256x512_S1x256x512_3_0_0
abbrev rC4 : Rect S9x256x512 := Rect.unit (s := S9x256x512) ![4, 0, 0] S1x256x512.size inb_S9x256x512_S1x256x512_4_0_0
abbrev rC5 : Rect S9x256x512 := Rect.unit (s := S9x256x512) ![5, 0, 0] S1x256x512.size inb_S9x256x512_S1x256x512_5_0_0
abbrev rC6 : Rect S9x256x512 := Rect.unit (s := S9x256x512) ![6, 0, 0] S1x256x512.size inb_S9x256x512_S1x256x512_6_0_0
abbrev rC7 : Rect S9x256x512 := Rect.unit (s := S9x256x512) ![7, 0, 0] S1x256x512.size inb_S9x256x512_S1x256x512_7_0_0
abbrev rC8 : Rect S9x256x512 := Rect.unit (s := S9x256x512) ![8, 0, 0] S1x256x512.size inb_S9x256x512_S1x256x512_8_0_0

/-- The output tile after the body, from the four input tiles: its nine stores as pieces, LAST FIRST; each
    payload is the skeleton's, over the tiles the body loaded (`xr` density, `xu` / `xv` the velocity components,
    `xf` the populations). -/
def out0_4 (xf : Vec F S9x256x512 .f32) (xr xu xv : Vec F S256x512 .f32) : Vec F S9x256x512 .f32 :=
  have v0 := View.ld xr rT
  have v1 := View.ld xu rT
  have v3 := View.ld xv rT
  have v2 := k0_pay2 v1
  have v4 := k0_pay3 v3
  have v7 := k0_pay4 v1 v3
  have v111 := View.ld xf rC3
  View.canon [
    ⟨rC8, k0_pay1 v0 v2 v4 v7 (View.ld xf rC8)⟩,
    ⟨rC7, k0_pay21 v0 v2 v4 v7 (View.ld xf rC7)⟩,
    ⟨rC6, k0_pay20 (k0_pay19 v0 v2 v4 v7) (View.ld xf rC6)⟩,
    ⟨rC5, k0_pay18 v0 v7 (k0_pay16 v2 v4) (k0_pay17 (F := F)) (View.ld xf rC5)⟩,
    ⟨rC4, k0_pay15 v0 v2 v4 v7 (View.ld xf rC4)⟩,
    ⟨rC3, k0_pay14 (k0_pay12 v111) (k0_pay13 v0 v2 v4 v7 v111)⟩,
    ⟨rC2, k0_pay11 v7 (k0_pay7 v2 v4) (k0_pay8 v0) (k0_pay9 v2 v4) (k0_pay10 (F := F)) (View.ld xf rC2)⟩,
    ⟨rC1, k0_pay6 v0 v2 v4 v7 (Scalar.ofBits .f32 0x3F800000#32) (View.ld xf rC1)⟩,
    ⟨rC0, k0_pay5 v0 v1 v3 (View.ld xf rC0)⟩]

/-- The proof data of the collision pipeline on core `c`: the arrays as the region finds them; after the body at
    point `t` each input's buffer at its block and the output's at `out0_4` of the input blocks; the class invariant;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-! ## The input windows' buffers -/

/-- The populations' staging buffer holds the populations' block at every point, fetched there or not. -/
theorem before0_0 (c : Dev nD) (t : Fin cfg0.N) (d) : (dat0 V c).before 0 t d = iblk0 V c 0 t := by
  refine ((dat0 V c).before_in_eq_fetched 0 rfl (fun _ => rfl) (fun _ _ _ => rfl) (fun t => ?_) t d).trans ?_
  · rw [after0_0]; unfold Dat.blockOf iblk0; rw [A_eq0]; try rfl
  · unfold Dat.fetched Dat.blockOf iblk0; rw [A_eq0]; try rfl

/-- The density's staging buffer holds the density's block at every point. -/
theorem before0_1 (c : Dev nD) (t : Fin cfg0.N) (d) : (dat0 V c).before 1 t d = iblk0 V c 1 t := by
  refine ((dat0 V c).before_in_eq_fetched 1 rfl (fun _ => rfl) (fun _ _ _ => rfl) (fun t => ?_) t d).trans ?_
  · rw [after0_1]; unfold Dat.blockOf iblk0; rw [A_eq0]; try rfl
  · unfold Dat.fetched Dat.blockOf iblk0; rw [A_eq0]; try rfl

/-- The first velocity component's staging buffer holds its block at every point. -/
theorem before0_2 (c : Dev nD) (t : Fin cfg0.N) (d) : (dat0 V c).before 2 t d = iblk0 V c 2 t := by
  refine ((dat0 V c).before_in_eq_fetched 2 rfl (fun _ => rfl) (fun _ _ _ => rfl) (fun t => ?_) t d).trans ?_
  · rw [after0_2]; unfold Dat.blockOf iblk0; rw [A_eq0]; try rfl
  · unfold Dat.fetched Dat.blockOf iblk0; rw [A_eq0]; try rfl

/-- The second velocity component's staging buffer holds its block at every point. -/
theorem before0_3 (c : Dev nD) (t : Fin cfg0.N) (d) : (dat0 V c).before 3 t d = iblk0 V c 3 t := by
  refine ((dat0 V c).before_in_eq_fetched 3 rfl (fun _ => rfl) (fun _ _ _ => rfl) (fun t => ?_) t d).trans ?_
  · rw [after0_3]; unfold Dat.blockOf iblk0; rw [A_eq0]; try rfl
  · unfold Dat.fetched Dat.blockOf iblk0; rw [A_eq0]; try rfl

/-! ## The nine slabs cover the output tile -/

/-- One slab per channel, each the full 256 x 512 plane: every index of the 9 x 256 x 512 tile lies in the slab
    of its channel. -/
theorem cover0_4 (p0 p1 p2 p3 p4 p5 p6 p7 p8 : Vec F S1x256x512 .f32) (y : S9x256x512.Idx) :
    ∃ pc ∈ ([⟨rC8, p8⟩, ⟨rC7, p7⟩, ⟨rC6, p6⟩, ⟨rC5, p5⟩, ⟨rC4, p4⟩, ⟨rC3, p3⟩, ⟨rC2, p2⟩, ⟨rC1, p1⟩, ⟨rC0, p0⟩] : List (View.Piece (Elt F) S9x256x512 .f32)), y ∈ pc.1.set :=
  View.cover_of_tiled [⟨rC8, p8⟩, ⟨rC7, p7⟩, ⟨rC6, p6⟩, ⟨rC5, p5⟩, ⟨rC4, p4⟩, ⟨rC3, p3⟩, ⟨rC2, p2⟩, ⟨rC1, p1⟩, ⟨rC0, p0⟩] S1x256x512.size (by rfl) y

/-! ## The body's triple -/

set_option maxHeartbeats 4000000 in
/-- The collision body on whole staging buffers — the four inputs' at read contents `xf`, `xr`, `xu`, `xv`, the
    output's at anything — runs to the continuation holding the inputs' as they were and the output's at
    `out0_4` of them: the body only loads the inputs, and its nine stores, one slab each, cover the output, so what
    the output buffer held before (the slabs the body loads from it and drops included) does not matter. -/
theorem sound_kernel0 (c : Dev nD) (E : Set ℕ) (i : grid0.Coords)
    (arg2 : Memref sig .tc .vmem S9x256x512 .f32) (harg2 : arg2.IsWhole)
    (arg3 : Memref sig .tc .vmem S256x512 .f32) (harg3 : arg3.IsWhole)
    (arg4 : Memref sig .tc .vmem S256x512 .f32) (harg4 : arg4.IsWhole)
    (arg5 : Memref sig .tc .vmem S256x512 .f32) (harg5 : arg5.IsWhole)
    (arg6 : Memref sig .tc .vmem S9x256x512 .f32) (harg6 : arg6.IsWhole)
    (xf : Vec F S9x256x512 .f32) (xr xu xv : Vec F S256x512 .f32) (K : PUnit → sProp 𝕄) :
    iprop(owns (c : Thread nD τ) arg2 fullShare xf ∗ owns (c : Thread nD τ) arg3 fullShare xr
        ∗ owns (c : Thread nD τ) arg4 fullShare xu ∗ owns (c : Thread nD τ) arg5 fullShare xv
        ∗ (∃ d, owns (c : Thread nD τ) arg6 fullShare d)
        ∗ (iprop(owns (c : Thread nD τ) arg2 fullShare xf ∗ owns (c : Thread nD τ) arg3 fullShare xr
            ∗ owns (c : Thread nD τ) arg4 fullShare xu ∗ owns (c : Thread nD τ) arg5 fullShare xv
            ∗ owns (c : Thread nD τ) arg6 fullShare (out0_4 xf xr xu xv)) -∗ K ⟨⟩))
      ⊢ wp frame (wpE (defs₀ (F := F)) Variants.none c none) E
          (cc0_collide_kernel i arg2 harg2 arg3 harg3 arg4 harg4 arg5 harg5 arg6 harg6) K := by
  simp only [cc0_collide_kernel_eq_skeleton]; unfold cc0_collide_kernel_skel
  unfold owns
  iintro ⟨⟨%f2, %hf2, H2⟩, ⟨%f3, %hf3, H3⟩, ⟨%f4, %hf4, H4⟩, ⟨%f5, %hf5, H5⟩, ⟨%d6, %f6, -, H6⟩, Hk⟩
  subst hf2 hf3 hf4 hf5
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_4 _ _ _ _ _ _ _ _ _)

/-! ## The body obligation, at a generic point -/

/-- What the body is called with at point `t`: the invariant, the core's debts, and each window's current staging
    buffer whole at what the pipeline left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What the body returns: the same, each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the four inputs' buffers hold their blocks, whatever the output's holds, so the body's
    triple applies at the blocks; the invariant and the debts are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KBody1.lean ====
/-
  The lift kernel at one grid point.  The point's input block is a 9 x 256 x 512 tile of the streamed
  channel-first populations; the body stores three 256 x 512 tiles: the sum of the nine channels (density), and
  the two velocity-weighted sums each divided by that density.  Stated here: what the body leaves in each output
  tile, that the body run on whole staging buffers leaves it, and the pipeline's proof data and body obligation, at
  any float instance and for any contents `V` the region is entered with.
-/
import proofs.«419865_j42563125903664_3_alg».proof.Proof.Gen.KernelIdeal.Launch
import proofs.«419865_j42563125903664_3_alg».proof.Proof.Gen.KernelIdeal.Skeleton
import proofs.«419865_j42563125903664_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 256 x 512 tile and the nine one-channel slabs of the 9 x 256 x 512 tile. -/
abbrev sT : Rect S256x512 := Rect.unit (s := S256x512) ![0, 0] S256x512.size inb_S256x512_S256x512_0_0
abbrev sC0 : Rect S9x256x512 := Rect.unit (s := S9x256x512) ![0, 0, 0] S1x256x512.size inb_S9x256x512_S1x256x512_0_0_0
abbrev sC1 : Rect S9x256x512 := Rect.unit (s := S9x256x512) ![1, 0, 0] S1x256x512.size inb_S9x256x512_S1x256x512_1_0_0
abbrev sC2 : Rect S9x256x512 := Rect.unit (s := S9x256x512) ![2, 0, 0] S1x256x512.size inb_S9x256x512_S1x256x512_2_0_0
abbrev sC3 : Rect S9x256x512 := Rect.unit (s := S9x256x512) ![3, 0, 0] S1x256x512.size inb_S9x256x512_S1x256x512_3_0_0
abbrev sC4 : Rect S9x256x512 := Rect.unit (s := S9x256x512) ![4, 0, 0] S1x256x512.size inb_S9x256x512_S1x256x512_4_0_0
abbrev sC5 : Rect S9x256x512 := Rect.unit (s := S9x256x512) ![5, 0, 0] S1x256x512.size inb_S9x256x512_S1x256x512_5_0_0
abbrev sC6 : Rect S9x256x512 := Rect.unit (s := S9x256x512) ![6, 0, 0] S1x256x512.size inb_S9x256x512_S1x256x512_6_0_0
abbrev sC7 : Rect S9x256x512 := Rect.unit (s := S9x256x512) ![7, 0, 0] S1x256x512.size inb_S9x256x512_S1x256x512_7_0_0
abbrev sC8 : Rect S9x256x512 := Rect.unit (s := S9x256x512) ![8, 0, 0] S1x256x512.size inb_S9x256x512_S1x256x512_8_0_0

/-- The running sums the body keeps after the first four and after all nine channels (the skeleton's payloads over
    the loaded slabs of the input tile `x`). -/
def acc1_rho (x : Vec F S9x256x512 .f32) : FVec F S256x512 .f32 :=
  k1_pay17 (k1_pay7 (View.ld x sC0) (View.ld x sC1) (View.ld x sC2) (View.ld x sC3)) (k1_pay10 (View.ld x sC4))
    (View.ld x sC5) (View.ld x sC6) (View.ld x sC7) (View.ld x sC8)
def acc1_ux (x : Vec F S9x256x512 .f32) : FVec F S256x512 .f32 :=
  k1_pay14 (k1_pay8 (View.ld x sC0) (View.ld x sC1) (View.ld x sC2) (View.ld x sC3)) (k1_pay10 (View.ld x sC4))
    (View.ld x sC5) (View.ld x sC6) (View.ld x sC7)
def acc1_uy (x : Vec F S9x256x512 .f32) : FVec F S256x512 .f32 :=
  k1_pay15 (k1_pay9 (View.ld x sC0) (View.ld x sC1) (View.ld x sC2) (View.ld x sC3)) (k1_pay10 (View.ld x sC4))
    (View.ld x sC5) (View.ld x sC6) (View.ld x sC7)

/-- Each output tile after the body, from the input tile: its one store as a piece. -/
def out1_1 (x : Vec F S9x256x512 .f32) : Vec F S256x512 .f32 :=
  View.canon [⟨sT, acc1_rho x⟩]
def out1_2 (x : Vec F S9x256x512 .f32) : Vec F S256x512 .f32 :=
  View.canon [⟨sT, k1_pay1 (acc1_ux x) (acc1_rho x) (k1_pay18 (View.ld x sC8))⟩]
def out1_3 (x : Vec F S9x256x512 .f32) : Vec F S256x512 .f32 :=
  View.canon [⟨sT, k1_pay2 (acc1_uy x) (k1_pay16 (View.ld x sC8)) (acc1_rho x)⟩]

/-- The proof data of the lift pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
    | ⟨2, _⟩ => out1_2 (iblk1 V c 0 t)
    | ⟨3, _⟩ => out1_3 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]
theorem after1_2 (c : Dev nD) (t : Fin cfg1.N) : (dat1 V c).after 2 t = out1_2 (iblk1 V c 0 t) := by dsimp only [dat1]
theorem after1_3 (c : Dev nD) (t : Fin cfg1.N) : (dat1 V c).after 3 t = out1_3 (iblk1 V c 0 t) := by dsimp only [dat1]

/-- The input window's staging buffer holds the point's block whether or not the point fetched it: the window is
    uncut and never idle, and the body leaves the block where it found it. -/
theorem before1_0 (c : Dev nD) (t : Fin cfg1.N) (d) : (dat1 V c).before 0 t d = iblk1 V c 0 t := by
  have hkeep : ∀ t, (cfg1.win 0).cut (cfg1.grid.coords t) ((dat1 V c).after 0 t) = (dat1 V c).blockOf 0 t := by
    intro t
    rw [after1_0]
    unfold Dat.blockOf iblk1
    rw [A_eq1]
    try rfl
  rw [(dat1 V c).before_in_eq_fetched 0 rfl (fun _ => rfl) (fun _ _ _ => rfl) hkeep t d]
  unfold Dat.fetched Dat.blockOf iblk1
  rw [A_eq1]
  try rfl

/-- One whole-tile piece covers the tile. -/
theorem cover1 (p : Vec F S256x512 .f32) (y : S256x512.Idx) :
    ∃ pc ∈ ([⟨sT, p⟩] : List (View.Piece (Elt F) S256x512 .f32)), y ∈ pc.1.set :=
  View.cover_of_tiled [⟨sT, p⟩] S256x512.size (by rfl) y

set_option maxHeartbeats 1000000 in
/-- The body on whole staging buffers: the input tile is read and left alone, each output tile ends at its
    `out1_k` of the input tile whatever it held before. -/
theorem sound_kernel1 (c : Dev nD) (E : Set ℕ) (i : grid1.Coords)
    (arg2 : Memref sig .tc .vmem S9x256x512 .f32) (harg2 : arg2.IsWhole)
    (arg3 : Memref sig .tc .vmem S256x512 .f32) (harg3 : arg3.IsWhole)
    (arg4 : Memref sig .tc .vmem S256x512 .f32) (harg4 : arg4.IsWhole)
    (arg5 : Memref sig .tc .vmem S256x512 .f32) (harg5 : arg5.IsWhole)
    (x : Vec F S9x256x512 .f32) (K : PUnit → sProp 𝕄) :
    iprop(owns (c : Thread nD τ) arg2 fullShare x ∗ (∃ d, owns (c : Thread nD τ) arg3 fullShare d)
        ∗ (∃ d, owns (c : Thread nD τ) arg4 fullShare d) ∗ (∃ d, owns (c : Thread nD τ) arg5 fullShare d)
        ∗ (iprop(owns (c : Thread nD τ) arg2 fullShare x ∗ owns (c : Thread nD τ) arg3 fullShare (out1_1 x)
            ∗ owns (c : Thread nD τ) arg4 fullShare (out1_2 x) ∗ owns (c : Thread nD τ) arg5 fullShare (out1_3 x)) -∗ K ⟨⟩))
      ⊢ wp frame (wpE (defs₀ (F := F)) Variants.none c none) E (cc1_macro_kernel i arg2 harg2 arg3 harg3 arg4 harg4 arg5 harg5) K := by
  simp only [cc1_macro_kernel_eq_skeleton]; unfold cc1_macro_kernel_skel
  unfold owns
  iintro ⟨⟨%f2, %hf2, H2⟩, ⟨%d3, %f3, -, H3⟩, ⟨%d4, %f4, -, H4⟩, ⟨%d5, %f5, -, H5⟩, Hk⟩
  subst hf2
  sl_exec
  sl_step
  iapply Hk
  isplitl [H2]
  · iexists f2; isplitr; · ipureintro; rfl
    iexact H2
  isplitl [H3]
  · iexists _; isplitr
    swap; · iexact H3
    ipureintro
    exact View.read_writes_eq_canon _ _ _ (cover1 _)
  isplitl [H4]
  · iexists _; isplitr
    swap; · iexact H4
    ipureintro
    exact View.read_writes_eq_canon _ _ _ (cover1 _)
  iexists _; isplitr
  swap; · iexact H5
  ipureintro
  exact View.read_writes_eq_canon _ _ _ (cover1 _)

/-- The outputs' staging buffers are handed over at whatever they hold; the input's at its block. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- After the body every window's staging buffer is at the proof data's `after`. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at a point: the invariant and the core's debts are carried past it untouched, the four staging
    buffers go through `sound_kernel1` with the input tile at the point's block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) _)
  isplitl [H0]; · iexact H0
  isplitl [H1]; · iexists _; iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KRun.lean ====
/-
  The whole program as a run: the two pipelines' proof data put at the contents their regions are entered with,
  what each region leaves in the arrays it writes, and the run itself - every weakly fair execution of the program
  ends, with every unscoped buffer at the contents obtained by threading the launch memory through the host
  stretches and the two regions.
-/
import proofs.«419865_j42563125903664_3_alg».proof.Proof.Gen.KernelIdeal.Launch
import proofs.«419865_j42563125903664_3_alg».proof.Proof.Gen.KernelIdeal.Skeleton
import proofs.«419865_j42563125903664_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«419865_j42563125903664_3_alg».proof.Proof.Gen.KernelIdeal.Regions
import proofs.«419865_j42563125903664_3_alg».proof.Proof.KFrameAll
import proofs.«419865_j42563125903664_3_alg».proof.Proof.KBody0
import proofs.«419865_j42563125903664_3_alg».proof.Proof.KBody1
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the two regions leave

Region 0 is entered with the buffers at Gen.V1 and writes its one output array; region 1 is entered with the
buffers at Gen.V21, which depends on what region 0 left, and writes its three output arrays.  So the unknowns are
chosen in two steps: first what is read after region 0, then, over it, what is read after region 1. -/

/-- The buffers as region 0 leaves them: each of its five arrays at what the pipeline holds there after the last
    point, every other buffer as the region found it. -/
def exit0 (c : Dev nD) : Valuation τ sig (Elt F) :=
  Pipeline.withArrays spec0 c (Gen.V1 m c) fun w => (dat0 (fun c b => Gen.V1 m c b) c).arrAt w cfg0.N

theorem exit0_at (c : Dev nD) (w : Fin cfg0.W) :
    exit0 m c (Proc.devRef .tc (Pipeline.arrRef spec0 w)) = (dat0 (fun c b => Gen.V1 m c b) c).arrAt w cfg0.N := by
  unfold exit0; exact Pipeline.withArrays_arr spec0 winFacts0.arr_inj c _ _ w

/-- The unknowns as far as region 1's entry reads them: region 0's exit contents at every index. -/
def outsA : Gen.Outs (F := F) := fun _ r c => exit0 m c (Proc.devRef .tc r)

/-- The buffers as region 1 leaves them, over what region 0 left. -/
def exit1 (c : Dev nD) : Valuation τ sig (Elt F) :=
  Pipeline.withArrays spec1 c (Gen.V21 m (outsA m) c) fun w => (dat1 (fun c b => Gen.V21 m (outsA m) c b) c).arrAt w cfg1.N

theorem exit1_at (c : Dev nD) (w : Fin cfg1.W) :
    exit1 m c (Proc.devRef .tc (Pipeline.arrRef spec1 w)) = (dat1 (fun c b => Gen.V21 m (outsA m) c b) c).arrAt w cfg1.N := by
  unfold exit1; exact Pipeline.withArrays_arr spec1 winFacts1.arr_inj c _ _ w

/-- What the regions leave in the arrays they write: region 0 the relaxed populations' array (read at item 2),
    region 1 the three lifted fields' arrays (read at item 22); each is its pipeline's array after the last point. -/
def outs (m : (ℓ : Loc nD τ sig) → Buf (Elt F) ℓ) : Gen.Outs (F := F) := fun J r c =>
  if J = 2 then exit0 m c (Proc.devRef .tc r) else exit1 m c (Proc.devRef .tc r)

/-- At item 2 the unknowns are region 0's exit contents, at item 22 region 1's. -/
theorem outs_at2 (r : Ref sig .tc) (c : Dev nD) : outs m 2 r c = outsA m 2 r c := if_pos rfl
theorem outs_at22 (r : Ref sig .tc) (c : Dev nD) : outs m 22 r c = exit1 m c (Proc.devRef .tc r) := if_neg (by decide)

/-- Region 1's entry contents read the unknowns at item 2 only. -/
theorem V21_outs (c : Dev nD) : Gen.V21 m (outs m) c = Gen.V21 m (outsA m) c := by
  simp only [Gen.V21, Gen.V20, Gen.V19, Gen.V18, Gen.V17, Gen.V16, Gen.V15, Gen.V14, Gen.V13, Gen.V12, Gen.V11, Gen.V10,
    Gen.V9, Gen.V8, Gen.V7, Gen.V6, Gen.V5, Gen.V4, Gen.V3, Gen.V2, outs_at2]

theorem entry1_eq :
    (fun (c : Dev nD) (b : Ref sig .tc) => Gen.V21 m (outs m) c b)
      = fun (c : Dev nD) (b : Ref sig .tc) => Gen.V21 m (outsA m) c b := by
  funext c b; rw [V21_outs]

theorem outs_2 (c : Dev nD) :
    outs m 2 main_v5 c = (dat0 (fun c b => Gen.V1 m c b) c).arrAt 4 cfg0.N :=
  (outs_at2 m main_v5 c).trans (exit0_at m c 4)

/-- At item 22 each array of region 1 holds what its pipeline leaves there. -/
theorem outs_22 (c : Dev nD) (w : Fin cfg1.W) :
    outs m 22 (Pipeline.arrRef spec1 w) c = (dat1 (fun c b => Gen.V21 m (outs m) c b) c).arrAt w cfg1.N := by
  rw [entry1_eq m]
  exact (outs_at22 m _ c).trans (exit1_at m c w)

theorem outs_22_0 (c : Dev nD) :
    outs m 22 main_v43_0 c = (dat1 (fun c b => Gen.V21 m (outs m) c b) c).arrAt 1 cfg1.N := outs_22 m c 1
theorem outs_22_1 (c : Dev nD) :
    outs m 22 main_v43_1 c = (dat1 (fun c b => Gen.V21 m (outs m) c b) c).arrAt 2 cfg1.N := outs_22 m c 2
theorem outs_22_2 (c : Dev nD) :
    outs m 22 main_v43_2 c = (dat1 (fun c b => Gen.V21 m (outs m) c b) c).arrAt 3 cfg1.N := outs_22 m c 3

/-! ## The generated boundary contents at the regions' arrays

Gen.V2 is Gen.V1 changed at the output array alone and Gen.V22 is Gen.V21 changed at the three output arrays alone;
an input window's array is never written back, so it leaves its region as it entered. -/

/-- Region 0's arrays at its exit: the four inputs as entered, the output at the unknown read at item 2. -/
theorem exit0_arr (c : Dev nD) (w : Fin cfg0.W) :
    (dat0 (fun c b => Gen.V1 m c b) c).arrAt w cfg0.N = Gen.V2 m (outs m) c (Pipeline.arrRef spec0 w) := by
  have hin : ∀ w : Fin cfg0.W, w ≠ 4 → (cfg0.win w).isOut = false ∧ Pipeline.arrRef spec0 w ≠ main_v5 := by decide
  by_cases hw : w = 4
  · subst hw
    exact (outs_2 m c).symm.trans (Function.update_self (Proc.devRef .tc main_v5 : DevRef τ sig) (outs m 2 main_v5 c) (Gen.V1 m c)).symm
  · exact ((dat0 _ c).arrAt_in w (hin w hw).1 _).trans <| (A_eq0 _ c w).trans
      (Function.update_of_ne (StableHlo.devRef_ne_of_ne (hin w hw).2) _ _).symm

/-- Off region 0's arrays nothing changes across it. -/
theorem exit0_rest (c : Dev nD) (b : Ref sig .tc) (hb : b ∉ Finset.univ.image (Pipeline.arrRef spec0)) :
    Gen.V2 m (outs m) c b = Gen.V1 m c b :=
  Function.update_of_ne (StableHlo.devRef_ne_of_ne fun e => hb (Finset.mem_image.mpr ⟨4, Finset.mem_univ _, e.symm⟩)) _ _

/-- Region 1's arrays at its exit: the input as entered, each output at the unknown read at item 22. -/
theorem exit1_arr (c : Dev nD) (w : Fin cfg1.W) :
    (dat1 (fun c b => Gen.V21 m (outs m) c b) c).arrAt w cfg1.N = Gen.V22 m (outs m) c (Pipeline.arrRef spec1 w) := by
  have h01 : (Proc.devRef .tc main_v43_0 : DevRef τ sig) ≠ Proc.devRef .tc main_v43_1 := StableHlo.devRef_ne_of_ne (by decide)
  have h02 : (Proc.devRef .tc main_v43_0 : DevRef τ sig) ≠ Proc.devRef .tc main_v43_2 := StableHlo.devRef_ne_of_ne (by decide)
  have h12 : (Proc.devRef .tc main_v43_1 : DevRef τ sig) ≠ Proc.devRef .tc main_v43_2 := StableHlo.devRef_ne_of_ne (by decide)
  match w with
  | ⟨0, _⟩ =>
    exact ((dat1 _ c).arrAt_in 0 rfl _).trans <| (A_eq1 _ c 0).trans (Gen.V22_of m (outs m) c main_v42 (by decide)).symm
  | ⟨1, _⟩ =>
    refine (outs_22_0 m c).symm.trans ?_
    simp only [Gen.V22, Function.update_of_ne h01, Function.update_of_ne h02, Function.update_self]
  | ⟨2, _⟩ =>
    refine (outs_22_1 m c).symm.trans ?_
    simp only [Gen.V22, Function.update_of_ne h12, Function.update_self]
  | ⟨3, _⟩ =>
    refine (outs_22_2 m c).symm.trans ?_
    simp only [Gen.V22, Function.update_self]

/-- Off region 1's arrays nothing changes across it. -/
theorem exit1_rest (c : Dev nD) (b : Ref sig .tc) (hb : b ∉ Finset.univ.image (Pipeline.arrRef spec1)) :
    Gen.V22 m (outs m) c b = Gen.V21 m (outs m) c b :=
  Gen.V22_of m (outs m) c b fun hmem => by
    have hall : ∀ b' ∈ ([main_v43_0, main_v43_1, main_v43_2] : List (Ref sig .tc)), ∃ w, Pipeline.arrRef spec1 w = b' := by decide
    obtain ⟨w, e⟩ := hall b hmem
    exact hb (Finset.mem_image.mpr ⟨w, Finset.mem_univ _, e⟩)

/-! ## The proof data, and what rides beside the buffers -/

/-- Both pipelines' proof data, each at the contents its region is entered with. -/
def pdats : (p : Fin 2) → (c : Dev nD) → Dat τ (Elt F) Unit ℕ (UR sig nD τ) ℕ (cfgs p) c
  | ⟨0, _⟩ => fun c => dat0 (fun c b => Gen.V1 m c b) c
  | ⟨1, _⟩ => fun c => dat1 (fun c b => Gen.V21 m (outs m) c b) c

/-- No core owes another core anything in this program: no pair has a level. -/
abbrev noL : GSem nD τ sig → Finset Unit := fun _ => ∅
abbrev noLv : GSem nD τ sig → Unit → ℕ := fun _ _ => 0

/-- Beside the buffers a core carries, between any two items, its generator register at some state and the fact
    that it owes nothing. -/
abbrev Beside (c : Dev nD) : sProp 𝕄 :=
  iprop((∃ r, prngReg c r) ∗ ∃ W, owes (c : Thread nD τ) (0 : CellTallies nD τ sig Unit) W)

/-- No table is prefetched: the tables' resource is empty. -/
theorem noTables (p : Fin 2) (c : Dev nD) :
    (Pipeline.prefHeld (pcfgs (F := F) p).pre c (fun _ => fullShare) (Gen.adm (F := F) p).1 : sProp 𝕄) = BI.emp := by
  unfold Pipeline.prefHeld
  rw [show (Finset.univ : Finset (Fin (pcfgs (F := F) p).pre.K)) = ∅ from rfl, BI.bigSep_empty]

/-! ## The two regions as segments -/

set_option backward.isDefEq.respectTransparency.types false in
/-- Region 0 as a segment.  It is entered with every unscoped buffer at Gen.V1 m beside Beside, and left with
    every unscoped buffer at Gen.V2 m (outs m) beside Beside.  At entry the pipeline's arrays are taken out of the unscoped
    buffers and the generator register goes into the region invariant; at exit both come back, the arrays at what the
    pipeline left.  The kernel has no semaphore of its own and owes nothing at any point. -/
def reg0 : Pipeline.RegionSeg (pcfgs (F := F)) Gen.adm (pdats m) () defs₀ Variants.none noL noLv 0 where
  win := launch0.win.to₀
  block_pos := launch0.block_pos
  stage_whole := launch0.stage_whole
  K := PEmpty
  osem k := k.elim
  ho := Pipeline.OwnSemFacts.none _
  hbody c := (body_obligation0 (fun c b => Gen.V1 m c b) c).loose
  hwaits := Pipeline.hwaits_of_owed_zero _ _ _ _ noL noLv 0 fun _ _ => rfl
  pre c := iprop(StableHlo.held (c : Thread nD τ) (Pipeline.ucRefs τ sig) (Gen.V1 m c) ∗ Beside c)
  post c := iprop(StableHlo.held (c : Thread nD τ) (Pipeline.ucRefs τ sig) (Gen.V2 m (outs m) c) ∗ Beside c)
  X c := iprop(∃ r, prngReg c r)
  Y c := iprop(∃ r, prngReg c r)
  Z c := Pipeline.unscopedRest (Ix := Unit) (Name := ℕ) (U := UR sig nD τ) (Lvl := ℕ) spec0 c (fun b => Gen.V1 m c b)
  hentry c := by
    have hsplit := Pipeline.arrays_of_unscopedBufs (p := 0) (pcfgs (F := F)) Gen.adm (pdats m) launch0.win launch0.arr_whole c
      ((pdats m 0 c).share_full fun _ => rfl) (fun b => Gen.V1 m c b) fun _ => rfl
    rw [Pipeline.unscopedBufs_held] at hsplit
    rw [Pipeline.ownSems0_none, noTables]
    iintro ⟨⟨Hbufs, Hreg, %W, Howes⟩, -, -⟩
    ihave Hparts := hsplit $$ Hbufs
    icases Hparts with ⟨Harr, Hrest⟩
    imodintro
    isplitl [Harr]; · iexact Harr
    isplitr; · iempintro
    isplitl [Howes]
    · unfold Pipeline.Dat.owesAt Pipeline.owesWithin
      iexists W
      isplitr; · ipureintro; exact fun _ _ => Or.inl trivial
      iexact Howes
    isplitl [Hreg]; · iexact Hreg
    iexact Hrest
  hin c := by
    rw [noTables, show (pdats m 0 c).Φ 0 = Pipeline.ΦA spec0 c from rfl]
    unfold Pipeline.ΦA
    iintro ⟨Hreg, -, Hscoped⟩
    isplitl [Hscoped]; · iexact Hscoped
    iexact Hreg
  hout c := by
    rw [Pipeline.ownSems0_none, show (pdats m 0 c).Φ (Fin.last _) = Pipeline.ΦA spec0 c from rfl]
    unfold Pipeline.ΦA
    iintro ⟨Hscoped, Hreg⟩
    isplitl [Hreg]; · iexact Hreg
    isplitr; · iempintro
    iexact Hscoped
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (fun b => Gen.V1 m c b) (fun b => Gen.V2 m (outs m) c b) ((pdats m 0 c).arrAt · cfg0.N) (exit0_arr m c) (exit0_rest m c)
    rw [Pipeline.unscopedBufs_held] at hjoin
    iintro ⟨Harr, Howes, Hreg, Hrest⟩
    imodintro
    isplitl [Harr Hrest]
    · iapply hjoin
      isplitl [Harr]; · iexact Harr
      iexact Hrest
    isplitl [Hreg]; · iexact Hreg
    unfold Pipeline.Dat.owesAt Pipeline.owesWithin
    icases Howes with ⟨%W, -, Howes⟩
    iexists W; iexact Howes

set_option backward.isDefEq.respectTransparency.types false in
/-- Region 1 as a segment.  It is entered with every unscoped buffer at Gen.V21 m (outs m) beside Beside, and left with
    every unscoped buffer at Gen.V22 m (outs m) beside Beside.  At entry the pipeline's arrays are taken out of the unscoped
    buffers and the generator register goes into the region invariant; at exit both come back, the arrays at what the
    pipeline left.  The kernel has no semaphore of its own and owes nothing at any point. -/
def reg1 : Pipeline.RegionSeg (pcfgs (F := F)) Gen.adm (pdats m) () defs₀ Variants.none noL noLv 1 where
  win := launch1.win.to₀
  block_pos := launch1.block_pos
  stage_whole := launch1.stage_whole
  K := PEmpty
  osem k := k.elim
  ho := Pipeline.OwnSemFacts.none _
  hbody c := (body_obligation1 (fun c b => Gen.V21 m (outs m) c b) c).loose
  hwaits := Pipeline.hwaits_of_owed_zero _ _ _ _ noL noLv 1 fun _ _ => rfl
  pre c := iprop(StableHlo.held (c : Thread nD τ) (Pipeline.ucRefs τ sig) (Gen.V21 m (outs m) c) ∗ Beside c)
  post c := iprop(StableHlo.held (c : Thread nD τ) (Pipeline.ucRefs τ sig) (Gen.V22 m (outs m) c) ∗ Beside c)
  X c := iprop(∃ r, prngReg c r)
  Y c := iprop(∃ r, prngReg c r)
  Z c := Pipeline.unscopedRest (Ix := Unit) (Name := ℕ) (U := UR sig nD τ) (Lvl := ℕ) spec1 c (fun b => Gen.V21 m (outs m) c b)
  hentry c := by
    have hsplit := Pipeline.arrays_of_unscopedBufs (p := 1) (pcfgs (F := F)) Gen.adm (pdats m) launch1.win launch1.arr_whole c
      ((pdats m 1 c).share_full fun _ => rfl) (fun b => Gen.V21 m (outs m) c b) fun _ => rfl
    rw [Pipeline.unscopedBufs_held] at hsplit
    rw [Pipeline.ownSems0_none, noTables]
    iintro ⟨⟨Hbufs, Hreg, %W, Howes⟩, -, -⟩
    ihave Hparts := hsplit $$ Hbufs
    icases Hparts with ⟨Harr, Hrest⟩
    imodintro
    isplitl [Harr]; · iexact Harr
    isplitr; · iempintro
    isplitl [Howes]
    · unfold Pipeline.Dat.owesAt Pipeline.owesWithin
      iexists W
      isplitr; · ipureintro; exact fun _ _ => Or.inl trivial
      iexact Howes
    isplitl [Hreg]; · iexact Hreg
    iexact Hrest
  hin c := by
    rw [noTables, show (pdats m 1 c).Φ 0 = Pipeline.ΦA spec1 c from rfl]
    unfold Pipeline.ΦA
    iintro ⟨Hreg, -, Hscoped⟩
    isplitl [Hscoped]; · iexact Hscoped
    iexact Hreg
  hout c := by
    rw [Pipeline.ownSems0_none, show (pdats m 1 c).Φ (Fin.last _) = Pipeline.ΦA spec1 c from rfl]
    unfold Pipeline.ΦA
    iintro ⟨Hscoped, Hreg⟩
    isplitl [Hreg]; · iexact Hreg
    isplitr; · iempintro
    iexact Hscoped
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (fun b => Gen.V21 m (outs m) c b) (fun b => Gen.V22 m (outs m) c b) ((pdats m 1 c).arrAt · cfg1.N) (exit1_arr m c) (exit1_rest m c)
    rw [Pipeline.unscopedBufs_held] at hjoin
    iintro ⟨Harr, Howes, Hreg, Hrest⟩
    imodintro
    isplitl [Harr Hrest]
    · iapply hjoin
      isplitl [Harr]; · iexact Harr
      iexact Hrest
    isplitl [Hreg]; · iexact Hreg
    unfold Pipeline.Dat.owesAt Pipeline.owesWithin
    icases Howes with ⟨%W, -, Howes⟩
    iexists W; iexact Howes

/-! ## The run -/

/-- The run: every weakly fair execution from `m` with zero counters terminates, nothing faulting, and every
    unscoped buffer of every core ends at the last item's contents. -/
theorem run_all : θ_run defs (onTc (τ := τ) (main (F := F))) ⟨m, fun _ => 0, ρ⟩ (fun r => ∀ (c : Dev nD) (b : Ref sig .tc),
      ¬ (Proc.devRef .tc b : DevRef τ sig).isScoped →
      r.2.mem ((c.tc : Thread nD τ).loc b) = Gen.V23 m (outs m) c (Proc.devRef .tc b)) :=
  Gen.frame_cond_all m emb₁ () Variants.none noL noLv (fun _ _ => rfl) ρ (outs m) (pdats m)
    (O₀ := 0) (G := fun _ => (BI.emp : sProp 𝕄))
    (u₀ := initOf (Pipeline.cells cfgs cellOf_inj) (Pipeline.launchToks cfgs cellOf_inj))
    (hu₀ := by
      rw [BI.bigSep_emp_const]
      iintro Hown
      imodintro
      isplitl [Hown]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hown
      iempintro)
    (E := fun _ => Beside)
    (hE0 := Pipeline.initEach noL noLv fun c => by
      iintro ⟨⟨-, Howes, -, Hreg, -⟩, -⟩
      imodintro
      isplitl [Hreg]; · iexists _; iexact Hreg
      iexists ∅; iexact Howes)
    (hE2 := fun c => by iintro ⟨-, Howes⟩; iexact Howes)
    (R0 := reg0 m) (hpre0 := fun _ => .rfl) (hpost0 := fun _ => .rfl)
    (R1 := reg1 m) (hpre1 := fun _ => .rfl) (hpost1 := fun _ => .rfl)

end Cert.KernelIdeal.Hand

end
-- ==== Proof.KHostA.lean ====
/-
  The rearrangement of the lattice each channel undergoes between the two regions, as a function of a field, and the
  host operations before the collision region read as functions: the channel-last populations transposed to channel
  first, and the two velocity components sliced out of the velocity array.
-/
import proofs.«419865_j42563125903664_3_alg».proof.Proof.Spec
import proofs.«419865_j42563125903664_3_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (outs : Gen.Outs (F := Ideal))

/-- The rearrangement of the lattice applied to channel `q`: a rearrangement of the rows followed by one of the
    columns, each written as two slices joined by a concatenation. Rows: kept (channels 0, 1, 3), moved down by one
    with the last row first (2, 5, 6), moved up by one with the first row last (4, 7, 8). Columns: kept (0, 2, 4),
    moved right by one with the last column first (1, 5, 8), moved left by one with the first column last (3, 6, 7). -/
def rollK : Fin 9 → Cert.Lbm.Field → Cert.Lbm.Field
  | 0 => fun g => (fun r : Cert.Lbm.Field =>
      concatenate S2048x4096 1 [⟨S2048x4096, extractStridedSlice S2048x4096 ![0, 0] r slices_S2048x4096_S2048x4096_0_0⟩, ⟨S2048x0, extractStridedSlice S2048x0 ![0, 0] r slices_S2048x4096_S2048x0_0_0⟩] concatenates_S2048x4096_S2048x0_S2048x4096_d1)
      (concatenate S2048x4096 0 [⟨S2048x4096, extractStridedSlice S2048x4096 ![0, 0] g slices_S2048x4096_S2048x4096_0_0⟩, ⟨S0x4096, extractStridedSlice S0x4096 ![0, 0] g slices_S2048x4096_S0x4096_0_0⟩] concatenates_S2048x4096_S0x4096_S2048x4096_d0)
  | 1 => fun g => (fun r : Cert.Lbm.Field =>
      concatenate S2048x4096 1 [⟨S2048x1, extractStridedSlice S2048x1 ![0, 4095] r slices_S2048x4096_S2048x1_0_4095⟩, ⟨S2048x4095, extractStridedSlice S2048x4095 ![0, 0] r slices_S2048x4096_S2048x4095_0_0⟩] concatenates_S2048x1_S2048x4095_S2048x4096_d1)
      (concatenate S2048x4096 0 [⟨S2048x4096, extractStridedSlice S2048x4096 ![0, 0] g slices_S2048x4096_S2048x4096_0_0⟩, ⟨S0x4096, extractStridedSlice S0x4096 ![0, 0] g slices_S2048x4096_S0x4096_0_0⟩] concatenates_S2048x4096_S0x4096_S2048x4096_d0)
  | 2 => fun g => (fun r : Cert.Lbm.Field =>
      concatenate S2048x4096 1 [⟨S2048x4096, extractStridedSlice S2048x4096 ![0, 0] r slices_S2048x4096_S2048x4096_0_0⟩, ⟨S2048x0, extractStridedSlice S2048x0 ![0, 0] r slices_S2048x4096_S2048x0_0_0⟩] concatenates_S2048x4096_S2048x0_S2048x4096_d1)
      (concatenate S2048x4096 0 [⟨S1x4096, extractStridedSlice S1x4096 ![2047, 0] g slices_S2048x4096_S1x4096_2047_0⟩, ⟨S2047x4096, extractStridedSlice S2047x4096 ![0, 0] g slices_S2048x4096_S2047x4096_0_0⟩] concatenates_S1x4096_S2047x4096_S2048x4096_d0)
  | 3 => fun g => (fun r : Cert.Lbm.Field =>
      concatenate S2048x4096 1 [⟨S2048x4095, extractStridedSlice S2048x4095 ![0, 1] r slices_S2048x4096_S2048x4095_0_1⟩, ⟨S2048x1, extractStridedSlice S2048x1 ![0, 0] r slices_S2048x4096_S2048x1_0_0⟩] concatenates_S2048x4095_S2048x1_S2048x4096_d1)
      (concatenate S2048x4096 0 [⟨S2048x4096, extractStridedSlice S2048x4096 ![0, 0] g slices_S2048x4096_S2048x4096_0_0⟩, ⟨S0x4096, extractStridedSlice S0x4096 ![0, 0] g slices_S2048x4096_S0x4096_0_0⟩] concatenates_S2048x4096_S0x4096_S2048x4096_d0)
  | 4 => fun g => (fun r : Cert.Lbm.Field =>
      concatenate S2048x4096 1 [⟨S2048x4096, extractStridedSlice S2048x4096 ![0, 0] r slices_S2048x4096_S2048x4096_0_0⟩, ⟨S2048x0, extractStridedSlice S2048x0 ![0, 0] r slices_S2048x4096_S2048x0_0_0⟩] concatenates_S2048x4096_S2048x0_S2048x4096_d1)
      (concatenate S2048x4096 0 [⟨S2047x4096, extractStridedSlice S2047x4096 ![1, 0] g slices_S2048x4096_S2047x4096_1_0⟩, ⟨S1x4096, extractStridedSlice S1x4096 ![0, 0] g slices_S2048x4096_S1x4096_0_0⟩] concatenates_S2047x4096_S1x4096_S2048x4096_d0)
  | 5 => fun g => (fun r : Cert.Lbm.Field =>
      concatenate S2048x4096 1 [⟨S2048x1, extractStridedSlice S2048x1 ![0, 4095] r slices_S2048x4096_S2048x1_0_4095⟩, ⟨S2048x4095, extractStridedSlice S2048x4095 ![0, 0] r slices_S2048x4096_S2048x4095_0_0⟩] concatenates_S2048x1_S2048x4095_S2048x4096_d1)
      (concatenate S2048x4096 0 [⟨S1x4096, extractStridedSlice S1x4096 ![2047, 0] g slices_S2048x4096_S1x4096_2047_0⟩, ⟨S2047x4096, extractStridedSlice S2047x4096 ![0, 0] g slices_S2048x4096_S2047x4096_0_0⟩] concatenates_S1x4096_S2047x4096_S2048x4096_d0)
  | 6 => fun g => (fun r : Cert.Lbm.Field =>
      concatenate S2048x4096 1 [⟨S2048x4095, extractStridedSlice S2048x4095 ![0, 1] r slices_S2048x4096_S2048x4095_0_1⟩, ⟨S2048x1, extractStridedSlice S2048x1 ![0, 0] r slices_S2048x4096_S2048x1_0_0⟩] concatenates_S2048x4095_S2048x1_S2048x4096_d1)
      (concatenate S2048x4096 0 [⟨S1x4096, extractStridedSlice S1x4096 ![2047, 0] g slices_S2048x4096_S1x4096_2047_0⟩, ⟨S2047x4096, extractStridedSlice S2047x4096 ![0, 0] g slices_S2048x4096_S2047x4096_0_0⟩] concatenates_S1x4096_S2047x4096_S2048x4096_d0)
  | 7 => fun g => (fun r : Cert.Lbm.Field =>
      concatenate S2048x4096 1 [⟨S2048x4095, extractStridedSlice S2048x4095 ![0, 1] r slices_S2048x4096_S2048x4095_0_1⟩, ⟨S2048x1, extractStridedSlice S2048x1 ![0, 0] r slices_S2048x4096_S2048x1_0_0⟩] concatenates_S2048x4095_S2048x1_S2048x4096_d1)
      (concatenate S2048x4096 0 [⟨S2047x4096, extractStridedSlice S2047x4096 ![1, 0] g slices_S2048x4096_S2047x4096_1_0⟩, ⟨S1x4096, extractStridedSlice S1x4096 ![0, 0] g slices_S2048x4096_S1x4096_0_0⟩] concatenates_S2047x4096_S1x4096_S2048x4096_d0)
  | 8 => fun g => (fun r : Cert.Lbm.Field =>
      concatenate S2048x4096 1 [⟨S2048x1, extractStridedSlice S2048x1 ![0, 4095] r slices_S2048x4096_S2048x1_0_4095⟩, ⟨S2048x4095, extractStridedSlice S2048x4095 ![0, 0] r slices_S2048x4096_S2048x4095_0_0⟩] concatenates_S2048x1_S2048x4095_S2048x4096_d1)
      (concatenate S2048x4096 0 [⟨S2047x4096, extractStridedSlice S2047x4096 ![1, 0] g slices_S2048x4096_S2047x4096_1_0⟩, ⟨S1x4096, extractStridedSlice S1x4096 ![0, 0] g slices_S2048x4096_S1x4096_0_0⟩] concatenates_S2047x4096_S1x4096_S2048x4096_d0)

/-! ## Layout operations at an index: the forms this program meets -/

section Layout
variable {α : Type}

/-- An `[a, b, 1]` array cast to `[a, b]` reads, at `(i, j)`, the operand at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- The last axis of an `[a, b, n]` array cut to the one entry `o` reads, at `(i, j, 0)`, the source at `(i, j, o)`. -/
theorem slice3_last_unit_apply {a b n : ℕ} (o : Nat) (X : (⟨3, ![a, b, n]⟩ : Shape).Idx → α)
    (h : (⟨3, ![a, b, n]⟩ : Shape).Slices ![0, 0, o] ⟨3, ![a, b, 1]⟩) (i : Fin a) (j : Fin b) (k : Fin n) (hk : k.val = o) :
    extractStridedSlice ⟨3, ![a, b, 1]⟩ ![0, 0, o] X h (ix3 i j (0 : Fin 1)) = X (ix3 i j k) :=
  extractStridedSlice_apply _ _ _ _ _ (fun ax => by
    match ax with
    | ⟨0, _⟩ => exact (Nat.zero_add _).symm
    | ⟨1, _⟩ => exact (Nat.zero_add _).symm
    | ⟨2, _⟩ => exact hk)

end Layout

/-! ## Before the collision region -/

theorem V1_v0 (c : Dev nD) : Gen.V1 m c main_v0 = fun j => m ((c.tc : Thread nD τ).loc main_arg0) (ix3 (j 1) (j 2) (j 0)) := by
  have e : (Gen.V1 m c main_v0 : S9x2048x4096.Idx → EReal)
      = transpose S9x2048x4096 [2, 0, 1] (m ((c.tc : Thread nD τ).loc main_arg0)) transposes_S2048x4096x9_S9x2048x4096_2_0_1 := by
    dsimp only [Gen.V1, Gen.hostOps0]; after_results; first | done | rfl
  rw [e]; funext j
  exact transpose_apply _ _ _ j _ (fun b => match b with | ⟨0, _⟩ => rfl | ⟨1, _⟩ => rfl | ⟨2, _⟩ => rfl)

theorem V1_arg1 (c : Dev nD) : Gen.V1 m c main_arg1 = m ((c.tc : Thread nD τ).loc main_arg1) :=
  Gen.V1_of m c main_arg1 (by decide)

theorem V1_v2 (c : Dev nD) : Gen.V1 m c main_v2 = fun s => m ((c.tc : Thread nD τ).loc main_arg2) (ix3 (s 0) (s 1) 0) := by
  have e : (Gen.V1 m c main_v2 : S2048x4096.Idx → EReal)
      = shapeCast S2048x4096 (extractStridedSlice S2048x4096x1 ![0, 0, 0] (m ((c.tc : Thread nD τ).loc main_arg2)) slices_S2048x4096x2_S2048x4096x1_0_0_0)
          shapeCasts_S2048x4096x1_S2048x4096 := by
    dsimp only [Gen.V1, Gen.hostOps0]; after_results; first | done | rfl
  rw [e]; funext s
  obtain ⟨a, b, rfl⟩ : ∃ a b, s = ix2 a b := ⟨s 0, s 1, eq_ix2 s⟩
  refine (shapeCast_ab1_ab_apply _ _ a b).trans ?_
  exact slice3_last_unit_apply 0 _ _ a b 0 rfl

theorem V1_v4 (c : Dev nD) : Gen.V1 m c main_v4 = fun s => m ((c.tc : Thread nD τ).loc main_arg2) (ix3 (s 0) (s 1) 1) := by
  have e : (Gen.V1 m c main_v4 : S2048x4096.Idx → EReal)
      = shapeCast S2048x4096 (extractStridedSlice S2048x4096x1 ![0, 0, 1] (m ((c.tc : Thread nD τ).loc main_arg2)) slices_S2048x4096x2_S2048x4096x1_0_0_1)
          shapeCasts_S2048x4096x1_S2048x4096 := by
    dsimp only [Gen.V1, Gen.hostOps0]; after_results; first | done | rfl
  rw [e]; funext s
  obtain ⟨a, b, rfl⟩ : ∃ a b, s = ix2 a b := ⟨s 0, s 1, eq_ix2 s⟩
  refine (shapeCast_ab1_ab_apply _ _ a b).trans ?_
  exact slice3_last_unit_apply 1 _ _ a b 1 rfl

end Cert.KernelIdeal.Hand

end
-- ==== Proof.KHostB.lean ====
/-
  The host operations between the two regions, channel by channel: channel `q` of the relaxed populations is sliced out
  and cast to a field, rearranged on the lattice by `rollK q`, and the result is left alone until the nine are stacked.
-/
import proofs.«419865_j42563125903664_3_alg».proof.Proof.KHostA

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (outs : Gen.Outs (F := Ideal))

/-! ## One channel of a channel-first array -/

section Layout
variable {α : Type}

/-- The first axis of an `[n, a, b]` array cut to the one entry `o` reads, at `(0, i, j)`, the source at `(o, i, j)`. -/
theorem slice3_first_unit_apply {n a b : ℕ} (o : Nat) (X : (⟨3, ![n, a, b]⟩ : Shape).Idx → α)
    (h : (⟨3, ![n, a, b]⟩ : Shape).Slices ![o, 0, 0] ⟨3, ![1, a, b]⟩) (k : Fin n) (hk : k.val = o) (i : Fin a) (j : Fin b) :
    extractStridedSlice ⟨3, ![1, a, b]⟩ ![o, 0, 0] X h (ix3 (0 : Fin 1) i j) = X (ix3 k i j) :=
  extractStridedSlice_apply _ _ _ _ _ (fun ax => by
    match ax with
    | ⟨0, _⟩ => exact hk
    | ⟨1, _⟩ => exact (Nat.zero_add _).symm
    | ⟨2, _⟩ => exact (Nat.zero_add _).symm)

/-- One channel of a channel-first array, cut out and cast to a field, is the array read at that channel. -/
theorem chan_apply (o : Nat) (X : S9x2048x4096.Idx → α) (h : S9x2048x4096.Slices ![o, 0, 0] S1x2048x4096)
    (hc : S1x2048x4096.ShapeCasts S2048x4096) (k : Fin 9) (hk : k.val = o) :
    shapeCast S2048x4096 (extractStridedSlice S1x2048x4096 ![o, 0, 0] X h) hc = fun s => X (ix3 k (s 0) (s 1)) := by
  funext s
  obtain ⟨a, b, rfl⟩ : ∃ a b, s = ix2 a b := ⟨s 0, s 1, eq_ix2 s⟩
  refine (shapeCast_1ab_ab_apply _ _ a b).trans ?_
  exact slice3_first_unit_apply o X h k hk a b

end Layout

/-! ## The nine channels -/

/-- The relaxed populations stay what the collision region left while the channels are taken out one by one. -/
theorem V2_v5 (c : Dev nD) : Gen.V2 m outs c main_v5 = outs 2 main_v5 c := by
  dsimp only [Gen.V2]; exact Function.update_self ..
theorem V4_v5 (c : Dev nD) : Gen.V4 m outs c main_v5 = outs 2 main_v5 c :=
  (Gen.V4_of m outs c main_v5 (by decide)).trans <| (Gen.V3_of m outs c main_v5 (by decide)).trans <| V2_v5 m outs c
theorem V6_v5 (c : Dev nD) : Gen.V6 m outs c main_v5 = outs 2 main_v5 c :=
  (Gen.V6_of m outs c main_v5 (by decide)).trans <| (Gen.V5_of m outs c main_v5 (by decide)).trans <| V4_v5 m outs c
theorem V8_v5 (c : Dev nD) : Gen.V8 m outs c main_v5 = outs 2 main_v5 c :=
  (Gen.V8_of m outs c main_v5 (by decide)).trans <| (Gen.V7_of m outs c main_v5 (by decide)).trans <| V6_v5 m outs c
theorem V10_v5 (c : Dev nD) : Gen.V10 m outs c main_v5 = outs 2 main_v5 c :=
  (Gen.V10_of m outs c main_v5 (by decide)).trans <| (Gen.V9_of m outs c main_v5 (by decide)).trans <| V8_v5 m outs c
theorem V12_v5 (c : Dev nD) : Gen.V12 m outs c main_v5 = outs 2 main_v5 c :=
  (Gen.V12_of m outs c main_v5 (by decide)).trans <| (Gen.V11_of m outs c main_v5 (by decide)).trans <| V10_v5 m outs c
theorem V14_v5 (c : Dev nD) : Gen.V14 m outs c main_v5 = outs 2 main_v5 c :=
  (Gen.V14_of m outs c main_v5 (by decide)).trans <| (Gen.V13_of m outs c main_v5 (by decide)).trans <| V12_v5 m outs c
theorem V16_v5 (c : Dev nD) : Gen.V16 m outs c main_v5 = outs 2 main_v5 c :=
  (Gen.V16_of m outs c main_v5 (by decide)).trans <| (Gen.V15_of m outs c main_v5 (by decide)).trans <| V14_v5 m outs c
theorem V18_v5 (c : Dev nD) : Gen.V18 m outs c main_v5 = outs 2 main_v5 c :=
  (Gen.V18_of m outs c main_v5 (by decide)).trans <| (Gen.V17_of m outs c main_v5 (by decide)).trans <| V16_v5 m outs c

/-- Channel 0 of a channel-first array taken out by the two operations that do it, from any contents. -/
theorem take_0 (W : Valuation τ sig (Elt Ideal)) :
    (StableHlo.after (Gen.hostOps1 (F := Ideal)) W (Proc.devRef .tc main_v7) : S2048x4096.Idx → EReal)
      = fun s => (W (Proc.devRef .tc main_v5) : S9x2048x4096.Idx → EReal) (ix3 0 (s 0) (s 1)) := by
  have e : (StableHlo.after (Gen.hostOps1 (F := Ideal)) W (Proc.devRef .tc main_v7) : S2048x4096.Idx → EReal)
      = shapeCast S2048x4096 (extractStridedSlice S1x2048x4096 ![0, 0, 0] (W (Proc.devRef .tc main_v5)) slices_S9x2048x4096_S1x2048x4096_0_0_0)
          shapeCasts_S1x2048x4096_S2048x4096 := by
    dsimp only [Gen.hostOps1]; after_results; first | done | rfl
  rw [e]
  exact chan_apply 0 _ _ _ 0 rfl

/-- The six operations that rearrange channel 0, from any contents, compute `rollK 0` of the field they are given. -/
theorem roll_0 (W : Valuation τ sig (Elt Ideal)) :
    (StableHlo.after (Gen.hostOps1_1 (F := Ideal)) W (Proc.devRef .tc main_v8) : S2048x4096.Idx → EReal)
      = rollK 0 (W (Proc.devRef .tc main_v7)) := by
  dsimp only [Gen.hostOps1_1]; after_results; first | done | rfl

/-- Channel 0, rearranged, is untouched until the nine are stacked. -/
theorem stacked_0 (c : Dev nD) :
    Gen.V20 m outs c main_v8 = rollK 0 (fun s => outs 2 main_v5 c (ix3 0 (s 0) (s 1))) :=
  (Gen.V20_of m outs c main_v8 (by decide)).trans <| (Gen.V19_of m outs c main_v8 (by decide)).trans <| (Gen.V18_of m outs c main_v8 (by decide)).trans <| (Gen.V17_of m outs c main_v8 (by decide)).trans <| (Gen.V16_of m outs c main_v8 (by decide)).trans <| (Gen.V15_of m outs c main_v8 (by decide)).trans <| (Gen.V14_of m outs c main_v8 (by decide)).trans <| (Gen.V13_of m outs c main_v8 (by decide)).trans <| (Gen.V12_of m outs c main_v8 (by decide)).trans <| (Gen.V11_of m outs c main_v8 (by decide)).trans <| (Gen.V10_of m outs c main_v8 (by decide)).trans <| (Gen.V9_of m outs c main_v8 (by decide)).trans <| (Gen.V8_of m outs c main_v8 (by decide)).trans <| (Gen.V7_of m outs c main_v8 (by decide)).trans <| (Gen.V6_of m outs c main_v8 (by decide)).trans <| (Gen.V5_of m outs c main_v8 (by decide)).trans <| (roll_0 (Gen.V3 m outs c)).trans
    (congrArg (rollK 0) ((take_0 (Gen.V2 m outs c)).trans (by rw [V2_v5]; rfl)))

/-- Channel 1 of a channel-first array taken out by the two operations that do it, from any contents. -/
theorem take_1 (W : Valuation τ sig (Elt Ideal)) :
    (StableHlo.after (Gen.hostOps1_2 (F := Ideal)) W (Proc.devRef .tc main_v10) : S2048x4096.Idx → EReal)
      = fun s => (W (Proc.devRef .tc main_v5) : S9x2048x4096.Idx → EReal) (ix3 1 (s 0) (s 1)) := by
  have e : (StableHlo.after (Gen.hostOps1_2 (F := Ideal)) W (Proc.devRef .tc main_v10) : S2048x4096.Idx → EReal)
      = shapeCast S2048x4096 (extractStridedSlice S1x2048x4096 ![1, 0, 0] (W (Proc.devRef .tc main_v5)) slices_S9x2048x4096_S1x2048x4096_1_0_0)
          shapeCasts_S1x2048x4096_S2048x4096 := by
    dsimp only [Gen.hostOps1_2]; after_results; first | done | rfl
  rw [e]
  exact chan_apply 1 _ _ _ 1 rfl

/-- The six operations that rearrange channel 1, from any contents, compute `rollK 1` of the field they are given. -/
theorem roll_1 (W : Valuation τ sig (Elt Ideal)) :
    (StableHlo.after (Gen.hostOps1_3 (F := Ideal)) W (Proc.devRef .tc main_v11) : S2048x4096.Idx → EReal)
      = rollK 1 (W (Proc.devRef .tc main_v10)) := by
  dsimp only [Gen.hostOps1_3]; after_results; first | done | rfl

/-- Channel 1, rearranged, is untouched until the nine are stacked. -/
theorem stacked_1 (c : Dev nD) :
    Gen.V20 m outs c main_v11 = rollK 1 (fun s => outs 2 main_v5 c (ix3 1 (s 0) (s 1))) :=
  (Gen.V20_of m outs c main_v11 (by decide)).trans <| (Gen.V19_of m outs c main_v11 (by decide)).trans <| (Gen.V18_of m outs c main_v11 (by decide)).trans <| (Gen.V17_of m outs c main_v11 (by decide)).trans <| (Gen.V16_of m outs c main_v11 (by decide)).trans <| (Gen.V15_of m outs c main_v11 (by decide)).trans <| (Gen.V14_of m outs c main_v11 (by decide)).trans <| (Gen.V13_of m outs c main_v11 (by decide)).trans <| (Gen.V12_of m outs c main_v11 (by decide)).trans <| (Gen.V11_of m outs c main_v11 (by decide)).trans <| (Gen.V10_of m outs c main_v11 (by decide)).trans <| (Gen.V9_of m outs c main_v11 (by decide)).trans <| (Gen.V8_of m outs c main_v11 (by decide)).trans <| (Gen.V7_of m outs c main_v11 (by decide)).trans <| (roll_1 (Gen.V5 m outs c)).trans
    (congrArg (rollK 1) ((take_1 (Gen.V4 m outs c)).trans (by rw [V4_v5]; rfl)))

/-- Channel 2 of a channel-first array taken out by the two operations that do it, from any contents. -/
theorem take_2 (W : Valuation τ sig (Elt Ideal)) :
    (StableHlo.after (Gen.hostOps1_4 (F := Ideal)) W (Proc.devRef .tc main_v13) : S2048x4096.Idx → EReal)
      = fun s => (W (Proc.devRef .tc main_v5) : S9x2048x4096.Idx → EReal) (ix3 2 (s 0) (s 1)) := by
  have e : (StableHlo.after (Gen.hostOps1_4 (F := Ideal)) W (Proc.devRef .tc main_v13) : S2048x4096.Idx → EReal)
      = shapeCast S2048x4096 (extractStridedSlice S1x2048x4096 ![2, 0, 0] (W (Proc.devRef .tc main_v5)) slices_S9x2048x4096_S1x2048x4096_2_0_0)
          shapeCasts_S1x2048x4096_S2048x4096 := by
    dsimp only [Gen.hostOps1_4]; after_results; first | done | rfl
  rw [e]
  exact chan_apply 2 _ _ _ 2 rfl

/-- The six operations that rearrange channel 2, from any contents, compute `rollK 2` of the field they are given. -/
theorem roll_2 (W : Valuation τ sig (Elt Ideal)) :
    (StableHlo.after (Gen.hostOps1_5 (F := Ideal)) W (Proc.devRef .tc main_v14) : S2048x4096.Idx → EReal)
      = rollK 2 (W (Proc.devRef .tc main_v13)) := by
  dsimp only [Gen.hostOps1_5]; after_results; first | done | rfl

/-- Channel 2, rearranged, is untouched until the nine are stacked. -/
theorem stacked_2 (c : Dev nD) :
    Gen.V20 m outs c main_v14 = rollK 2 (fun s => outs 2 main_v5 c (ix3 2 (s 0) (s 1))) :=
  (Gen.V20_of m outs c main_v14 (by decide)).trans <| (Gen.V19_of m outs c main_v14 (by decide)).trans <| (Gen.V18_of m outs c main_v14 (by decide)).trans <| (Gen.V17_of m outs c main_v14 (by decide)).trans <| (Gen.V16_of m outs c main_v14 (by decide)).trans <| (Gen.V15_of m outs c main_v14 (by decide)).trans <| (Gen.V14_of m outs c main_v14 (by decide)).trans <| (Gen.V13_of m outs c main_v14 (by decide)).trans <| (Gen.V12_of m outs c main_v14 (by decide)).trans <| (Gen.V11_of m outs c main_v14 (by decide)).trans <| (Gen.V10_of m outs c main_v14 (by decide)).trans <| (Gen.V9_of m outs c main_v14 (by decide)).trans <| (roll_2 (Gen.V7 m outs c)).trans
    (congrArg (rollK 2) ((take_2 (Gen.V6 m outs c)).trans (by rw [V6_v5]; rfl)))

/-- Channel 3 of a channel-first array taken out by the two operations that do it, from any contents. -/
theorem take_3 (W : Valuation τ sig (Elt Ideal)) :
    (StableHlo.after (Gen.hostOps1_6 (F := Ideal)) W (Proc.devRef .tc main_v16) : S2048x4096.Idx → EReal)
      = fun s => (W (Proc.devRef .tc main_v5) : S9x2048x4096.Idx → EReal) (ix3 3 (s 0) (s 1)) := by
  have e : (StableHlo.after (Gen.hostOps1_6 (F := Ideal)) W (Proc.devRef .tc main_v16) : S2048x4096.Idx → EReal)
      = shapeCast S2048x4096 (extractStridedSlice S1x2048x4096 ![3, 0, 0] (W (Proc.devRef .tc main_v5)) slices_S9x2048x4096_S1x2048x4096_3_0_0)
          shapeCasts_S1x2048x4096_S2048x4096 := by
    dsimp only [Gen.hostOps1_6]; after_results; first | done | rfl
  rw [e]
  exact chan_apply 3 _ _ _ 3 rfl

/-- The six operations that rearrange channel 3, from any contents, compute `rollK 3` of the field they are given. -/
theorem roll_3 (W : Valuation τ sig (Elt Ideal)) :
    (StableHlo.after (Gen.hostOps1_7 (F := Ideal)) W (Proc.devRef .tc main_v17) : S2048x4096.Idx → EReal)
      = rollK 3 (W (Proc.devRef .tc main_v16)) := by
  dsimp only [Gen.hostOps1_7]; after_results; first | done | rfl

/-- Channel 3, rearranged, is untouched until the nine are stacked. -/
theorem stacked_3 (c : Dev nD) :
    Gen.V20 m outs c main_v17 = rollK 3 (fun s => outs 2 main_v5 c (ix3 3 (s 0) (s 1))) :=
  (Gen.V20_of m outs c main_v17 (by decide)).trans <| (Gen.V19_of m outs c main_v17 (by decide)).trans <| (Gen.V18_of m outs c main_v17 (by decide)).trans <| (Gen.V17_of m outs c main_v17 (by decide)).trans <| (Gen.V16_of m outs c main_v17 (by decide)).trans <| (Gen.V15_of m outs c main_v17 (by decide)).trans <| (Gen.V14_of m outs c main_v17 (by decide)).trans <| (Gen.V13_of m outs c main_v17 (by decide)).trans <| (Gen.V12_of m outs c main_v17 (by decide)).trans <| (Gen.V11_of m outs c main_v17 (by decide)).trans <| (roll_3 (Gen.V9 m outs c)).trans
    (congrArg (rollK 3) ((take_3 (Gen.V8 m outs c)).trans (by rw [V8_v5]; rfl)))

/-- Channel 4 of a channel-first array taken out by the two operations that do it, from any contents. -/
theorem take_4 (W : Valuation τ sig (Elt Ideal)) :
    (StableHlo.after (Gen.hostOps1_8 (F := Ideal)) W (Proc.devRef .tc main_v19) : S2048x4096.Idx → EReal)
      = fun s => (W (Proc.devRef .tc main_v5) : S9x2048x4096.Idx → EReal) (ix3 4 (s 0) (s 1)) := by
  have e : (StableHlo.after (Gen.hostOps1_8 (F := Ideal)) W (Proc.devRef .tc main_v19) : S2048x4096.Idx → EReal)
      = shapeCast S2048x4096 (extractStridedSlice S1x2048x4096 ![4, 0, 0] (W (Proc.devRef .tc main_v5)) slices_S9x2048x4096_S1x2048x4096_4_0_0)
          shapeCasts_S1x2048x4096_S2048x4096 := by
    dsimp only [Gen.hostOps1_8]; after_results; first | done | rfl
  rw [e]
  exact chan_apply 4 _ _ _ 4 rfl

/-- The six operations that rearrange channel 4, from any contents, compute `rollK 4` of the field they are given. -/
theorem roll_4 (W : Valuation τ sig (Elt Ideal)) :
    (StableHlo.after (Gen.hostOps1_9 (F := Ideal)) W (Proc.devRef .tc main_v20) : S2048x4096.Idx → EReal)
      = rollK 4 (W (Proc.devRef .tc main_v19)) := by
  dsimp only [Gen.hostOps1_9]; after_results; first | done | rfl

/-- Channel 4, rearranged, is untouched until the nine are stacked. -/
theorem stacked_4 (c : Dev nD) :
    Gen.V20 m outs c main_v20 = rollK 4 (fun s => outs 2 main_v5 c (ix3 4 (s 0) (s 1))) :=
  (Gen.V20_of m outs c main_v20 (by decide)).trans <| (Gen.V19_of m outs c main_v20 (by decide)).trans <| (Gen.V18_of m outs c main_v20 (by decide)).trans <| (Gen.V17_of m outs c main_v20 (by decide)).trans <| (Gen.V16_of m outs c main_v20 (by decide)).trans <| (Gen.V15_of m outs c main_v20 (by decide)).trans <| (Gen.V14_of m outs c main_v20 (by decide)).trans <| (Gen.V13_of m outs c main_v20 (by decide)).trans <| (roll_4 (Gen.V11 m outs c)).trans
    (congrArg (rollK 4) ((take_4 (Gen.V10 m outs c)).trans (by rw [V10_v5]; rfl)))

/-- Channel 5 of a channel-first array taken out by the two operations that do it, from any contents. -/
theorem take_5 (W : Valuation τ sig (Elt Ideal)) :
    (StableHlo.after (Gen.hostOps1_10 (F := Ideal)) W (Proc.devRef .tc main_v22) : S2048x4096.Idx → EReal)
      = fun s => (W (Proc.devRef .tc main_v5) : S9x2048x4096.Idx → EReal) (ix3 5 (s 0) (s 1)) := by
  have e : (StableHlo.after (Gen.hostOps1_10 (F := Ideal)) W (Proc.devRef .tc main_v22) : S2048x4096.Idx → EReal)
      = shapeCast S2048x4096 (extractStridedSlice S1x2048x4096 ![5, 0, 0] (W (Proc.devRef .tc main_v5)) slices_S9x2048x4096_S1x2048x4096_5_0_0)
          shapeCasts_S1x2048x4096_S2048x4096 := by
    dsimp only [Gen.hostOps1_10]; after_results; first | done | rfl
  rw [e]
  exact chan_apply 5 _ _ _ 5 rfl

/-- The six operations that rearrange channel 5, from any contents, compute `rollK 5` of the field they are given. -/
theorem roll_5 (W : Valuation τ sig (Elt Ideal)) :
    (StableHlo.after (Gen.hostOps1_11 (F := Ideal)) W (Proc.devRef .tc main_v23) : S2048x4096.Idx → EReal)
      = rollK 5 (W (Proc.devRef .tc main_v22)) := by
  dsimp only [Gen.hostOps1_11]; after_results; first | done | rfl

/-- Channel 5, rearranged, is untouched until the nine are stacked. -/
theorem stacked_5 (c : Dev nD) :
    Gen.V20 m outs c main_v23 = rollK 5 (fun s => outs 2 main_v5 c (ix3 5 (s 0) (s 1))) :=
  (Gen.V20_of m outs c main_v23 (by decide)).trans <| (Gen.V19_of m outs c main_v23 (by decide)).trans <| (Gen.V18_of m outs c main_v23 (by decide)).trans <| (Gen.V17_of m outs c main_v23 (by decide)).trans <| (Gen.V16_of m outs c main_v23 (by decide)).trans <| (Gen.V15_of m outs c main_v23 (by decide)).trans <| (roll_5 (Gen.V13 m outs c)).trans
    (congrArg (rollK 5) ((take_5 (Gen.V12 m outs c)).trans (by rw [V12_v5]; rfl)))

/-- Channel 6 of a channel-first array taken out by the two operations that do it, from any contents. -/
theorem take_6 (W : Valuation τ sig (Elt Ideal)) :
    (StableHlo.after (Gen.hostOps1_12 (F := Ideal)) W (Proc.devRef .tc main_v25) : S2048x4096.Idx → EReal)
      = fun s => (W (Proc.devRef .tc main_v5) : S9x2048x4096.Idx → EReal) (ix3 6 (s 0) (s 1)) := by
  have e : (StableHlo.after (Gen.hostOps1_12 (F := Ideal)) W (Proc.devRef .tc main_v25) : S2048x4096.Idx → EReal)
      = shapeCast S2048x4096 (extractStridedSlice S1x2048x4096 ![6, 0, 0] (W (Proc.devRef .tc main_v5)) slices_S9x2048x4096_S1x2048x4096_6_0_0)
          shapeCasts_S1x2048x4096_S2048x4096 := by
    dsimp only [Gen.hostOps1_12]; after_results; first | done | rfl
  rw [e]
  exact chan_apply 6 _ _ _ 6 rfl

/-- The six operations that rearrange channel 6, from any contents, compute `rollK 6` of the field they are given. -/
theorem roll_6 (W : Valuation τ sig (Elt Ideal)) :
    (StableHlo.after (Gen.hostOps1_13 (F := Ideal)) W (Proc.devRef .tc main_v26) : S2048x4096.Idx → EReal)
      = rollK 6 (W (Proc.devRef .tc main_v25)) := by
  dsimp only [Gen.hostOps1_13]; after_results; first | done | rfl

/-- Channel 6, rearranged, is untouched until the nine are stacked. -/
theorem stacked_6 (c : Dev nD) :
    Gen.V20 m outs c main_v26 = rollK 6 (fun s => outs 2 main_v5 c (ix3 6 (s 0) (s 1))) :=
  (Gen.V20_of m outs c main_v26 (by decide)).trans <| (Gen.V19_of m outs c main_v26 (by decide)).trans <| (Gen.V18_of m outs c main_v26 (by decide)).trans <| (Gen.V17_of m outs c main_v26 (by decide)).trans <| (roll_6 (Gen.V15 m outs c)).trans
    (congrArg (rollK 6) ((take_6 (Gen.V14 m outs c)).trans (by rw [V14_v5]; rfl)))

/-- Channel 7 of a channel-first array taken out by the two operations that do it, from any contents. -/
theorem take_7 (W : Valuation τ sig (Elt Ideal)) :
    (StableHlo.after (Gen.hostOps1_14 (F := Ideal)) W (Proc.devRef .tc main_v28) : S2048x4096.Idx → EReal)
      = fun s => (W (Proc.devRef .tc main_v5) : S9x2048x4096.Idx → EReal) (ix3 7 (s 0) (s 1)) := by
  have e : (StableHlo.after (Gen.hostOps1_14 (F := Ideal)) W (Proc.devRef .tc main_v28) : S2048x4096.Idx → EReal)
      = shapeCast S2048x4096 (extractStridedSlice S1x2048x4096 ![7, 0, 0] (W (Proc.devRef .tc main_v5)) slices_S9x2048x4096_S1x2048x4096_7_0_0)
          shapeCasts_S1x2048x4096_S2048x4096 := by
    dsimp only [Gen.hostOps1_14]; after_results; first | done | rfl
  rw [e]
  exact chan_apply 7 _ _ _ 7 rfl

/-- The six operations that rearrange channel 7, from any contents, compute `rollK 7` of the field they are given. -/
theorem roll_7 (W : Valuation τ sig (Elt Ideal)) :
    (StableHlo.after (Gen.hostOps1_15 (F := Ideal)) W (Proc.devRef .tc main_v29) : S2048x4096.Idx → EReal)
      = rollK 7 (W (Proc.devRef .tc main_v28)) := by
  dsimp only [Gen.hostOps1_15]; after_results; first | done | rfl

/-- Channel 7, rearranged, is untouched until the nine are stacked. -/
theorem stacked_7 (c : Dev nD) :
    Gen.V20 m outs c main_v29 = rollK 7 (fun s => outs 2 main_v5 c (ix3 7 (s 0) (s 1))) :=
  (Gen.V20_of m outs c main_v29 (by decide)).trans <| (Gen.V19_of m outs c main_v29 (by decide)).trans <| (roll_7 (Gen.V17 m outs c)).trans
    (congrArg (rollK 7) ((take_7 (Gen.V16 m outs c)).trans (by rw [V16_v5]; rfl)))

/-- Channel 8 of a channel-first array taken out by the two operations that do it, from any contents. -/
theorem take_8 (W : Valuation τ sig (Elt Ideal)) :
    (StableHlo.after (Gen.hostOps1_16 (F := Ideal)) W (Proc.devRef .tc main_v31) : S2048x4096.Idx → EReal)
      = fun s => (W (Proc.devRef .tc main_v5) : S9x2048x4096.Idx → EReal) (ix3 8 (s 0) (s 1)) := by
  have e : (StableHlo.after (Gen.hostOps1_16 (F := Ideal)) W (Proc.devRef .tc main_v31) : S2048x4096.Idx → EReal)
      = shapeCast S2048x4096 (extractStridedSlice S1x2048x4096 ![8, 0, 0] (W (Proc.devRef .tc main_v5)) slices_S9x2048x4096_S1x2048x4096_8_0_0)
          shapeCasts_S1x2048x4096_S2048x4096 := by
    dsimp only [Gen.hostOps1_16]; after_results; first | done | rfl
  rw [e]
  exact chan_apply 8 _ _ _ 8 rfl

/-- The six operations that rearrange channel 8, from any contents, compute `rollK 8` of the field they are given. -/
theorem roll_8 (W : Valuation τ sig (Elt Ideal)) :
    (StableHlo.after (Gen.hostOps1_17 (F := Ideal)) W (Proc.devRef .tc main_v32) : S2048x4096.Idx → EReal)
      = rollK 8 (W (Proc.devRef .tc main_v31)) := by
  dsimp only [Gen.hostOps1_17]; after_results; first | done | rfl

/-- Channel 8, rearranged, is untouched until the nine are stacked. -/
theorem stacked_8 (c : Dev nD) :
    Gen.V20 m outs c main_v32 = rollK 8 (fun s => outs 2 main_v5 c (ix3 8 (s 0) (s 1))) :=
  (roll_8 (Gen.V19 m outs c)).trans
    (congrArg (rollK 8) ((take_8 (Gen.V18 m outs c)).trans (by rw [V18_v5]; rfl)))

end Cert.KernelIdeal.Hand

end
-- ==== Proof.KHostL.lean ====
/-
  Four layout operations of this program read at an index: a lattice field given a leading axis of one entry,
  nine such stacked along that axis, a field given a last axis of one entry, and two such joined along that axis.
-/
import proofs.«419865_j42563125903664_3_alg».proof.Proof.Spec
import proofs.«419865_j42563125903664_3_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

section Layout
variable {α : Type}

/-- A field broadcast to one channel reads, at `(0, i, j)`, the field at `(i, j)`. -/
theorem bcast_chan_apply (hb : S2048x4096.BroadcastsInDim S1x2048x4096 (![1, 2] : Fin 2 → Fin S1x2048x4096.rank))
    (u : S2048x4096.Idx → α) (i : Fin 2048) (j : Fin 4096) :
    broadcastInDim S1x2048x4096 ![1, 2] hb u (ix3 (0 : Fin 1) i j) = u (ix2 i j) :=
  broadcastInDim_apply _ hb u _ _ (fun a => by
    match a with
    | ⟨0, _⟩ => exact (if_neg (show ¬ (2048 : ℕ) = 1 by decide)).symm
    | ⟨1, _⟩ => exact (if_neg (show ¬ (4096 : ℕ) = 1 by decide)).symm)

/-- Nine fields stacked channel first read, at `(q, i, j)`, field `q` at `(i, j)`. -/
theorem stack9_apply (u0 u1 u2 u3 u4 u5 u6 u7 u8 : S2048x4096.Idx → α)
    (hb : S2048x4096.BroadcastsInDim S1x2048x4096 (![1, 2] : Fin 2 → Fin S1x2048x4096.rank))
    (h : Shape.Concatenates [S1x2048x4096, S1x2048x4096, S1x2048x4096, S1x2048x4096, S1x2048x4096, S1x2048x4096, S1x2048x4096, S1x2048x4096, S1x2048x4096] S9x2048x4096 0)
    (q : Fin 9) (i : Fin 2048) (j : Fin 4096) :
    concatenate S9x2048x4096 0 [⟨S1x2048x4096, broadcastInDim S1x2048x4096 ![1, 2] hb u0⟩,
        ⟨S1x2048x4096, broadcastInDim S1x2048x4096 ![1, 2] hb u1⟩,
        ⟨S1x2048x4096, broadcastInDim S1x2048x4096 ![1, 2] hb u2⟩,
        ⟨S1x2048x4096, broadcastInDim S1x2048x4096 ![1, 2] hb u3⟩,
        ⟨S1x2048x4096, broadcastInDim S1x2048x4096 ![1, 2] hb u4⟩,
        ⟨S1x2048x4096, broadcastInDim S1x2048x4096 ![1, 2] hb u5⟩,
        ⟨S1x2048x4096, broadcastInDim S1x2048x4096 ![1, 2] hb u6⟩,
        ⟨S1x2048x4096, broadcastInDim S1x2048x4096 ![1, 2] hb u7⟩,
        ⟨S1x2048x4096, broadcastInDim S1x2048x4096 ![1, 2] hb u8⟩] h (ix3 q i j)
      = (![u0, u1, u2, u3, u4, u5, u6, u7, u8] : Fin 9 → (S2048x4096.Idx → α)) q (ix2 i j) := by
  refine Eq.trans (b := broadcastInDim S1x2048x4096 ![1, 2] hb ((![u0, u1, u2, u3, u4, u5, u6, u7, u8] : Fin 9 → (S2048x4096.Idx → α)) q) (ix3 (0 : Fin 1) i j)) ?_
    (bcast_chan_apply hb _ i j)
  exact concatenate_ofFn_unit_apply (t := S9x2048x4096) (s₁ := S1x2048x4096) 0
    (fun n : Fin 9 => broadcastInDim S1x2048x4096 ![1, 2] hb ((![u0, u1, u2, u3, u4, u5, u6, u7, u8] : Fin 9 → (S2048x4096.Idx → α)) n))
    h rfl rfl (ix3 q i j) q rfl (ix3 (0 : Fin 1) i j)
    (fun b hb' => match b, hb' with
      | ⟨0, _⟩, hb' => absurd rfl hb'
      | ⟨1, _⟩, _ => rfl
      | ⟨2, _⟩, _ => rfl)

/-- A field given a last axis of one entry reads, at `(i, j, 0)`, the field at `(i, j)`. -/
theorem bcast_last_apply (hb : S2048x4096.BroadcastsInDim S2048x4096x1 (![0, 1] : Fin 2 → Fin S2048x4096x1.rank))
    (u : S2048x4096.Idx → α) (i : Fin 2048) (j : Fin 4096) :
    broadcastInDim S2048x4096x1 ![0, 1] hb u (ix3 i j (0 : Fin 1)) = u (ix2 i j) :=
  broadcastInDim_apply _ hb u _ _ (fun a => by
    match a with
    | ⟨0, _⟩ => exact (if_neg (show ¬ (2048 : ℕ) = 1 by decide)).symm
    | ⟨1, _⟩ => exact (if_neg (show ¬ (4096 : ℕ) = 1 by decide)).symm)

/-- Two fields joined along a new last axis read, at `(i, j, e)`, the first at `(i, j)` when `e` is 0 and the second otherwise. -/
theorem join_last_apply (u v : S2048x4096.Idx → α)
    (hb : S2048x4096.BroadcastsInDim S2048x4096x1 (![0, 1] : Fin 2 → Fin S2048x4096x1.rank))
    (h : Shape.Concatenates [S2048x4096x1, S2048x4096x1] S2048x4096x2 2) (i : Fin 2048) (j : Fin 4096) (e : Fin 2) :
    concatenate S2048x4096x2 2 [⟨S2048x4096x1, broadcastInDim S2048x4096x1 ![0, 1] hb u⟩,
        ⟨S2048x4096x1, broadcastInDim S2048x4096x1 ![0, 1] hb v⟩] h (ix3 i j e)
      = if e.val = 0 then u (ix2 i j) else v (ix2 i j) := by
  by_cases he : e.val = 0
  · rw [if_pos he]
    refine (concatenate_pair_apply_left (t := S2048x4096x2) (s₁ := S2048x4096x1) (s₂ := S2048x4096x1) 2 _ _ h (ix3 i j e) rfl
      (ix3 i j (0 : Fin 1)) (fun b => match b with
        | ⟨0, _⟩ => rfl
        | ⟨1, _⟩ => rfl
        | ⟨2, _⟩ => he.symm)).trans ?_
    exact bcast_last_apply hb u i j
  · rw [if_neg he]
    have he1 : e.val = 1 := by have := e.isLt; omega
    refine (concatenate_pair_apply_right (t := S2048x4096x2) (s₁ := S2048x4096x1) (s₂ := S2048x4096x1) 2 _ _ h (ix3 i j e) rfl rfl
      (ix3 i j (0 : Fin 1)) (fun b hb' => match b, hb' with
        | ⟨0, _⟩, _ => rfl
        | ⟨1, _⟩, _ => rfl
        | ⟨2, _⟩, hb' => absurd rfl hb') (by show 0 + 1 = e.val; omega)).trans ?_
    exact bcast_last_apply hb v i j

end Layout

end Cert.KernelIdeal.Hand

end
-- ==== Proof.KHostC.lean ====
/-
  The last host stretch of the program read as functions: the stacked channel-first array transposed back to
  channel last, the lift region's density passed through, and its two velocity fields joined along a new last axis.
-/
import proofs.«419865_j42563125903664_3_alg».proof.Proof.Spec
import proofs.«419865_j42563125903664_3_alg».proof.Proof.Gen.KernelIdeal.Regions
import proofs.«419865_j42563125903664_3_alg».proof.Proof.KHostL
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (outs : Gen.Outs (F := Ideal))

/-! ## After the lift region -/

/-- What the last host stretch leaves in the three buffers it writes that the results read, over any contents `W`
    it starts from: the transposed stack and the two fields joined along a new last axis. -/
theorem last_v44 (W : Valuation τ sig (Elt Ideal)) :
    (StableHlo.after (hostOps2 (F := Ideal)) W main_v44 : S2048x4096x9.Idx → EReal)
      = transpose S2048x4096x9 [1, 2, 0] (W main_v42) transposes_S9x2048x4096_S2048x4096x9_1_2_0 := by
  dsimp only [Gen.hostOps2]; after_results; first | done | rfl

theorem last_v47 (W : Valuation τ sig (Elt Ideal)) :
    (StableHlo.after (hostOps2 (F := Ideal)) W main_v47 : S2048x4096x2.Idx → EReal)
      = concatenate S2048x4096x2 2 [⟨S2048x4096x1, broadcastInDim S2048x4096x1 ![0, 1] bcast_S2048x4096_S2048x4096x1_0_1 (W main_v43_1)⟩,
          ⟨S2048x4096x1, broadcastInDim S2048x4096x1 ![0, 1] bcast_S2048x4096_S2048x4096x1_0_1 (W main_v43_2)⟩]
          concatenates_S2048x4096x1_S2048x4096x1_S2048x4096x2_d2 := by
  dsimp only [Gen.hostOps2]; after_results; first | done | rfl

theorem V22_v42 (c : Dev nD) : Gen.V22 m outs c main_v42 = Gen.V21 m outs c main_v42 :=
  Gen.V22_of m outs c main_v42 (by decide)
theorem V22_v43_0 (c : Dev nD) : Gen.V22 m outs c main_v43_0 = outs 22 main_v43_0 c := by
  dsimp only [Gen.V22]
  rw [Function.update_of_ne (by decide), Function.update_of_ne (by decide), Function.update_self]
theorem V22_v43_1 (c : Dev nD) : Gen.V22 m outs c main_v43_1 = outs 22 main_v43_1 c := by
  dsimp only [Gen.V22]
  rw [Function.update_of_ne (by decide), Function.update_self]
theorem V22_v43_2 (c : Dev nD) : Gen.V22 m outs c main_v43_2 = outs 22 main_v43_2 c := by
  dsimp only [Gen.V22]
  rw [Function.update_self]

theorem V23_v44 (c : Dev nD) :
    Gen.V23 m outs c main_v44 = fun j => Gen.V21 m outs c main_v42 (ix3 (j 2) (j 0) (j 1)) := by
  show StableHlo.after (hostOps2 (F := Ideal)) (Gen.V22 m outs c) main_v44 = _
  rw [last_v44, V22_v42]; funext j
  exact transpose_apply _ _ _ j _ (fun b => match b with | ⟨0, _⟩ => rfl | ⟨1, _⟩ => rfl | ⟨2, _⟩ => rfl)

theorem V23_v43_0 (c : Dev nD) : Gen.V23 m outs c main_v43_0 = outs 22 main_v43_0 c :=
  (Gen.V23_of m outs c main_v43_0 (by decide)).trans (V22_v43_0 m outs c)

theorem V23_v47 (c : Dev nD) :
    Gen.V23 m outs c main_v47 = fun j => if (j 2).val = 0 then outs 22 main_v43_1 c (ix2 (j 0) (j 1))
      else outs 22 main_v43_2 c (ix2 (j 0) (j 1)) := by
  show StableHlo.after (hostOps2 (F := Ideal)) (Gen.V22 m outs c) main_v47 = _
  rw [last_v47, V22_v43_1, V22_v43_2]; funext j
  obtain ⟨a, b, e, rfl⟩ : ∃ (a : Fin 2048) (b : Fin 4096) (e : Fin 2), j = ix3 a b e := ⟨j 0, j 1, j 2, eq_ix3 j⟩
  exact join_last_apply _ _ _ _ a b e

end Cert.KernelIdeal.Hand

end
-- ==== Proof.KHost.lean ====
/-
  The host stretches of the program read as functions.  Before the collision region: the channel-last populations
  transposed to channel first, and the two velocity components sliced out of the velocity array.  Between the
  regions: each channel of the relaxed populations is sliced out, rearranged on the lattice by that channel's
  fixed shift (`rollK q`, the composition of a rearrangement of the rows and one of the columns), and the nine
  results are stacked channel first.  After the lift region: the stacked array transposed back to channel last, and
  the two velocity fields joined into one array along a new last axis.

  The first and the last of these, and the nine channels one by one, are in the modules imported here; this one
  stacks the nine channels and reads the stack at an index.
-/
import proofs.«419865_j42563125903664_3_alg».proof.Proof.KHostA
import proofs.«419865_j42563125903664_3_alg».proof.Proof.KHostB
import proofs.«419865_j42563125903664_3_alg».proof.Proof.KHostL
import proofs.«419865_j42563125903664_3_alg».proof.Proof.KHostC

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (outs : Gen.Outs (F := Ideal))

/-! ## The nine channels stacked -/

/-- A nine-operand operation's result with each operand's contents at its own reference. -/
theorem nary9_result {Val : EltTy → Type} {x0 x1 x2 x3 x4 x5 x6 x7 x8 y : Ref sig .tc}
    (f : ((k : Fin 9) → ((![x0, x1, x2, x3, x4, x5, x6, x7, x8] : Fin 9 → Ref sig .tc) k).ty.Contents Val) → y.ty.Contents Val) (hxs hy)
    (F : Valuation τ sig Val) :
    (StableHlo.nary (τ := τ) ![x0, x1, x2, x3, x4, x5, x6, x7, x8] y f hxs hy).result F (Proc.devRef .tc y)
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (fun i => i.elim0)))))))))) := by
  rw [StableHlo.nary_result]; congr 1; funext k; fin_cases k <;> rfl

set_option maxHeartbeats 4000000 in
/-- The ten operations that stack the nine rearranged channels, from any contents: each field broadcast to one
    channel, the nine concatenated along the first axis. -/
theorem stack_after (W : Valuation τ sig (Elt Ideal)) :
    (StableHlo.after (Gen.hostOps1_18 (F := Ideal)) W (Proc.devRef .tc main_v42) : S9x2048x4096.Idx → EReal)
      = concatenate S9x2048x4096 0 [⟨S1x2048x4096, broadcastInDim S1x2048x4096 ![1, 2] bcast_S2048x4096_S1x2048x4096_1_2 (W (Proc.devRef .tc main_v8))⟩,
          ⟨S1x2048x4096, broadcastInDim S1x2048x4096 ![1, 2] bcast_S2048x4096_S1x2048x4096_1_2 (W (Proc.devRef .tc main_v11))⟩,
          ⟨S1x2048x4096, broadcastInDim S1x2048x4096 ![1, 2] bcast_S2048x4096_S1x2048x4096_1_2 (W (Proc.devRef .tc main_v14))⟩,
          ⟨S1x2048x4096, broadcastInDim S1x2048x4096 ![1, 2] bcast_S2048x4096_S1x2048x4096_1_2 (W (Proc.devRef .tc main_v17))⟩,
          ⟨S1x2048x4096, broadcastInDim S1x2048x4096 ![1, 2] bcast_S2048x4096_S1x2048x4096_1_2 (W (Proc.devRef .tc main_v20))⟩,
          ⟨S1x2048x4096, broadcastInDim S1x2048x4096 ![1, 2] bcast_S2048x4096_S1x2048x4096_1_2 (W (Proc.devRef .tc main_v23))⟩,
          ⟨S1x2048x4096, broadcastInDim S1x2048x4096 ![1, 2] bcast_S2048x4096_S1x2048x4096_1_2 (W (Proc.devRef .tc main_v26))⟩,
          ⟨S1x2048x4096, broadcastInDim S1x2048x4096 ![1, 2] bcast_S2048x4096_S1x2048x4096_1_2 (W (Proc.devRef .tc main_v29))⟩,
          ⟨S1x2048x4096, broadcastInDim S1x2048x4096 ![1, 2] bcast_S2048x4096_S1x2048x4096_1_2 (W (Proc.devRef .tc main_v32))⟩]
          concatenates_S1x2048x4096_S1x2048x4096_S1x2048x4096_S1x2048x4096_S1x2048x4096_S1x2048x4096_S1x2048x4096_S1x2048x4096_S1x2048x4096_S9x2048x4096_d0 := by
  dsimp only [Gen.hostOps1_18]
  simp only [StableHlo.after_cons, StableHlo.after_nil]
  rw [nary9_result]
  repeat (first
    | rw [StableHlo.unary_result]
    | (rw [StableHlo.unary_result_ne]; rotate_left; decide))
  first | done | rfl

/-! ## Between the regions -/

theorem V21_v42 (c : Dev nD) :
    Gen.V21 m outs c main_v42 = fun j => rollK (j 0) (fun s => outs 2 main_v5 c (ix3 (j 0) (s 0) (s 1))) (ix2 (j 1) (j 2)) := by
  have e := stack_after (Gen.V20 m outs c)
  rw [stacked_0 m outs c, stacked_1 m outs c, stacked_2 m outs c, stacked_3 m outs c, stacked_4 m outs c, stacked_5 m outs c, stacked_6 m outs c, stacked_7 m outs c, stacked_8 m outs c] at e
  have key : ∀ q : Fin 9, (![rollK 0 (fun s => outs 2 main_v5 c (ix3 0 (s 0) (s 1))),
      rollK 1 (fun s => outs 2 main_v5 c (ix3 1 (s 0) (s 1))),
      rollK 2 (fun s => outs 2 main_v5 c (ix3 2 (s 0) (s 1))),
      rollK 3 (fun s => outs 2 main_v5 c (ix3 3 (s 0) (s 1))),
      rollK 4 (fun s => outs 2 main_v5 c (ix3 4 (s 0) (s 1))),
      rollK 5 (fun s => outs 2 main_v5 c (ix3 5 (s 0) (s 1))),
      rollK 6 (fun s => outs 2 main_v5 c (ix3 6 (s 0) (s 1))),
      rollK 7 (fun s => outs 2 main_v5 c (ix3 7 (s 0) (s 1))),
      rollK 8 (fun s => outs 2 main_v5 c (ix3 8 (s 0) (s 1)))] : Fin 9 → Cert.Lbm.Field) q
      = rollK q (fun s => outs 2 main_v5 c (ix3 q (s 0) (s 1))) := by
    intro q; fin_cases q <;> rfl
  funext j
  obtain ⟨q, y, x, rfl⟩ : ∃ (q : Fin 9) (y : Fin 2048) (x : Fin 4096), j = ix3 q y x := ⟨j 0, j 1, j 2, eq_ix3 j⟩
  refine (congrFun e (ix3 q y x)).trans ?_
  refine (stack9_apply _ _ _ _ _ _ _ _ _ _ _ q y x).trans ?_
  exact congrFun (key q) (ix2 y x)

end Cert.KernelIdeal.Hand

end
-- ==== Proof.KVal0Pay.lean ====
/-
  The collision body's nine stored values at one site of the tile.  Each store's value is a tree of pointwise
  operations of the density tile, the two velocity tiles and one channel slab of the populations; read at row
  `r`, column `s` it is the relaxed population `Lbm.post q` of that site's density, velocity and population,
  for the channel `q` the store writes: the weights, the lattice velocities and the numerals 1, 3, 4.5, 1.5 are
  the same f32 words on both sides, and the named relaxation rate is the table's rational.
-/
import proofs.«419865_j42563125903664_3_alg».proof.Proof.Spec
import proofs.«419865_j42563125903664_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

set_option maxRecDepth 16384

noncomputable section

namespace Cert.KernelIdeal.Hand.Collide

open Cert.KernelIdeal Cert.KernelIdeal.Gen
open Idealize.ShloMosaic Idealize.ShloMosaic.TcCoe Idealize.ShloMosaic.ValueIdx Idealize.SL.Sem

/-- The named relaxation rate is the specification's rational, by the certificate's table. -/
theorem rate_eq : Named.named (F := Ideal) Cert.KernelIdeal.κ "inv_tau" (φ := .f32) 0x3FD55555#32 = Cert.Lbm.rate :=
  IdealRules.named_const.ideal_named_scalar _ _ _ _ rfl

/-- A one-channel slab viewed as a 256 x 512 tile reads site `(r, s)` at `(0, r, s)`: the same row-major position. -/
theorem slab_to_tile {α : Type} (x : S1x256x512.Idx → α) (h : S1x256x512.ShapeCasts S256x512) (r : Fin 256) (s : Fin 512) :
    shapeCast S256x512 x h (ix2 r s) = x (ix3 (0 : Fin 1) r s) := by
  refine shapeCast_apply x _ (ix2 r s) (ix3 (0 : Fin 1) r s) ?_
  rw [Shape.rowMajor_val_three, Shape.rowMajor_val_two]
  show (0 * 256 + r.val) * 512 + s.val = r.val * 512 + s.val
  omega

/-- A 256 x 512 tile viewed as a one-channel slab reads `(0, r, s)` at site `(r, s)`. -/
theorem tile_to_slab {α : Type} (y : S256x512.Idx → α) (h : S256x512.ShapeCasts S1x256x512) (r : Fin 256) (s : Fin 512) :
    shapeCast S1x256x512 y h (ix3 (0 : Fin 1) r s) = y (ix2 r s) := by
  refine shapeCast_apply y _ (ix3 (0 : Fin 1) r s) (ix2 r s) ?_
  rw [Shape.rowMajor_val_three, Shape.rowMajor_val_two]
  show r.val * 512 + s.val = (0 * 256 + r.val) * 512 + s.val
  omega

variable (v0 v1 v3 : Vec Ideal S256x512 .f32) (vq : Vec Ideal S1x256x512 .f32) (r : Fin 256) (s : Fin 512)

/-- Channel 0 (weight 4/9, velocity (0, 0)). -/
theorem pay_ch0 :
    k0_pay5 v0 v1 v3 vq (ix3 (0 : Fin 1) r s)
      = Cert.Lbm.post 0 (v0 (ix2 r s)) (v1 (ix2 r s)) (v3 (ix2 r s)) (vq (ix3 (0 : Fin 1) r s)) := by
  unfold k0_pay5 k0_pay4 k0_pay2 k0_pay3
  rw [tile_to_slab]
  simp only [mulf_apply, addf_apply, subf_apply, broadcast_apply, slab_to_tile, shapeCast_self, rate_eq]
  rfl

/-- Channel 1 (weight 1/9, velocity (1, 0)). -/
theorem pay_ch1 :
    k0_pay6 v0 (k0_pay2 v1) (k0_pay3 v3) (k0_pay4 v1 v3) (Scalar.ofBits .f32 0x3F800000#32) vq (ix3 (0 : Fin 1) r s)
      = Cert.Lbm.post 1 (v0 (ix2 r s)) (v1 (ix2 r s)) (v3 (ix2 r s)) (vq (ix3 (0 : Fin 1) r s)) := by
  unfold k0_pay6 k0_pay4 k0_pay2 k0_pay3
  rw [tile_to_slab]
  simp only [mulf_apply, addf_apply, subf_apply, broadcast_apply, slab_to_tile, shapeCast_self, rate_eq]
  rfl

/-- Channel 2 (weight 1/9, velocity (0, 1)). -/
theorem pay_ch2 :
    k0_pay11 (k0_pay4 v1 v3) (k0_pay7 (k0_pay2 v1) (k0_pay3 v3)) (k0_pay8 v0) (k0_pay9 (k0_pay2 v1) (k0_pay3 v3))
        (k0_pay10 (F := Ideal)) vq (ix3 (0 : Fin 1) r s)
      = Cert.Lbm.post 2 (v0 (ix2 r s)) (v1 (ix2 r s)) (v3 (ix2 r s)) (vq (ix3 (0 : Fin 1) r s)) := by
  unfold k0_pay11 k0_pay10 k0_pay9 k0_pay8 k0_pay7 k0_pay4 k0_pay2 k0_pay3
  rw [tile_to_slab]
  simp only [mulf_apply, addf_apply, subf_apply, broadcast_apply, slab_to_tile, shapeCast_self, rate_eq]
  rfl

/-- Channel 3 (weight 1/9, velocity (-1, 0)). -/
theorem pay_ch3 :
    k0_pay14 (k0_pay12 vq) (k0_pay13 v0 (k0_pay2 v1) (k0_pay3 v3) (k0_pay4 v1 v3) vq) (ix3 (0 : Fin 1) r s)
      = Cert.Lbm.post 3 (v0 (ix2 r s)) (v1 (ix2 r s)) (v3 (ix2 r s)) (vq (ix3 (0 : Fin 1) r s)) := by
  unfold k0_pay14 k0_pay13 k0_pay12 k0_pay4 k0_pay2 k0_pay3
  rw [tile_to_slab]
  simp only [mulf_apply, addf_apply, subf_apply, broadcast_apply, slab_to_tile, shapeCast_self, rate_eq]
  rfl

/-- Channel 4 (weight 1/9, velocity (0, -1)). -/
theorem pay_ch4 :
    k0_pay15 v0 (k0_pay2 v1) (k0_pay3 v3) (k0_pay4 v1 v3) vq (ix3 (0 : Fin 1) r s)
      = Cert.Lbm.post 4 (v0 (ix2 r s)) (v1 (ix2 r s)) (v3 (ix2 r s)) (vq (ix3 (0 : Fin 1) r s)) := by
  unfold k0_pay15 k0_pay4 k0_pay2 k0_pay3
  rw [tile_to_slab]
  simp only [mulf_apply, addf_apply, subf_apply, broadcast_apply, slab_to_tile, shapeCast_self, rate_eq]
  rfl

/-- Channel 5 (weight 1/36, velocity (1, 1)). -/
theorem pay_ch5 :
    k0_pay18 v0 (k0_pay4 v1 v3) (k0_pay16 (k0_pay2 v1) (k0_pay3 v3)) (k0_pay17 (F := Ideal)) vq (ix3 (0 : Fin 1) r s)
      = Cert.Lbm.post 5 (v0 (ix2 r s)) (v1 (ix2 r s)) (v3 (ix2 r s)) (vq (ix3 (0 : Fin 1) r s)) := by
  unfold k0_pay18 k0_pay17 k0_pay16 k0_pay4 k0_pay2 k0_pay3
  rw [tile_to_slab]
  simp only [mulf_apply, addf_apply, subf_apply, broadcast_apply, slab_to_tile, shapeCast_self, rate_eq]
  rfl

/-- Channel 6 (weight 1/36, velocity (-1, 1)). -/
theorem pay_ch6 :
    k0_pay20 (k0_pay19 v0 (k0_pay2 v1) (k0_pay3 v3) (k0_pay4 v1 v3)) vq (ix3 (0 : Fin 1) r s)
      = Cert.Lbm.post 6 (v0 (ix2 r s)) (v1 (ix2 r s)) (v3 (ix2 r s)) (vq (ix3 (0 : Fin 1) r s)) := by
  unfold k0_pay20 k0_pay19 k0_pay4 k0_pay2 k0_pay3
  rw [tile_to_slab]
  simp only [mulf_apply, addf_apply, subf_apply, broadcast_apply, slab_to_tile, shapeCast_self, rate_eq]
  rfl

/-- Channel 7 (weight 1/36, velocity (-1, -1)). -/
theorem pay_ch7 :
    k0_pay21 v0 (k0_pay2 v1) (k0_pay3 v3) (k0_pay4 v1 v3) vq (ix3 (0 : Fin 1) r s)
      = Cert.Lbm.post 7 (v0 (ix2 r s)) (v1 (ix2 r s)) (v3 (ix2 r s)) (vq (ix3 (0 : Fin 1) r s)) := by
  unfold k0_pay21 k0_pay4 k0_pay2 k0_pay3
  rw [tile_to_slab]
  simp only [mulf_apply, addf_apply, subf_apply, broadcast_apply, slab_to_tile, shapeCast_self, rate_eq]
  rfl

/-- Channel 8 (weight 1/36, velocity (1, -1)). -/
theorem pay_ch8 :
    k0_pay1 v0 (k0_pay2 v1) (k0_pay3 v3) (k0_pay4 v1 v3) vq (ix3 (0 : Fin 1) r s)
      = Cert.Lbm.post 8 (v0 (ix2 r s)) (v1 (ix2 r s)) (v3 (ix2 r s)) (vq (ix3 (0 : Fin 1) r s)) := by
  unfold k0_pay1 k0_pay4 k0_pay2 k0_pay3
  rw [tile_to_slab]
  simp only [mulf_apply, addf_apply, subf_apply, broadcast_apply, slab_to_tile, shapeCast_self, rate_eq]
  rfl

end Cert.KernelIdeal.Hand.Collide

end
-- ==== Proof.KVal0.lean ====
/-
  What the collision region leaves in its output array: the blocks the grid points write are the restrictions of
  one function of the whole arrays - the relaxed populations `Lbm.postF` of the channel-first populations, the
  density and the two velocity components - and the 8 x 8 grid of 256 x 512 tiles (all nine channels in each)
  covers the 9 x 2048 x 4096 array, so after the last point the array IS that function.

  The steps: the nine stored slabs are the slabs of ONE function of the tile's index (`tileG`: channel `q`, site
  `(r, s)` of the tile holds the relaxed population of channel `q` at that site), so the tile after the body is
  that function (`out0_4_eq`); each input window's block index moves with the output's, so at a grid point the
  tile function of the input blocks is the point's block of `Lbm.postF` of the arrays (`flushed_eq`); site
  `(r, s)` lies in the block of index `(0, r / 256, s / 512)` (`cover`).
-/
import proofs.«419865_j42563125903664_3_alg».proof.Proof.Spec
import proofs.«419865_j42563125903664_3_alg».proof.Proof.KBody0
import proofs.«419865_j42563125903664_3_alg».proof.Proof.KVal0Pay
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Tactic
open Idealize.ShloMosaic.Pipeline (Dat)

namespace Collide

/-! ## The tile after the body -/

theorem hz2 : (![0, 0] : Fin 2 → Nat) = fun _ => 0 := funext fun a => by fin_cases a <;> rfl

/-- The tile the body leaves as one function of the tile's index. -/
def tileG (xf : Vec Ideal S9x256x512 .f32) (xr xu xv : Vec Ideal S256x512 .f32) : Vec Ideal S9x256x512 .f32 :=
  fun y => Cert.Lbm.post (y 0) (xr (ix2 (y 1) (y 2))) (xu (ix2 (y 1) (y 2))) (xv (ix2 (y 1) (y 2))) (xf y)

/-- Slab `q` of the tile places its site `(0, r, s)` at `(q, r, s)`. -/
theorem slab_emb (q : Nat) (hq : ∀ a, (![q, 0, 0] : Fin 3 → Nat) a + S1x256x512.size a ≤ S9x256x512.size a) (hq9 : q < 9)
    (r : Fin 256) (s : Fin 512) :
    (Rect.unit (s := S9x256x512) ![q, 0, 0] S1x256x512.size hq).emb (ix3 (0 : Fin 1) r s) = ix3 (⟨q, hq9⟩ : Fin 9) r s := by
  funext a
  apply Fin.ext
  match a with
  | ⟨0, _⟩ => show q + 1 * 0 = q; omega
  | ⟨1, _⟩ => show 0 + 1 * r.val = r.val; omega
  | ⟨2, _⟩ => show 0 + 1 * s.val = s.val; omega

/-- A store of slab `q` whose value at site `(0, r, s)` is the relaxed population of channel `q` there is the
    tile function read through the slab. -/
theorem piece_ok (q : Nat) (hq : ∀ a, (![q, 0, 0] : Fin 3 → Nat) a + S1x256x512.size a ≤ S9x256x512.size a) (hq9 : q < 9)
    (xf : Vec Ideal S9x256x512 .f32) (xr xu xv : Vec Ideal S256x512 .f32) (pay : FVec Ideal S1x256x512 .f32)
    (hpay : ∀ (r : Fin 256) (s : Fin 512), pay (ix3 (0 : Fin 1) r s)
      = Cert.Lbm.post (⟨q, hq9⟩ : Fin 9) (xr (ix2 r s)) (xu (ix2 r s)) (xv (ix2 r s))
          (View.ld xf (Rect.unit (s := S9x256x512) ![q, 0, 0] S1x256x512.size hq) (ix3 (0 : Fin 1) r s)))
    (x : (Rect.unit (s := S9x256x512) ![q, 0, 0] S1x256x512.size hq).shape.Idx) :
    pay x = tileG xf xr xu xv ((Rect.unit (s := S9x256x512) ![q, 0, 0] S1x256x512.size hq).emb x) := by
  obtain ⟨a, r, s, rfl⟩ : ∃ (a : Fin 1) (r : Fin 256) (s : Fin 512), x = ix3 a r s :=
    ⟨x 0, x 1, x 2, eq_ix3 (n0 := 1) (n1 := 256) (n2 := 512) x⟩
  obtain rfl : a = 0 := Subsingleton.elim _ _
  rw [hpay r s]
  show Cert.Lbm.post (⟨q, hq9⟩ : Fin 9) (xr (ix2 r s)) (xu (ix2 r s)) (xv (ix2 r s))
      (xf ((Rect.unit (s := S9x256x512) ![q, 0, 0] S1x256x512.size hq).emb (ix3 (0 : Fin 1) r s))) = _
  rw [slab_emb q hq hq9 r s]
  rfl

/-- The output tile after the body is the tile function of the four input tiles. -/
theorem out0_4_eq (xf : Vec Ideal S9x256x512 .f32) (xr xu xv : Vec Ideal S256x512 .f32) :
    out0_4 xf xr xu xv = tileG xf xr xu xv := by
  funext y
  unfold out0_4
  simp only [View.ld_unit_zero (S := S256x512) hz2]
  refine View.canon_apply_of_pieces (tileG xf xr xu xv) _ ?_ y
    (View.cover_of_tiledL (s := S9x256x512) _ S1x256x512.size (by sl_kernel_rfl) y)
  intro p hp x
  simp only [List.mem_cons, List.not_mem_nil, or_false] at hp
  rcases hp with rfl | rfl | rfl | rfl | rfl | rfl | rfl | rfl | rfl
  · exact piece_ok 8 _ (by omega) xf xr xu xv _ (fun r s => pay_ch8 xr xu xv _ r s) x
  · exact piece_ok 7 _ (by omega) xf xr xu xv _ (fun r s => pay_ch7 xr xu xv _ r s) x
  · exact piece_ok 6 _ (by omega) xf xr xu xv _ (fun r s => pay_ch6 xr xu xv _ r s) x
  · exact piece_ok 5 _ (by omega) xf xr xu xv _ (fun r s => pay_ch5 xr xu xv _ r s) x
  · exact piece_ok 4 _ (by omega) xf xr xu xv _ (fun r s => pay_ch4 xr xu xv _ r s) x
  · exact piece_ok 3 _ (by omega) xf xr xu xv _ (fun r s => pay_ch3 xr xu xv _ r s) x
  · exact piece_ok 2 _ (by omega) xf xr xu xv _ (fun r s => pay_ch2 xr xu xv _ r s) x
  · exact piece_ok 1 _ (by omega) xf xr xu xv _ (fun r s => pay_ch1 xr xu xv _ r s) x
  · exact piece_ok 0 _ (by omega) xf xr xu xv _ (fun r s => pay_ch0 xr xu xv _ r s) x

/-! ## A grid point's block -/

/-- The tile function at a tile index whose four reads are the arrays' at an array index is the relaxed
    populations there. -/
theorem tile_point (g : Cert.Lbm.ArrF) (rho ux uy : Cert.Lbm.Field)
    (xf : Vec Ideal S9x256x512 .f32) (xr xu xv : Vec Ideal S256x512 .f32) (y : S9x256x512.Idx) (i : S9x2048x4096.Idx)
    (h0 : (y 0).val = (i 0).val) (hf : xf y = g i) (hr : xr (ix2 (y 1) (y 2)) = rho (ix2 (i 1) (i 2)))
    (hu : xu (ix2 (y 1) (y 2)) = ux (ix2 (i 1) (i 2))) (hv : xv (ix2 (y 1) (y 2)) = uy (ix2 (i 1) (i 2))) :
    tileG xf xr xu xv y = Cert.Lbm.postF g rho ux uy i := by
  unfold tileG Cert.Lbm.postF
  have e0 : (y 0 : Fin 9) = (i 0 : Fin 9) := Fin.ext h0
  rw [hf, hr, hu, hv, e0]

/-- The printed index maps over the grid: each input window moves with the output window, and the channel block
    index is zero. -/
theorem idx_facts : ∀ t : Fin cfg0.N,
    win0_4.index t (0 : Fin 3) = 0 ∧ win0_0.index t (0 : Fin 3) = 0
    ∧ win0_0.index t (1 : Fin 3) = win0_4.index t (1 : Fin 3) ∧ win0_0.index t (2 : Fin 3) = win0_4.index t (2 : Fin 3)
    ∧ win0_1.index t (0 : Fin 2) = win0_4.index t (1 : Fin 3) ∧ win0_1.index t (1 : Fin 2) = win0_4.index t (2 : Fin 3)
    ∧ win0_2.index t (0 : Fin 2) = win0_4.index t (1 : Fin 3) ∧ win0_2.index t (1 : Fin 2) = win0_4.index t (2 : Fin 3)
    ∧ win0_3.index t (0 : Fin 2) = win0_4.index t (1 : Fin 3) ∧ win0_3.index t (1 : Fin 2) = win0_4.index t (2 : Fin 3)
    ∧ win0_4.index t (1 : Fin 3) ≤ 7 ∧ win0_4.index t (2 : Fin 3) ≤ 7 :=
  (by decide +kernel : ∀ t : Fin grid0.N, _)

/-- Every 256 x 512 block of the lattice is some point's. -/
theorem idx_onto : ∀ (q1 : Fin 8) (q2 : Fin 8), ∃ t : Fin cfg0.N, win0_4.index t = ![0, q1.val, q2.val] :=
  (by decide +kernel : ∀ (q1 : Fin 8) (q2 : Fin 8), ∃ t : Fin grid0.N, win0_4.index t = ![0, q1.val, q2.val])

variable (V : (c : Dev nD) → (b : Ref sig .tc) → Buf (Elt Ideal) ((c : Thread nD τ).loc b))

/-- What point `t` writes back is block `t` of the relaxed populations of the arrays the region was entered with. -/
theorem flushed_eq (c : Dev nD) (t : Fin cfg0.N) :
    (dat0 (F := Ideal) V c).flushed 4 t
      = ((cfg0.win 4).blk t).view.read (Elt Ideal)
          (Cert.Lbm.postF (V c main_v0) (V c main_arg1) (V c main_v2) (V c main_v4)) := by
  show (cfg0.win 4).cut (grid0.coords t) ((dat0 V c).after 4 t) = _
  rw [after0_4, out0_4_eq]
  obtain ⟨e4, e00, e01, e02, e10, e11, e20, e21, e30, e31, -, -⟩ := idx_facts t
  funext j
  have hj0 : (j 0).val < 9 := (j 0).isLt
  have hj1 : (j 1).val < 256 := (j 1).isLt
  have hj2 : (j 2).val < 512 := (j 2).isLt
  refine tile_point (V c main_v0) (V c main_arg1) (V c main_v2) (V c main_v4)
    (iblk0 V c 0 t) (iblk0 V c 1 t) (iblk0 V c 2 t) (iblk0 V c 3 t)
    ((cfg0.win 4).xinj (grid0.coords t) j) (((cfg0.win 4).blk t).view.emb j) ?_ ?_ ?_ ?_ ?_
  · show (j 0).val = win0_4.index t (0 : Fin 3) * 9 + 1 * (j 0).val
    omega
  · show V c main_v0 (((cfg0.win 0).blk t).view.emb ((cfg0.win 4).xinj (grid0.coords t) j))
        = V c main_v0 (((cfg0.win 4).blk t).view.emb j)
    refine congrArg (V c main_v0) (funext fun a => Fin.ext ?_)
    match a with
    | ⟨0, _⟩ => show win0_0.index t (0 : Fin 3) * 9 + 1 * (j 0).val = win0_4.index t (0 : Fin 3) * 9 + 1 * (j 0).val; omega
    | ⟨1, _⟩ => show win0_0.index t (1 : Fin 3) * 256 + 1 * (j 1).val = win0_4.index t (1 : Fin 3) * 256 + 1 * (j 1).val; omega
    | ⟨2, _⟩ => show win0_0.index t (2 : Fin 3) * 512 + 1 * (j 2).val = win0_4.index t (2 : Fin 3) * 512 + 1 * (j 2).val; omega
  · show V c main_arg1 (((cfg0.win 1).blk t).view.emb (ix2 ((cfg0.win 4).xinj (grid0.coords t) j 1) ((cfg0.win 4).xinj (grid0.coords t) j 2)))
        = V c main_arg1 (ix2 ((((cfg0.win 4).blk t).view.emb j) 1) ((((cfg0.win 4).blk t).view.emb j) 2))
    refine congrArg (V c main_arg1) (funext fun a => Fin.ext ?_)
    match a with
    | ⟨0, _⟩ => show win0_1.index t (0 : Fin 2) * 256 + 1 * (j 1).val = win0_4.index t (1 : Fin 3) * 256 + 1 * (j 1).val; omega
    | ⟨1, _⟩ => show win0_1.index t (1 : Fin 2) * 512 + 1 * (j 2).val = win0_4.index t (2 : Fin 3) * 512 + 1 * (j 2).val; omega
  · show V c main_v2 (((cfg0.win 2).blk t).view.emb (ix2 ((cfg0.win 4).xinj (grid0.coords t) j 1) ((cfg0.win 4).xinj (grid0.coords t) j 2)))
        = V c main_v2 (ix2 ((((cfg0.win 4).blk t).view.emb j) 1) ((((cfg0.win 4).blk t).view.emb j) 2))
    refine congrArg (V c main_v2) (funext fun a => Fin.ext ?_)
    match a with
    | ⟨0, _⟩ => show win0_2.index t (0 : Fin 2) * 256 + 1 * (j 1).val = win0_4.index t (1 : Fin 3) * 256 + 1 * (j 1).val; omega
    | ⟨1, _⟩ => show win0_2.index t (1 : Fin 2) * 512 + 1 * (j 2).val = win0_4.index t (2 : Fin 3) * 512 + 1 * (j 2).val; omega
  · show V c main_v4 (((cfg0.win 3).blk t).view.emb (ix2 ((cfg0.win 4).xinj (grid0.coords t) j 1) ((cfg0.win 4).xinj (grid0.coords t) j 2)))
        = V c main_v4 (ix2 ((((cfg0.win 4).blk t).view.emb j) 1) ((((cfg0.win 4).blk t).view.emb j) 2))
    refine congrArg (V c main_v4) (funext fun a => Fin.ext ?_)
    match a with
    | ⟨0, _⟩ => show win0_3.index t (0 : Fin 2) * 256 + 1 * (j 1).val = win0_4.index t (1 : Fin 3) * 256 + 1 * (j 1).val; omega
    | ⟨1, _⟩ => show win0_3.index t (1 : Fin 2) * 512 + 1 * (j 2).val = win0_4.index t (2 : Fin 3) * 512 + 1 * (j 2).val; omega

/-! ## The cover -/

/-- An index of the array is in point `t`'s block iff each coordinate is in the block's range on its axis. -/
theorem mem_blk (t : Fin cfg0.N) (i : S9x2048x4096.Idx) :
    i ∈ ((cfg0.win 4).blk t).view.set ↔ ∀ a : Fin 3, win0_4.index t a * S9x256x512.size a ≤ (i a).val
      ∧ (i a).val < win0_4.index t a * S9x256x512.size a + S9x256x512.size a := by
  show i ∈ ((View.whole main_v5).slice (win0_4.rect t)).set ↔ _
  rw [View.set_slice_whole, Rect.mem_set_unit]
  exact Iff.rfl

/-- The 8 x 8 grid of tiles covers the array: site `(r, s)` of any channel lies in the block of the point whose
    block index is `(0, r / 256, s / 512)`. -/
theorem cover (i : S9x2048x4096.Idx) :
    ∃ t : Fin cfg0.N, (cfg0.win 4).flush t = true ∧ i ∈ ((cfg0.win 4).blk t).view.set := by
  have hi0 : (i 0).val < 9 := (i 0).isLt
  have hi1 : (i 1).val < 2048 := (i 1).isLt
  have hi2 : (i 2).val < 4096 := (i 2).isLt
  obtain ⟨t, ht⟩ := idx_onto ⟨(i 1).val / 256, by omega⟩ ⟨(i 2).val / 512, by omega⟩
  have q0 : win0_4.index t (0 : Fin 3) = 0 := congrFun ht 0
  have q1 : win0_4.index t (1 : Fin 3) = (i 1).val / 256 := congrFun ht 1
  have q2 : win0_4.index t (2 : Fin 3) = (i 2).val / 512 := congrFun ht 2
  refine ⟨t, flush0_4 t, ?_⟩
  rw [mem_blk]
  intro a
  match a with
  | ⟨0, _⟩ => show win0_4.index t (0 : Fin 3) * 9 ≤ (i 0).val ∧ (i 0).val < win0_4.index t (0 : Fin 3) * 9 + 9; omega
  | ⟨1, _⟩ => show win0_4.index t (1 : Fin 3) * 256 ≤ (i 1).val ∧ (i 1).val < win0_4.index t (1 : Fin 3) * 256 + 256; omega
  | ⟨2, _⟩ => show win0_4.index t (2 : Fin 3) * 512 ≤ (i 2).val ∧ (i 2).val < win0_4.index t (2 : Fin 3) * 512 + 512; omega

end Collide

variable (V : (c : Dev nD) → (b : Ref sig .tc) → Buf (Elt Ideal) ((c : Thread nD τ).loc b))

/-- After the last grid point the collision region's output array holds the relaxed populations of the arrays the
    region was entered with. -/
theorem arr0 (c : Dev nD) :
    (dat0 (F := Ideal) V c).arrAt 4 cfg0.N
      = Cert.Lbm.postF (V c main_v0) (V c main_arg1) (V c main_v2) (V c main_v4) :=
  (dat0 (F := Ideal) V c).arrAt_eq_of_cover 4 _ (fun t _ => Collide.flushed_eq V c t) Collide.cover

end Cert.KernelIdeal.Hand

end
-- ==== Proof.KVal1.lean ====
/-
  What the lift region leaves in its three output arrays: each point's tiles are the restrictions of one function
  of the whole channel-first array - the sum of the nine channels, and the two velocity-weighted sums divided by
  it - and the 8 x 8 grid of 256 x 512 tiles covers the 2048 x 4096 lattice, so after the last point each array IS
  that function.
-/
import proofs.«419865_j42563125903664_3_alg».proof.Proof.Spec
import proofs.«419865_j42563125903664_3_alg».proof.Proof.KBody1
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Channel `q` of a channel-first array as a field. -/
abbrev chan (g : Cert.Lbm.ArrF) (q : Fin 9) : Cert.Lbm.Field := fun s => g (ix3 q (s 0) (s 1))

namespace Lift1

/-! ## The body's arithmetic at one entry of the tile -/

/-- Slab `o` of the 9 x 256 x 512 tile, loaded as a 1 x 256 x 512 vector and cast to 256 x 512, holds at `(r, s)` the
    tile's entry `(o, r, s)`. -/
theorem slab_apply (x : Vec Ideal S9x256x512 .f32) (o : Nat) (ho : o < 9)
    (inb : ∀ a, (![o, 0, 0] : Fin 3 → Nat) a + S1x256x512.size a ≤ S9x256x512.size a) (r : Fin 256) (s : Fin 512) :
    shapeCast S256x512 (View.ld x (Rect.unit (s := S9x256x512) ![o, 0, 0] S1x256x512.size inb)) shapeCasts_S1x256x512_S256x512 (ix2 r s)
      = x (ix3 (⟨o, ho⟩ : Fin 9) r s) := by
  refine (shapeCast_1ab_ab_apply _ _ r s).trans ?_
  show x _ = x _
  congr 1
  funext a; apply Fin.ext
  match a with
  | ⟨0, _⟩ => show o + 1 * 0 = o; omega
  | ⟨1, _⟩ => show 0 + 1 * r.val = r.val; omega
  | ⟨2, _⟩ => show 0 + 1 * s.val = s.val; omega

/-- The running sum of all nine slabs is the specification's left-associated sum of the nine entries. -/
theorem acc1_rho_apply (x : Vec Ideal S9x256x512 .f32) (r : Fin 256) (s : Fin 512) :
    acc1_rho x (ix2 r s) = Cert.Lbm.sum9 fun q => x (ix3 q r s) := by
  have h0 := slab_apply x 0 (by omega) inb_S9x256x512_S1x256x512_0_0_0 r s
  have h1 := slab_apply x 1 (by omega) inb_S9x256x512_S1x256x512_1_0_0 r s
  have h2 := slab_apply x 2 (by omega) inb_S9x256x512_S1x256x512_2_0_0 r s
  have h3 := slab_apply x 3 (by omega) inb_S9x256x512_S1x256x512_3_0_0 r s
  have h4 := slab_apply x 4 (by omega) inb_S9x256x512_S1x256x512_4_0_0 r s
  have h5 := slab_apply x 5 (by omega) inb_S9x256x512_S1x256x512_5_0_0 r s
  have h6 := slab_apply x 6 (by omega) inb_S9x256x512_S1x256x512_6_0_0 r s
  have h7 := slab_apply x 7 (by omega) inb_S9x256x512_S1x256x512_7_0_0 r s
  have h8 := slab_apply x 8 (by omega) inb_S9x256x512_S1x256x512_8_0_0 r s
  unfold acc1_rho k1_pay17 k1_pay7 k1_pay3 k1_pay4 k1_pay5 k1_pay6 k1_pay10 k1_pay11 k1_pay12 k1_pay13 k1_pay16
  simp only [addf_apply]
  rw [h0, h1, h2, h3, h4, h5, h6, h7, h8]
  rfl

/-- The first eight weighted terms and the ninth, added, are the specification's sum weighted by the velocities'
    first components: the words are the same, in the same order. -/
theorem acc1_ux_apply (x : Vec Ideal S9x256x512 .f32) (r : Fin 256) (s : Fin 512) :
    acc1_ux x (ix2 r s) + k1_pay18 (View.ld x sC8) (ix2 r s) = Cert.Lbm.sum9 fun q => x (ix3 q r s) * Cert.Lbm.cx q := by
  have h0 := slab_apply x 0 (by omega) inb_S9x256x512_S1x256x512_0_0_0 r s
  have h1 := slab_apply x 1 (by omega) inb_S9x256x512_S1x256x512_1_0_0 r s
  have h2 := slab_apply x 2 (by omega) inb_S9x256x512_S1x256x512_2_0_0 r s
  have h3 := slab_apply x 3 (by omega) inb_S9x256x512_S1x256x512_3_0_0 r s
  have h4 := slab_apply x 4 (by omega) inb_S9x256x512_S1x256x512_4_0_0 r s
  have h5 := slab_apply x 5 (by omega) inb_S9x256x512_S1x256x512_5_0_0 r s
  have h6 := slab_apply x 6 (by omega) inb_S9x256x512_S1x256x512_6_0_0 r s
  have h7 := slab_apply x 7 (by omega) inb_S9x256x512_S1x256x512_7_0_0 r s
  have h8 := slab_apply x 8 (by omega) inb_S9x256x512_S1x256x512_8_0_0 r s
  unfold acc1_ux k1_pay18 k1_pay14 k1_pay8 k1_pay3 k1_pay4 k1_pay5 k1_pay6 k1_pay10 k1_pay11 k1_pay12 k1_pay13 k1_pay16
  simp only [addf_apply, mulf_apply, broadcast_apply]
  rw [h0, h1, h2, h3, h4, h5, h6, h7, h8]
  rfl

/-- The same for the velocities' second components (the ninth term's factor is the word of minus one). -/
theorem acc1_uy_apply (x : Vec Ideal S9x256x512 .f32) (r : Fin 256) (s : Fin 512) :
    acc1_uy x (ix2 r s) + k1_pay16 (View.ld x sC8) (ix2 r s) * Ideal.ofBits .f32 0xBF800000#32
      = Cert.Lbm.sum9 fun q => x (ix3 q r s) * Cert.Lbm.cy q := by
  have h0 := slab_apply x 0 (by omega) inb_S9x256x512_S1x256x512_0_0_0 r s
  have h1 := slab_apply x 1 (by omega) inb_S9x256x512_S1x256x512_1_0_0 r s
  have h2 := slab_apply x 2 (by omega) inb_S9x256x512_S1x256x512_2_0_0 r s
  have h3 := slab_apply x 3 (by omega) inb_S9x256x512_S1x256x512_3_0_0 r s
  have h4 := slab_apply x 4 (by omega) inb_S9x256x512_S1x256x512_4_0_0 r s
  have h5 := slab_apply x 5 (by omega) inb_S9x256x512_S1x256x512_5_0_0 r s
  have h6 := slab_apply x 6 (by omega) inb_S9x256x512_S1x256x512_6_0_0 r s
  have h7 := slab_apply x 7 (by omega) inb_S9x256x512_S1x256x512_7_0_0 r s
  have h8 := slab_apply x 8 (by omega) inb_S9x256x512_S1x256x512_8_0_0 r s
  unfold acc1_uy k1_pay15 k1_pay9 k1_pay3 k1_pay4 k1_pay5 k1_pay6 k1_pay10 k1_pay11 k1_pay12 k1_pay13 k1_pay16
  simp only [addf_apply, mulf_apply, broadcast_apply]
  rw [h0, h1, h2, h3, h4, h5, h6, h7, h8]
  rfl

/-- The three stored tiles at an entry `j`, when the input tile's nine entries over `j` are the nine channels of an
    array `g` at a site `i`: the density, and the two velocity components, of `g`'s channels at `i`. -/
theorem rho_at (x : Vec Ideal S9x256x512 .f32) (g : Cert.Lbm.ArrF) (j : S256x512.Idx) (i : Cert.Lbm.Site)
    (h : ∀ q : Fin 9, x (ix3 q (j 0) (j 1)) = g (ix3 q (i 0) (i 1))) :
    acc1_rho x j = Cert.Lbm.dens (chan g) i := by
  obtain ⟨r, s, rfl⟩ : ∃ (r : Fin 256) (s : Fin 512), j = ix2 r s := ⟨j 0, j 1, eq_ix2 j⟩
  rw [acc1_rho_apply]
  show Cert.Lbm.sum9 _ = Cert.Lbm.sum9 _
  congr 1; funext q; exact h q

theorem ux_at (x : Vec Ideal S9x256x512 .f32) (g : Cert.Lbm.ArrF) (j : S256x512.Idx) (i : Cert.Lbm.Site)
    (h : ∀ q : Fin 9, x (ix3 q (j 0) (j 1)) = g (ix3 q (i 0) (i 1))) :
    k1_pay1 (acc1_ux x) (acc1_rho x) (k1_pay18 (View.ld x sC8)) j = Cert.Lbm.velx (chan g) i := by
  have hr := rho_at x g j i h
  obtain ⟨r, s, rfl⟩ : ∃ (r : Fin 256) (s : Fin 512), j = ix2 r s := ⟨j 0, j 1, eq_ix2 j⟩
  unfold k1_pay1
  simp only [divf_apply, addf_apply]
  rw [acc1_ux_apply, hr]
  show Ideal.div (Cert.Lbm.sum9 _) _ = Ideal.div (Cert.Lbm.sum9 _) _
  congr 2; funext q; exact congrArg (· * Cert.Lbm.cx q) (h q)

theorem uy_at (x : Vec Ideal S9x256x512 .f32) (g : Cert.Lbm.ArrF) (j : S256x512.Idx) (i : Cert.Lbm.Site)
    (h : ∀ q : Fin 9, x (ix3 q (j 0) (j 1)) = g (ix3 q (i 0) (i 1))) :
    k1_pay2 (acc1_uy x) (k1_pay16 (View.ld x sC8)) (acc1_rho x) j = Cert.Lbm.vely (chan g) i := by
  have hr := rho_at x g j i h
  obtain ⟨r, s, rfl⟩ : ∃ (r : Fin 256) (s : Fin 512), j = ix2 r s := ⟨j 0, j 1, eq_ix2 j⟩
  unfold k1_pay2
  simp only [divf_apply, addf_apply, mulf_apply, broadcast_apply]
  show Ideal.div (acc1_uy x (ix2 r s) + k1_pay16 (View.ld x sC8) (ix2 r s) * Ideal.ofBits .f32 0xBF800000#32) _ = _
  rw [acc1_uy_apply, hr]
  show Ideal.div (Cert.Lbm.sum9 _) _ = Ideal.div (Cert.Lbm.sum9 _) _
  congr 2; funext q; exact congrArg (· * Cert.Lbm.cy q) (h q)

/-! ## Each point's tiles as blocks of the whole-array functions -/

theorem hz : (![0, 0] : Fin 2 → Nat) = fun _ => 0 := funext fun a => by fin_cases a <;> rfl

/-- The printed index maps over the 8 x 8 grid: the input block sits at channel block 0 and at the output tile's
    row and column block, and the three output windows move together. -/
theorem idx_facts1 : ∀ t : Fin cfg1.N, win1_0.index t (0 : Fin 3) = 0
    ∧ win1_0.index t (1 : Fin 3) = win1_1.index t (0 : Fin 2)
    ∧ win1_0.index t (2 : Fin 3) = win1_1.index t (1 : Fin 2)
    ∧ win1_2.index t (0 : Fin 2) = win1_1.index t (0 : Fin 2)
    ∧ win1_2.index t (1 : Fin 2) = win1_1.index t (1 : Fin 2)
    ∧ win1_3.index t (0 : Fin 2) = win1_1.index t (0 : Fin 2)
    ∧ win1_3.index t (1 : Fin 2) = win1_1.index t (1 : Fin 2) :=
  (by decide +kernel : ∀ t : Fin grid1.N, _)

/-- Every tile of the 8 x 8 tiling is some point's. -/
theorem idx_onto1 : ∀ (q0 : Fin 8) (q1 : Fin 8), ∃ t : Fin cfg1.N,
    win1_1.index t (0 : Fin 2) = q0.val ∧ win1_1.index t (1 : Fin 2) = q1.val :=
  (by decide +kernel : ∀ (q0 : Fin 8) (q1 : Fin 8), ∃ t : Fin grid1.N,
    win1_1.index t (0 : Fin 2) = q0.val ∧ win1_1.index t (1 : Fin 2) = q1.val)

/-- The input block at point `t`, at channel `q` over the tile entry `j`, is the array's channel `q` at the site whose
    row and column are the block's offsets plus `j`'s. -/
theorem iblk1_at (c : Dev nD) (t : Fin cfg1.N) (q : Fin 9) (j : S256x512.Idx) (i : S2048x4096.Idx)
    (h0 : win1_0.index t (1 : Fin 3) * 256 + 1 * (j 0).val = (i 0).val)
    (h1 : win1_0.index t (2 : Fin 3) * 512 + 1 * (j 1).val = (i 1).val) :
    (iblk1 (F := Ideal) V c 0 t : Vec Ideal S9x256x512 .f32) (ix3 q (j 0) (j 1)) = V c main_v42 (ix3 q (i 0) (i 1)) := by
  have e0 : win1_0.index t (0 : Fin 3) = 0 := (idx_facts1 t).1
  unfold iblk1
  rw [View.read_apply]
  show V c main_v42 _ = V c main_v42 _
  congr 1
  funext a
  apply Fin.ext
  match a with
  | ⟨0, _⟩ => show win1_0.index t (0 : Fin 3) * 9 + 1 * q.val = q.val; rw [e0]; omega
  | ⟨1, _⟩ => show win1_0.index t (1 : Fin 3) * 256 + 1 * (j 0).val = (i 0).val; exact h0
  | ⟨2, _⟩ => show win1_0.index t (2 : Fin 3) * 512 + 1 * (j 1).val = (i 1).val; exact h1

/-- What point `t` writes back to the density array is block `t` of the density of the input array's channels. -/
theorem flushed1_eq (c : Dev nD) (t : Fin cfg1.N) :
    (dat1 (F := Ideal) V c).flushed 1 t
      = ((cfg1.win 1).blk t).view.read (Elt Ideal) (Cert.Lbm.dens (chan (V c main_v42))) := by
  show (cfg1.win 1).cut (grid1.coords t) ((dat1 (F := Ideal) V c).after 1 t) = _
  rw [after1_1]
  unfold out1_1
  rw [View.canon_unit_zero hz]
  obtain ⟨e0, e1, e2, e3, e4, e5, e6⟩ := idx_facts1 t
  funext j
  show acc1_rho (iblk1 V c 0 t) j = Cert.Lbm.dens (chan (V c main_v42)) (((cfg1.win 1).blk t).view.emb j)
  refine rho_at (iblk1 V c 0 t) (V c main_v42) j (((cfg1.win 1).blk t).view.emb j) fun q => ?_
  refine iblk1_at V c t q j (((cfg1.win 1).blk t).view.emb j) ?_ ?_
  · show win1_0.index t (1 : Fin 3) * 256 + 1 * (j 0).val = win1_1.index t (0 : Fin 2) * 256 + 1 * (j 0).val
    rw [e1]
  · show win1_0.index t (2 : Fin 3) * 512 + 1 * (j 1).val = win1_1.index t (1 : Fin 2) * 512 + 1 * (j 1).val
    rw [e2]

/-- What point `t` writes back to the second output array is block `t` of the first velocity component. -/
theorem flushed2_eq (c : Dev nD) (t : Fin cfg1.N) :
    (dat1 (F := Ideal) V c).flushed 2 t
      = ((cfg1.win 2).blk t).view.read (Elt Ideal) (Cert.Lbm.velx (chan (V c main_v42))) := by
  show (cfg1.win 2).cut (grid1.coords t) ((dat1 (F := Ideal) V c).after 2 t) = _
  rw [after1_2]
  unfold out1_2
  rw [View.canon_unit_zero hz]
  obtain ⟨e0, e1, e2, e3, e4, e5, e6⟩ := idx_facts1 t
  funext j
  show k1_pay1 (acc1_ux (iblk1 V c 0 t)) (acc1_rho (iblk1 V c 0 t)) (k1_pay18 (View.ld (iblk1 V c 0 t) sC8)) j
    = Cert.Lbm.velx (chan (V c main_v42)) (((cfg1.win 2).blk t).view.emb j)
  refine ux_at (iblk1 V c 0 t) (V c main_v42) j (((cfg1.win 2).blk t).view.emb j) fun q => ?_
  refine iblk1_at V c t q j (((cfg1.win 2).blk t).view.emb j) ?_ ?_
  · show win1_0.index t (1 : Fin 3) * 256 + 1 * (j 0).val = win1_2.index t (0 : Fin 2) * 256 + 1 * (j 0).val
    rw [e1, e3]
  · show win1_0.index t (2 : Fin 3) * 512 + 1 * (j 1).val = win1_2.index t (1 : Fin 2) * 512 + 1 * (j 1).val
    rw [e2, e4]

/-- What point `t` writes back to the third output array is block `t` of the second velocity component. -/
theorem flushed3_eq (c : Dev nD) (t : Fin cfg1.N) :
    (dat1 (F := Ideal) V c).flushed 3 t
      = ((cfg1.win 3).blk t).view.read (Elt Ideal) (Cert.Lbm.vely (chan (V c main_v42))) := by
  show (cfg1.win 3).cut (grid1.coords t) ((dat1 (F := Ideal) V c).after 3 t) = _
  rw [after1_3]
  unfold out1_3
  rw [View.canon_unit_zero hz]
  obtain ⟨e0, e1, e2, e3, e4, e5, e6⟩ := idx_facts1 t
  funext j
  show k1_pay2 (acc1_uy (iblk1 V c 0 t)) (k1_pay16 (View.ld (iblk1 V c 0 t) sC8)) (acc1_rho (iblk1 V c 0 t)) j
    = Cert.Lbm.vely (chan (V c main_v42)) (((cfg1.win 3).blk t).view.emb j)
  refine uy_at (iblk1 V c 0 t) (V c main_v42) j (((cfg1.win 3).blk t).view.emb j) fun q => ?_
  refine iblk1_at V c t q j (((cfg1.win 3).blk t).view.emb j) ?_ ?_
  · show win1_0.index t (1 : Fin 3) * 256 + 1 * (j 0).val = win1_3.index t (0 : Fin 2) * 256 + 1 * (j 0).val
    rw [e1, e5]
  · show win1_0.index t (2 : Fin 3) * 512 + 1 * (j 1).val = win1_3.index t (1 : Fin 2) * 512 + 1 * (j 1).val
    rw [e2, e6]

/-! ## The tiles cover the lattice, so each array is its function -/

/-- A site is in point `t`'s block of output 1 iff each coordinate is in the block's range on its axis. -/
theorem mem_blk1 (t : Fin cfg1.N) (i : S2048x4096.Idx) :
    i ∈ ((cfg1.win 1).blk t).view.set ↔ ∀ a : Fin 2, win1_1.index t a * S256x512.size a ≤ (i a).val
      ∧ (i a).val < win1_1.index t a * S256x512.size a + S256x512.size a := by
  show i ∈ ((View.whole main_v43_0).slice (win1_1.rect t)).set ↔ _
  rw [View.set_slice_whole, Rect.mem_set_unit]
  exact Iff.rfl

/-- The tiles cover the lattice: site `(r, s)` is in the block of the point whose tile is `(r / 256, s / 512)`. -/
theorem sites_cover1 (i : S2048x4096.Idx) :
    ∃ t : Fin cfg1.N, (cfg1.win 1).flush t = true ∧ i ∈ ((cfg1.win 1).blk t).view.set := by
  have hi0 : (i 0).val < 2048 := (i 0).isLt
  have hi1 : (i 1).val < 4096 := (i 1).isLt
  obtain ⟨t, q0, q1⟩ := idx_onto1 ⟨(i 0).val / 256, by omega⟩ ⟨(i 1).val / 512, by omega⟩
  have q0' : win1_1.index t (0 : Fin 2) = (i 0).val / 256 := q0
  have q1' : win1_1.index t (1 : Fin 2) = (i 1).val / 512 := q1
  obtain ⟨e0, e1, e2, e3, e4, e5, e6⟩ := idx_facts1 t
  refine ⟨t, flush1_1 t, ?_⟩
  rw [mem_blk1]
  intro a
  match a with
  | ⟨0, _⟩ =>
    show win1_1.index t (0 : Fin 2) * 256 ≤ (i 0).val ∧ (i 0).val < win1_1.index t (0 : Fin 2) * 256 + 256
    omega
  | ⟨1, _⟩ =>
    show win1_1.index t (1 : Fin 2) * 512 ≤ (i 1).val ∧ (i 1).val < win1_1.index t (1 : Fin 2) * 512 + 512
    omega

/-- A site is in point `t`'s block of output 2 iff each coordinate is in the block's range on its axis. -/
theorem mem_blk2 (t : Fin cfg1.N) (i : S2048x4096.Idx) :
    i ∈ ((cfg1.win 2).blk t).view.set ↔ ∀ a : Fin 2, win1_2.index t a * S256x512.size a ≤ (i a).val
      ∧ (i a).val < win1_2.index t a * S256x512.size a + S256x512.size a := by
  show i ∈ ((View.whole main_v43_1).slice (win1_2.rect t)).set ↔ _
  rw [View.set_slice_whole, Rect.mem_set_unit]
  exact Iff.rfl

/-- The tiles cover the lattice: site `(r, s)` is in the block of the point whose tile is `(r / 256, s / 512)`. -/
theorem sites_cover2 (i : S2048x4096.Idx) :
    ∃ t : Fin cfg1.N, (cfg1.win 2).flush t = true ∧ i ∈ ((cfg1.win 2).blk t).view.set := by
  have hi0 : (i 0).val < 2048 := (i 0).isLt
  have hi1 : (i 1).val < 4096 := (i 1).isLt
  obtain ⟨t, q0, q1⟩ := idx_onto1 ⟨(i 0).val / 256, by omega⟩ ⟨(i 1).val / 512, by omega⟩
  have q0' : win1_1.index t (0 : Fin 2) = (i 0).val / 256 := q0
  have q1' : win1_1.index t (1 : Fin 2) = (i 1).val / 512 := q1
  obtain ⟨e0, e1, e2, e3, e4, e5, e6⟩ := idx_facts1 t
  refine ⟨t, flush1_2 t, ?_⟩
  rw [mem_blk2]
  intro a
  match a with
  | ⟨0, _⟩ =>
    show win1_2.index t (0 : Fin 2) * 256 ≤ (i 0).val ∧ (i 0).val < win1_2.index t (0 : Fin 2) * 256 + 256
    omega
  | ⟨1, _⟩ =>
    show win1_2.index t (1 : Fin 2) * 512 ≤ (i 1).val ∧ (i 1).val < win1_2.index t (1 : Fin 2) * 512 + 512
    omega

/-- A site is in point `t`'s block of output 3 iff each coordinate is in the block's range on its axis. -/
theorem mem_blk3 (t : Fin cfg1.N) (i : S2048x4096.Idx) :
    i ∈ ((cfg1.win 3).blk t).view.set ↔ ∀ a : Fin 2, win1_3.index t a * S256x512.size a ≤ (i a).val
      ∧ (i a).val < win1_3.index t a * S256x512.size a + S256x512.size a := by
  show i ∈ ((View.whole main_v43_2).slice (win1_3.rect t)).set ↔ _
  rw [View.set_slice_whole, Rect.mem_set_unit]
  exact Iff.rfl

/-- The tiles cover the lattice: site `(r, s)` is in the block of the point whose tile is `(r / 256, s / 512)`. -/
theorem sites_cover3 (i : S2048x4096.Idx) :
    ∃ t : Fin cfg1.N, (cfg1.win 3).flush t = true ∧ i ∈ ((cfg1.win 3).blk t).view.set := by
  have hi0 : (i 0).val < 2048 := (i 0).isLt
  have hi1 : (i 1).val < 4096 := (i 1).isLt
  obtain ⟨t, q0, q1⟩ := idx_onto1 ⟨(i 0).val / 256, by omega⟩ ⟨(i 1).val / 512, by omega⟩
  have q0' : win1_1.index t (0 : Fin 2) = (i 0).val / 256 := q0
  have q1' : win1_1.index t (1 : Fin 2) = (i 1).val / 512 := q1
  obtain ⟨e0, e1, e2, e3, e4, e5, e6⟩ := idx_facts1 t
  refine ⟨t, flush1_3 t, ?_⟩
  rw [mem_blk3]
  intro a
  match a with
  | ⟨0, _⟩ =>
    show win1_3.index t (0 : Fin 2) * 256 ≤ (i 0).val ∧ (i 0).val < win1_3.index t (0 : Fin 2) * 256 + 256
    omega
  | ⟨1, _⟩ =>
    show win1_3.index t (1 : Fin 2) * 512 ≤ (i 1).val ∧ (i 1).val < win1_3.index t (1 : Fin 2) * 512 + 512
    omega

end Lift1

/-- After the last point the first output array is the density of the input array's nine channels. -/
theorem arr1_1 (c : Dev nD) :
    (dat1 (F := Ideal) V c).arrAt 1 cfg1.N = Cert.Lbm.dens (chan (V c main_v42)) :=
  (dat1 (F := Ideal) V c).arrAt_eq_of_cover 1 (Cert.Lbm.dens (chan (V c main_v42))) (fun t _ => Lift1.flushed1_eq V c t) Lift1.sites_cover1
/-- The second output array is the first velocity component: the sum weighted by the velocities' first components,
    divided by the density. -/
theorem arr1_2 (c : Dev nD) :
    (dat1 (F := Ideal) V c).arrAt 2 cfg1.N = Cert.Lbm.velx (chan (V c main_v42)) :=
  (dat1 (F := Ideal) V c).arrAt_eq_of_cover 2 (Cert.Lbm.velx (chan (V c main_v42))) (fun t _ => Lift1.flushed2_eq V c t) Lift1.sites_cover2
/-- The third output array is the second velocity component. -/
theorem arr1_3 (c : Dev nD) :
    (dat1 (F := Ideal) V c).arrAt 3 cfg1.N = Cert.Lbm.vely (chan (V c main_v42)) :=
  (dat1 (F := Ideal) V c).arrAt_eq_of_cover 3 (Cert.Lbm.vely (chan (V c main_v42))) (fun t _ => Lift1.flushed3_eq V c t) Lift1.sites_cover3

end Cert.KernelIdeal.Hand

end
-- ==== Proof.KValue.lean ====
/-
  The idealized program's results as functions of its arguments.  The run ends with every buffer at the fold of
  the launch memory through the program's items; read at the three results, that fold is: the relaxed populations
  (the collision region's array over the transposed populations and the sliced velocity components), each channel
  rearranged by its shift and stacked, transposed back - the specification's streamed populations; the lift
  region's first array over that stack - the density; and its other two arrays joined along a last axis - the
  velocity.
-/
import proofs.«419865_j42563125903664_3_alg».proof.Proof.Spec
import proofs.«419865_j42563125903664_3_alg».proof.Proof.KRun
import proofs.«419865_j42563125903664_3_alg».proof.Proof.KHost
import proofs.«419865_j42563125903664_3_alg».proof.Proof.KVal0
import proofs.«419865_j42563125903664_3_alg».proof.Proof.KVal1

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- Channel `q` of what the collision region leaves is the specification's relaxed channel of the arguments. -/
theorem star_eq (c : Dev nD) (q : Fin 9) :
    (fun s : Cert.Lbm.Site => outs m 2 main_v5 c (ix3 q (s 0) (s 1)))
      = Cert.Lbm.postCh (m ((c.tc : Thread nD τ).loc main_arg0)) (m ((c.tc : Thread nD τ).loc main_arg1))
          (m ((c.tc : Thread nD τ).loc main_arg2)) q := by
  funext s
  obtain ⟨a, b, rfl⟩ : ∃ (a : Fin 2048) (b : Fin 4096), s = ix2 a b := ⟨s 0, s 1, eq_ix2 s⟩
  show outs m 2 main_v5 c (ix3 q a b) = _
  rw [outs_2, arr0, V1_v0, V1_arg1, V1_v2, V1_v4]
  rfl

/-- The stacked array's channels are the specification's streamed channels. -/
theorem stack_eq (c : Dev nD) :
    chan (Gen.V21 m (outs m) c main_v42)
      = Cert.Lbm.streamed rollK (m ((c.tc : Thread nD τ).loc main_arg0)) (m ((c.tc : Thread nD τ).loc main_arg1))
          (m ((c.tc : Thread nD τ).loc main_arg2)) := by
  funext q s
  obtain ⟨a, b, rfl⟩ : ∃ (a : Fin 2048) (b : Fin 4096), s = ix2 a b := ⟨s 0, s 1, eq_ix2 s⟩
  show Gen.V21 m (outs m) c main_v42 (ix3 q a b) = _
  rw [V21_v42]
  show rollK q (fun s' => outs m 2 main_v5 c (ix3 q (s' 0) (s' 1))) (ix2 a b) = _
  rw [star_eq]
  rfl

theorem v44_eq (c : Dev nD) :
    Gen.V23 m (outs m) c main_v44
      = Cert.Lbm.outF rollK (m ((c.tc : Thread nD τ).loc main_arg0)) (m ((c.tc : Thread nD τ).loc main_arg1))
          (m ((c.tc : Thread nD τ).loc main_arg2)) := by
  rw [V23_v44]
  funext j
  obtain ⟨a, b, q, rfl⟩ : ∃ (a : Fin 2048) (b : Fin 4096) (q : Fin 9), j = ix3 a b q := ⟨j 0, j 1, j 2, eq_ix3 j⟩
  exact congrFun (congrFun (stack_eq m c) q) (ix2 a b)

theorem v43_0_eq (c : Dev nD) :
    Gen.V23 m (outs m) c main_v43_0
      = Cert.Lbm.outRho rollK (m ((c.tc : Thread nD τ).loc main_arg0)) (m ((c.tc : Thread nD τ).loc main_arg1))
          (m ((c.tc : Thread nD τ).loc main_arg2)) := by
  rw [V23_v43_0, outs_22_0, arr1_1, stack_eq]
  rfl

theorem v47_eq (c : Dev nD) :
    Gen.V23 m (outs m) c main_v47
      = Cert.Lbm.outU rollK (m ((c.tc : Thread nD τ).loc main_arg0)) (m ((c.tc : Thread nD τ).loc main_arg1))
          (m ((c.tc : Thread nD τ).loc main_arg2)) := by
  rw [V23_v47, outs_22_1, outs_22_2, arr1_2, arr1_3, stack_eq]
  rfl

/-- Every weakly fair execution of the idealized program terminates with its three results at the specification's
    functions of the arguments, and the arguments as launched. -/
theorem kernel_values :
    θ_run (defs (F := Ideal)) (onTc (τ := τ) (main (F := Ideal))) ⟨m, fun _ => 0, ρ⟩ (fun r => ∀ c : Dev nD,
      r.2.mem ((c.tc : Thread nD τ).loc main_v44)
          = Cert.Lbm.outF rollK (m ((c.tc : Thread nD τ).loc main_arg0)) (m ((c.tc : Thread nD τ).loc main_arg1)) (m ((c.tc : Thread nD τ).loc main_arg2))
      ∧ r.2.mem ((c.tc : Thread nD τ).loc main_v43_0)
          = Cert.Lbm.outRho rollK (m ((c.tc : Thread nD τ).loc main_arg0)) (m ((c.tc : Thread nD τ).loc main_arg1)) (m ((c.tc : Thread nD τ).loc main_arg2))
      ∧ r.2.mem ((c.tc : Thread nD τ).loc main_v47)
          = Cert.Lbm.outU rollK (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun r h c =>
    ⟨(h c main_v44 (by decide)).trans (v44_eq m c),
     (h c main_v43_0 (by decide)).trans (v43_0_eq m c),
     (h c main_v47 (by decide)).trans (v47_eq m c),
     (h c main_arg0 (by decide)).trans (Gen.V23_main_arg0 m (outs m) c),
     (h c main_arg1 (by decide)).trans (Gen.V23_main_arg1 m (outs m) c),
     (h c main_arg2 (by decide)).trans (Gen.V23_main_arg2 m (outs m) c)⟩)
    (run_all (F := Ideal) m ρ)

end Cert.KernelIdeal.Hand

end
-- ==== Proof.RStar.lean ====
/-
  The reference's collision: its first stretch of host operations - the velocity's products with the nine lattice
  directions as one contraction against the 9 x 2 direction table, the squared speed as a sum over the two
  components, the equilibrium from the broadcast weights, density and these, and the relaxation as a quotient by
  the relaxation time - as ONE function `refStar` of the three argument arrays, and that function read at a site and
  a channel: it is `Lbm.post`.  The quotient by the relaxation time's f32 value is the product with its reciprocal
  on every extended real; the table's entries and the weights are the same words the specification carries.
-/
import proofs.«419865_j42563125903664_3_alg».proof.Proof.Spec
import proofs.«419865_j42563125903664_3_alg».proof.Proof.Gen.ReferenceIdeal

import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws
import Idealize.ShloMosaic.Lib.IdealHost

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx Idealize.SL.Sem Idealize.ShloMosaic.StableHlo

variable {F : FTy → Type} [FloatOps F]

/-- The relaxed populations (the program's value %25) as the composition of @main's operations from the first
    constant down to the second subtraction, over the argument arrays. -/
def refStar (f : (⟨S2048x4096x9, .f32⟩ : BufTy).Contents (Elt F)) (rho : (⟨S2048x4096, .f32⟩ : BufTy).Contents (Elt F)) (u : (⟨S2048x4096x2, .f32⟩ : BufTy).Contents (Elt F)) : (⟨S2048x4096x9, .f32⟩ : BufTy).Contents (Elt F) :=
  -- the 9 x 2 direction table and the nine weights
  let cst : (⟨S9x2, .f32⟩ : BufTy).Contents (Elt F) := fun i => FloatOps.ofBits .f32 (lit0 (S9x2.rowMajor i))
  let cst_0 : (⟨S9, .f32⟩ : BufTy).Contents (Elt F) := fun i => FloatOps.ofBits .f32 (lit1 (S9.rowMajor i))
  -- the velocity against every direction; the squared speed
  let v0 : (⟨S2048x4096x9, .f32⟩ : BufTy).Contents (Elt F) := Host.dotGeneral dot_S2048x4096x2_S9x2_S2048x4096x9_2_1_01_0_n_n none u cst
  let v1 : (⟨S2048x4096x2, .f32⟩ : BufTy).Contents (Elt F) := mulf u u
  let cst_2 : (⟨S_, .f32⟩ : BufTy).Contents (Elt F) := constant S_ .f32 0x00000000#32
  let v2 : (⟨S2048x4096, .f32⟩ : BufTy).Contents (Elt F) := Host.reduceAdd v1 cst_2 reducesTo_S2048x4096x2_S2048x4096_d2 h_S_
  let v3 : (⟨S2048x4096x1, .f32⟩ : BufTy).Contents (Elt F) := broadcastInDim S2048x4096x1 ![0, 1] bcast_S2048x4096_S2048x4096x1_0_1 v2
  -- weight times density, per site and channel
  let v4 : (⟨S2048x4096x1, .f32⟩ : BufTy).Contents (Elt F) := broadcastInDim S2048x4096x1 ![0, 1] bcast_S2048x4096_S2048x4096x1_0_1 rho
  let v5 : (⟨S1x1x9, .f32⟩ : BufTy).Contents (Elt F) := broadcastInDim S1x1x9 ![2] bcast_S9_S1x1x9_2 cst_0
  let v6 : (⟨S2048x4096x9, .f32⟩ : BufTy).Contents (Elt F) := broadcastInDim S2048x4096x9 ![0, 1, 2] bcast_S1x1x9_S2048x4096x9_0_1_2 v5
  let v7 : (⟨S2048x4096x9, .f32⟩ : BufTy).Contents (Elt F) := broadcastInDim S2048x4096x9 ![0, 1, 2] bcast_S2048x4096x1_S2048x4096x9_0_1_2 v4
  let v8 : (⟨S2048x4096x9, .f32⟩ : BufTy).Contents (Elt F) := mulf v6 v7
  -- the equilibrium's polynomial in the directional velocity and the squared speed
  let cst_3 : (⟨S_, .f32⟩ : BufTy).Contents (Elt F) := constant S_ .f32 0x40400000#32
  let v9 : (⟨S2048x4096x9, .f32⟩ : BufTy).Contents (Elt F) := broadcastInDim S2048x4096x9 ![] bcast_S_S2048x4096x9 cst_3
  let v10 : (⟨S2048x4096x9, .f32⟩ : BufTy).Contents (Elt F) := mulf v9 v0
  let cst_4 : (⟨S_, .f32⟩ : BufTy).Contents (Elt F) := constant S_ .f32 0x3F800000#32
  let v11 : (⟨S2048x4096x9, .f32⟩ : BufTy).Contents (Elt F) := broadcastInDim S2048x4096x9 ![] bcast_S_S2048x4096x9 cst_4
  let v12 : (⟨S2048x4096x9, .f32⟩ : BufTy).Contents (Elt F) := addf v11 v10
  let cst_5 : (⟨S_, .f32⟩ : BufTy).Contents (Elt F) := constant S_ .f32 0x40900000#32
  let v13 : (⟨S2048x4096x9, .f32⟩ : BufTy).Contents (Elt F) := broadcastInDim S2048x4096x9 ![] bcast_S_S2048x4096x9 cst_5
  let v14 : (⟨S2048x4096x9, .f32⟩ : BufTy).Contents (Elt F) := mulf v13 v0
  let v15 : (⟨S2048x4096x9, .f32⟩ : BufTy).Contents (Elt F) := mulf v14 v0
  let v16 : (⟨S2048x4096x9, .f32⟩ : BufTy).Contents (Elt F) := addf v12 v15
  let cst_6 : (⟨S_, .f32⟩ : BufTy).Contents (Elt F) := constant S_ .f32 0x3FC00000#32
  let v17 : (⟨S2048x4096x1, .f32⟩ : BufTy).Contents (Elt F) := broadcastInDim S2048x4096x1 ![] bcast_S_S2048x4096x1 cst_6
  let v18 : (⟨S2048x4096x1, .f32⟩ : BufTy).Contents (Elt F) := mulf v17 v3
  let v19 : (⟨S2048x4096x9, .f32⟩ : BufTy).Contents (Elt F) := broadcastInDim S2048x4096x9 ![0, 1, 2] bcast_S2048x4096x1_S2048x4096x9_0_1_2 v18
  let v20 : (⟨S2048x4096x9, .f32⟩ : BufTy).Contents (Elt F) := subf v16 v19
  let v21 : (⟨S2048x4096x9, .f32⟩ : BufTy).Contents (Elt F) := mulf v8 v20
  -- the relaxation: the distance from equilibrium over the relaxation time, taken off the population
  let v22 : (⟨S2048x4096x9, .f32⟩ : BufTy).Contents (Elt F) := subf f v21
  let cst_7 : (⟨S_, .f32⟩ : BufTy).Contents (Elt F) := constant S_ .f32 0x3F19999A#32
  let v23 : (⟨S2048x4096x9, .f32⟩ : BufTy).Contents (Elt F) := broadcastInDim S2048x4096x9 ![] bcast_S_S2048x4096x9 cst_7
  let v24 : (⟨S2048x4096x9, .f32⟩ : BufTy).Contents (Elt F) := Host.divf v22 v23
  subf f v24

namespace Star

/-! ## The operations that are not pointwise, read at a site and a channel -/

section AtIdeal

/-- The relaxation time's word denotes the real 5033165 / 8388608 (the f32 nearest to 0.6). -/
theorem tau_val : Ideal.ofBits .f32 0x3F19999A#32 = ((5033165 / 8388608 : ℝ) : EReal) := by
  simp [Ideal.ofBits, Ideal.ieee, -EReal.coe_mul]; norm_num

/-- A quotient by the relaxation time is the product with the relaxation rate, on every extended real. -/
theorem div_tau (a : EReal) : Ideal.div a (Ideal.ofBits .f32 0x3F19999A#32) = a * Cert.Lbm.rate := by
  rw [tau_val, Ideal.div_coe (by norm_num)]
  unfold Cert.Lbm.rate
  norm_num

/-- On the velocity's site axes the contraction reads the result's site … -/
theorem cu_lhs_row (i : S2048x4096x9.Idx) (k : dot_S2048x4096x2_S9x2_S2048x4096x9_2_1_01_0_n_n.contr.Idx) :
    (dot_S2048x4096x2_S9x2_S2048x4096x9_2_1_01_0_n_n.lhsIdx i k 0).val = (i 0).val := by
  unfold DotDims.lhsIdx
  rw [dif_neg (show ¬(0 : Fin S2048x4096x2.rank) ∈ dot_S2048x4096x2_S9x2_S2048x4096x9_2_1_01_0_n_n.lhsBatch by decide),
    dif_pos (show (0 : Fin S2048x4096x2.rank) ∈ dot_S2048x4096x2_S9x2_S2048x4096x9_2_1_01_0_n_n.lhsNonContracting by decide)]
  rfl
theorem cu_lhs_col (i : S2048x4096x9.Idx) (k : dot_S2048x4096x2_S9x2_S2048x4096x9_2_1_01_0_n_n.contr.Idx) :
    (dot_S2048x4096x2_S9x2_S2048x4096x9_2_1_01_0_n_n.lhsIdx i k 1).val = (i 1).val := by
  unfold DotDims.lhsIdx
  rw [dif_neg (show ¬(1 : Fin S2048x4096x2.rank) ∈ dot_S2048x4096x2_S9x2_S2048x4096x9_2_1_01_0_n_n.lhsBatch by decide),
    dif_pos (show (1 : Fin S2048x4096x2.rank) ∈ dot_S2048x4096x2_S9x2_S2048x4096x9_2_1_01_0_n_n.lhsNonContracting by decide)]
  rfl
/-- … and on its component axis the contracted coordinate. -/
theorem cu_lhs_comp (i : S2048x4096x9.Idx) (k : dot_S2048x4096x2_S9x2_S2048x4096x9_2_1_01_0_n_n.contr.Idx) :
    (dot_S2048x4096x2_S9x2_S2048x4096x9_2_1_01_0_n_n.lhsIdx i k 2).val = (k ⟨0, by decide⟩).val :=
  dot_S2048x4096x2_S9x2_S2048x4096x9_2_1_01_0_n_n.lhsIdx_val_of_single rfl i k
/-- On the table's direction axis the contraction reads the result's channel, on its component axis the contracted
    coordinate. -/
theorem cu_rhs_dir (i : S2048x4096x9.Idx) (k : dot_S2048x4096x2_S9x2_S2048x4096x9_2_1_01_0_n_n.contr.Idx) :
    (dot_S2048x4096x2_S9x2_S2048x4096x9_2_1_01_0_n_n.rhsIdx i k 0).val = (i 2).val := by
  unfold DotDims.rhsIdx
  rw [dif_neg (show ¬(0 : Fin S9x2.rank) ∈ dot_S2048x4096x2_S9x2_S2048x4096x9_2_1_01_0_n_n.rhsBatch by decide),
    dif_pos (show (0 : Fin S9x2.rank) ∈ dot_S2048x4096x2_S9x2_S2048x4096x9_2_1_01_0_n_n.rhsNonContracting by decide)]
  rfl
theorem cu_rhs_comp (i : S2048x4096x9.Idx) (k : dot_S2048x4096x2_S9x2_S2048x4096x9_2_1_01_0_n_n.contr.Idx) :
    (dot_S2048x4096x2_S9x2_S2048x4096x9_2_1_01_0_n_n.rhsIdx i k 1).val = (k ⟨0, by decide⟩).val :=
  dot_S2048x4096x2_S9x2_S2048x4096x9_2_1_01_0_n_n.rhsIdx_val_of_single rfl i k

/-- The contraction of the velocity against a 9 x 2 table at a site and a channel: the two components' products with
    the channel's row of the table, summed. -/
theorem cu_apply (u : FVec Ideal S2048x4096x2 .f32) (t : FVec Ideal S9x2 .f32) (y : Fin 2048) (x : Fin 4096) (q : Fin 9) :
    Host.dotGeneral (F := Ideal) dot_S2048x4096x2_S9x2_S2048x4096x9_2_1_01_0_n_n none u t (ix3 y x q)
      = u (ix3 y x 0) * t (ix2 q 0) + u (ix3 y x 1) * t (ix2 q 1) := by
  simp only [Host.dotGeneral]
  rw [Ideal.dotGeneral_apply, ← Equiv.sum_comp (contrEquiv1 dot_S2048x4096x2_S9x2_S2048x4096x9_2_1_01_0_n_n 2 rfl rfl).symm, Fin.sum_univ_two]
  have h0 := contrEquiv1_symm_val dot_S2048x4096x2_S9x2_S2048x4096x9_2_1_01_0_n_n 2 rfl rfl 0
  have h1 := contrEquiv1_symm_val dot_S2048x4096x2_S9x2_S2048x4096x9_2_1_01_0_n_n 2 rfl rfl 1
  have el0 : dot_S2048x4096x2_S9x2_S2048x4096x9_2_1_01_0_n_n.lhsIdx (ix3 y x q) ((contrEquiv1 dot_S2048x4096x2_S9x2_S2048x4096x9_2_1_01_0_n_n 2 rfl rfl).symm 0) = ix3 y x 0 :=
    funext fun a => Fin.ext (by
      match a with
      | ⟨0, _⟩ => exact cu_lhs_row _ _
      | ⟨1, _⟩ => exact cu_lhs_col _ _
      | ⟨2, _⟩ => exact (cu_lhs_comp _ _).trans h0)
  have el1 : dot_S2048x4096x2_S9x2_S2048x4096x9_2_1_01_0_n_n.lhsIdx (ix3 y x q) ((contrEquiv1 dot_S2048x4096x2_S9x2_S2048x4096x9_2_1_01_0_n_n 2 rfl rfl).symm 1) = ix3 y x 1 :=
    funext fun a => Fin.ext (by
      match a with
      | ⟨0, _⟩ => exact cu_lhs_row _ _
      | ⟨1, _⟩ => exact cu_lhs_col _ _
      | ⟨2, _⟩ => exact (cu_lhs_comp _ _).trans h1)
  have er0 : dot_S2048x4096x2_S9x2_S2048x4096x9_2_1_01_0_n_n.rhsIdx (ix3 y x q) ((contrEquiv1 dot_S2048x4096x2_S9x2_S2048x4096x9_2_1_01_0_n_n 2 rfl rfl).symm 0) = ix2 q 0 :=
    funext fun a => Fin.ext (by
      match a with
      | ⟨0, _⟩ => exact cu_rhs_dir _ _
      | ⟨1, _⟩ => exact (cu_rhs_comp _ _).trans h0)
  have er1 : dot_S2048x4096x2_S9x2_S2048x4096x9_2_1_01_0_n_n.rhsIdx (ix3 y x q) ((contrEquiv1 dot_S2048x4096x2_S9x2_S2048x4096x9_2_1_01_0_n_n 2 rfl rfl).symm 1) = ix2 q 1 :=
    funext fun a => Fin.ext (by
      match a with
      | ⟨0, _⟩ => exact cu_rhs_dir _ _
      | ⟨1, _⟩ => exact (cu_rhs_comp _ _).trans h1)
  rw [el0, el1, er0, er1]

/-- The sum over the component axis from the zero word: the two components' entries, summed. -/
theorem usq_apply (v : FVec Ideal S2048x4096x2 .f32) (y : Fin 2048) (x : Fin 4096) :
    Host.reduceAdd (F := Ideal) v (constant (F := Ideal) S_ .f32 0x00000000#32) reducesTo_S2048x4096x2_S2048x4096_d2 h_S_ (ix2 y x)
      = v (ix3 y x 0) + v (ix3 y x 1) := by
  show Ideal.hostReduceAdd reducesTo_S2048x4096x2_S2048x4096_d2 v (Ideal.ofBits .f32 0x00000000#32) (ix2 y x) = _
  have key : Ideal.hostReduceAdd reducesTo_S2048x4096x2_S2048x4096_d2 v (Ideal.ofBits .f32 0x00000000#32) (ix2 y x)
      = Ideal.ofBits .f32 0x00000000#32 + ∑ k : Fin 2, v (ix3 y x k) := by
    rw [Ideal.hostReduceAdd_single reducesTo_S2048x4096x2_S2048x4096_d2 (by decide)]
    refine congrArg (_ + ·) (Finset.sum_congr rfl fun k _ => ?_)
    exact congrArg v (funext fun a => Fin.ext (by match a with | ⟨0, _⟩ => rfl | ⟨1, _⟩ => rfl | ⟨2, _⟩ => rfl))
  rw [key, Ideal.ofBits_zero_f32, zero_add, Fin.sum_univ_two]

/-! The broadcasts, one per pair of shapes: each reads its operand at the coordinates the result shares with it. -/

variable {α : Type}

/-- A field as a column of width one. -/
theorem bc_field_col (v : S2048x4096.Idx → α) (y : Fin 2048) (x : Fin 4096) (z : Fin 1) :
    broadcastInDim S2048x4096x1 ![0, 1] bcast_S2048x4096_S2048x4096x1_0_1 v (ix3 y x z) = v (ix2 y x) := by
  unfold broadcastInDim
  exact congrArg v (funext fun a => Fin.ext (by match a with | ⟨0, _⟩ => rfl | ⟨1, _⟩ => rfl))
/-- The nine weights as a 1 x 1 x 9 array. -/
theorem bc_chan_unit (w : S9.Idx → α) (a b : Fin 1) (q : Fin 9) :
    broadcastInDim S1x1x9 ![2] bcast_S9_S1x1x9_2 w (ix3 a b q) = w (ix1 q) := by
  unfold broadcastInDim
  exact congrArg w (funext fun a => Fin.ext (by match a with | ⟨0, _⟩ => rfl))
/-- A 1 x 1 x 9 array over the lattice: the channel's entry at every site. -/
theorem bc_unit_full (w : S1x1x9.Idx → α) (y : Fin 2048) (x : Fin 4096) (q : Fin 9) :
    broadcastInDim S2048x4096x9 ![0, 1, 2] bcast_S1x1x9_S2048x4096x9_0_1_2 w (ix3 y x q) = w (ix3 0 0 q) := by
  unfold broadcastInDim
  exact congrArg w (funext fun a => Fin.ext (by match a with | ⟨0, _⟩ => rfl | ⟨1, _⟩ => rfl | ⟨2, _⟩ => rfl))
/-- A column of width one over the nine channels: the site's entry in every channel. -/
theorem bc_col_full (w : S2048x4096x1.Idx → α) (y : Fin 2048) (x : Fin 4096) (q : Fin 9) :
    broadcastInDim S2048x4096x9 ![0, 1, 2] bcast_S2048x4096x1_S2048x4096x9_0_1_2 w (ix3 y x q) = w (ix3 y x 0) := by
  unfold broadcastInDim
  exact congrArg w (funext fun a => Fin.ext (by match a with | ⟨0, _⟩ => rfl | ⟨1, _⟩ => rfl | ⟨2, _⟩ => rfl))
/-- A scalar over the lattice's channels, and over a column. -/
theorem bc_scalar_full (c : S_.Idx → α) (j : S2048x4096x9.Idx) :
    broadcastInDim S2048x4096x9 ![] bcast_S_S2048x4096x9 c j = c ix0 := by
  unfold broadcastInDim; exact congrArg c (funext fun a => a.elim0)
theorem bc_scalar_col (c : S_.Idx → α) (j : S2048x4096x1.Idx) :
    broadcastInDim S2048x4096x1 ![] bcast_S_S2048x4096x1 c j = c ix0 := by
  unfold broadcastInDim; exact congrArg c (funext fun a => a.elim0)

/-! The two literal tables' entries are the specification's words. -/

theorem table_cx (q : Fin 9) : FloatOps.ofBits (F := Ideal) .f32 (lit0 (S9x2.rowMajor (ix2 q 0))) = Cert.Lbm.cx q := by
  fin_cases q <;> rfl
theorem table_cy (q : Fin 9) : FloatOps.ofBits (F := Ideal) .f32 (lit0 (S9x2.rowMajor (ix2 q 1))) = Cert.Lbm.cy q := by
  fin_cases q <;> rfl
theorem table_wgt (q : Fin 9) : FloatOps.ofBits (F := Ideal) .f32 (lit1 (S9.rowMajor (ix1 q))) = Cert.Lbm.wgt q := by
  fin_cases q <;> rfl

end AtIdeal

end Star

open Star

/-- At a site and a channel the relaxed population is the specification's. -/
theorem refStar_apply (f : (⟨S2048x4096x9, .f32⟩ : BufTy).Contents (Elt Ideal)) (rho : (⟨S2048x4096, .f32⟩ : BufTy).Contents (Elt Ideal)) (u : (⟨S2048x4096x2, .f32⟩ : BufTy).Contents (Elt Ideal)) (y : Fin 2048) (x : Fin 4096) (q : Fin 9) :
    refStar (F := Ideal) f rho u (ix3 y x q)
      = Cert.Lbm.post q (rho (ix2 y x)) (u (ix3 y x 0)) (u (ix3 y x 1)) (f (ix3 y x q)) := by
  -- the index through the pointwise operations and the contraction
  unfold refStar
  simp only [subf_apply, addf_apply, mulf_apply, hostDivf_apply, cu_apply]
  -- the weights, the density and the squared speed through their broadcasts
  rw [bc_unit_full, bc_chan_unit, bc_col_full, bc_col_full]
  simp only [mulf_apply]
  rw [bc_field_col, bc_field_col, bc_scalar_col, usq_apply]
  -- the four scalar constants
  rw [bc_scalar_full, bc_scalar_full, bc_scalar_full, bc_scalar_full]
  simp only [mulf_apply, constant_apply]
  -- the table's row and the weight are the specification's words; the quotient is the product with the rate
  rw [table_wgt, table_cx, table_cy, div_tau]
  unfold Cert.Lbm.post Cert.Lbm.feq
  -- the program multiplies the velocity by the direction, the specification the direction by the velocity
  rw [mul_comm (u (ix3 y x 0)) (Cert.Lbm.cx q), mul_comm (u (ix3 y x 1)) (Cert.Lbm.cy q)]

end Cert.ReferenceIdeal.Hand

end
-- ==== Proof.RLiftDef.lean ====
/-
  The reference's streaming and lift as functions of the relaxed array: the rearrangement `rollR q` of the lattice
  the program applies to channel `q` (two slice-and-concatenate pairs), the streamed populations `refF` (each
  channel sliced out, rearranged, and the nine joined along the last axis), the density `refRho` (their sum over the
  last axis) and the velocity `refU` (their contraction with the direction table over the broadcast density).
-/
import proofs.«419865_j42563125903664_3_alg».proof.Proof.Spec
import proofs.«419865_j42563125903664_3_alg».proof.Proof.Gen.ReferenceIdeal

import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx Idealize.SL.Sem Idealize.ShloMosaic.StableHlo

variable {F : FTy → Type} [FloatOps F]

/-- The rearrangement of the lattice the program applies to channel `q`: for each of the nine channels the
    composition of that channel's two slice-and-concatenate pairs (rows, then columns), as the program prints it:
    two row bands of the operand joined along the rows, then two column bands of that joined along the columns.
    The bands are the whole lattice and an empty one (no shift), the last row (column) before the others (a shift
    towards larger indices), or the first row (column) after the others (a shift towards smaller indices). -/
def rollR : Fin 9 → (⟨S2048x4096, .f32⟩ : BufTy).Contents (Elt F) → (⟨S2048x4096, .f32⟩ : BufTy).Contents (Elt F)
  | 0 => fun a =>
    concatenate S2048x4096 1 [⟨S2048x4096, extractStridedSlice S2048x4096 ![0, 0]
      (concatenate S2048x4096 0 [⟨S2048x4096, extractStridedSlice S2048x4096 ![0, 0] a slices_S2048x4096_S2048x4096_0_0⟩, ⟨S0x4096, extractStridedSlice S0x4096 ![0, 0] a slices_S2048x4096_S0x4096_0_0⟩] concatenates_S2048x4096_S0x4096_S2048x4096_d0) slices_S2048x4096_S2048x4096_0_0⟩, ⟨S2048x0, extractStridedSlice S2048x0 ![0, 0]
      (concatenate S2048x4096 0 [⟨S2048x4096, extractStridedSlice S2048x4096 ![0, 0] a slices_S2048x4096_S2048x4096_0_0⟩, ⟨S0x4096, extractStridedSlice S0x4096 ![0, 0] a slices_S2048x4096_S0x4096_0_0⟩] concatenates_S2048x4096_S0x4096_S2048x4096_d0) slices_S2048x4096_S2048x0_0_0⟩] concatenates_S2048x4096_S2048x0_S2048x4096_d1
  | 1 => fun a =>
    concatenate S2048x4096 1 [⟨S2048x1, extractStridedSlice S2048x1 ![0, 4095]
      (concatenate S2048x4096 0 [⟨S2048x4096, extractStridedSlice S2048x4096 ![0, 0] a slices_S2048x4096_S2048x4096_0_0⟩, ⟨S0x4096, extractStridedSlice S0x4096 ![0, 0] a slices_S2048x4096_S0x4096_0_0⟩] concatenates_S2048x4096_S0x4096_S2048x4096_d0) slices_S2048x4096_S2048x1_0_4095⟩, ⟨S2048x4095, extractStridedSlice S2048x4095 ![0, 0]
      (concatenate S2048x4096 0 [⟨S2048x4096, extractStridedSlice S2048x4096 ![0, 0] a slices_S2048x4096_S2048x4096_0_0⟩, ⟨S0x4096, extractStridedSlice S0x4096 ![0, 0] a slices_S2048x4096_S0x4096_0_0⟩] concatenates_S2048x4096_S0x4096_S2048x4096_d0) slices_S2048x4096_S2048x4095_0_0⟩] concatenates_S2048x1_S2048x4095_S2048x4096_d1
  | 2 => fun a =>
    concatenate S2048x4096 1 [⟨S2048x4096, extractStridedSlice S2048x4096 ![0, 0]
      (concatenate S2048x4096 0 [⟨S1x4096, extractStridedSlice S1x4096 ![2047, 0] a slices_S2048x4096_S1x4096_2047_0⟩, ⟨S2047x4096, extractStridedSlice S2047x4096 ![0, 0] a slices_S2048x4096_S2047x4096_0_0⟩] concatenates_S1x4096_S2047x4096_S2048x4096_d0) slices_S2048x4096_S2048x4096_0_0⟩, ⟨S2048x0, extractStridedSlice S2048x0 ![0, 0]
      (concatenate S2048x4096 0 [⟨S1x4096, extractStridedSlice S1x4096 ![2047, 0] a slices_S2048x4096_S1x4096_2047_0⟩, ⟨S2047x4096, extractStridedSlice S2047x4096 ![0, 0] a slices_S2048x4096_S2047x4096_0_0⟩] concatenates_S1x4096_S2047x4096_S2048x4096_d0) slices_S2048x4096_S2048x0_0_0⟩] concatenates_S2048x4096_S2048x0_S2048x4096_d1
  | 3 => fun a =>
    concatenate S2048x4096 1 [⟨S2048x4095, extractStridedSlice S2048x4095 ![0, 1]
      (concatenate S2048x4096 0 [⟨S2048x4096, extractStridedSlice S2048x4096 ![0, 0] a slices_S2048x4096_S2048x4096_0_0⟩, ⟨S0x4096, extractStridedSlice S0x4096 ![0, 0] a slices_S2048x4096_S0x4096_0_0⟩] concatenates_S2048x4096_S0x4096_S2048x4096_d0) slices_S2048x4096_S2048x4095_0_1⟩, ⟨S2048x1, extractStridedSlice S2048x1 ![0, 0]
      (concatenate S2048x4096 0 [⟨S2048x4096, extractStridedSlice S2048x4096 ![0, 0] a slices_S2048x4096_S2048x4096_0_0⟩, ⟨S0x4096, extractStridedSlice S0x4096 ![0, 0] a slices_S2048x4096_S0x4096_0_0⟩] concatenates_S2048x4096_S0x4096_S2048x4096_d0) slices_S2048x4096_S2048x1_0_0⟩] concatenates_S2048x4095_S2048x1_S2048x4096_d1
  | 4 => fun a =>
    concatenate S2048x4096 1 [⟨S2048x4096, extractStridedSlice S2048x4096 ![0, 0]
      (concatenate S2048x4096 0 [⟨S2047x4096, extractStridedSlice S2047x4096 ![1, 0] a slices_S2048x4096_S2047x4096_1_0⟩, ⟨S1x4096, extractStridedSlice S1x4096 ![0, 0] a slices_S2048x4096_S1x4096_0_0⟩] concatenates_S2047x4096_S1x4096_S2048x4096_d0) slices_S2048x4096_S2048x4096_0_0⟩, ⟨S2048x0, extractStridedSlice S2048x0 ![0, 0]
      (concatenate S2048x4096 0 [⟨S2047x4096, extractStridedSlice S2047x4096 ![1, 0] a slices_S2048x4096_S2047x4096_1_0⟩, ⟨S1x4096, extractStridedSlice S1x4096 ![0, 0] a slices_S2048x4096_S1x4096_0_0⟩] concatenates_S2047x4096_S1x4096_S2048x4096_d0) slices_S2048x4096_S2048x0_0_0⟩] concatenates_S2048x4096_S2048x0_S2048x4096_d1
  | 5 => fun a =>
    concatenate S2048x4096 1 [⟨S2048x1, extractStridedSlice S2048x1 ![0, 4095]
      (concatenate S2048x4096 0 [⟨S1x4096, extractStridedSlice S1x4096 ![2047, 0] a slices_S2048x4096_S1x4096_2047_0⟩, ⟨S2047x4096, extractStridedSlice S2047x4096 ![0, 0] a slices_S2048x4096_S2047x4096_0_0⟩] concatenates_S1x4096_S2047x4096_S2048x4096_d0) slices_S2048x4096_S2048x1_0_4095⟩, ⟨S2048x4095, extractStridedSlice S2048x4095 ![0, 0]
      (concatenate S2048x4096 0 [⟨S1x4096, extractStridedSlice S1x4096 ![2047, 0] a slices_S2048x4096_S1x4096_2047_0⟩, ⟨S2047x4096, extractStridedSlice S2047x4096 ![0, 0] a slices_S2048x4096_S2047x4096_0_0⟩] concatenates_S1x4096_S2047x4096_S2048x4096_d0) slices_S2048x4096_S2048x4095_0_0⟩] concatenates_S2048x1_S2048x4095_S2048x4096_d1
  | 6 => fun a =>
    concatenate S2048x4096 1 [⟨S2048x4095, extractStridedSlice S2048x4095 ![0, 1]
      (concatenate S2048x4096 0 [⟨S1x4096, extractStridedSlice S1x4096 ![2047, 0] a slices_S2048x4096_S1x4096_2047_0⟩, ⟨S2047x4096, extractStridedSlice S2047x4096 ![0, 0] a slices_S2048x4096_S2047x4096_0_0⟩] concatenates_S1x4096_S2047x4096_S2048x4096_d0) slices_S2048x4096_S2048x4095_0_1⟩, ⟨S2048x1, extractStridedSlice S2048x1 ![0, 0]
      (concatenate S2048x4096 0 [⟨S1x4096, extractStridedSlice S1x4096 ![2047, 0] a slices_S2048x4096_S1x4096_2047_0⟩, ⟨S2047x4096, extractStridedSlice S2047x4096 ![0, 0] a slices_S2048x4096_S2047x4096_0_0⟩] concatenates_S1x4096_S2047x4096_S2048x4096_d0) slices_S2048x4096_S2048x1_0_0⟩] concatenates_S2048x4095_S2048x1_S2048x4096_d1
  | 7 => fun a =>
    concatenate S2048x4096 1 [⟨S2048x4095, extractStridedSlice S2048x4095 ![0, 1]
      (concatenate S2048x4096 0 [⟨S2047x4096, extractStridedSlice S2047x4096 ![1, 0] a slices_S2048x4096_S2047x4096_1_0⟩, ⟨S1x4096, extractStridedSlice S1x4096 ![0, 0] a slices_S2048x4096_S1x4096_0_0⟩] concatenates_S2047x4096_S1x4096_S2048x4096_d0) slices_S2048x4096_S2048x4095_0_1⟩, ⟨S2048x1, extractStridedSlice S2048x1 ![0, 0]
      (concatenate S2048x4096 0 [⟨S2047x4096, extractStridedSlice S2047x4096 ![1, 0] a slices_S2048x4096_S2047x4096_1_0⟩, ⟨S1x4096, extractStridedSlice S1x4096 ![0, 0] a slices_S2048x4096_S1x4096_0_0⟩] concatenates_S2047x4096_S1x4096_S2048x4096_d0) slices_S2048x4096_S2048x1_0_0⟩] concatenates_S2048x4095_S2048x1_S2048x4096_d1
  | 8 => fun a =>
    concatenate S2048x4096 1 [⟨S2048x1, extractStridedSlice S2048x1 ![0, 4095]
      (concatenate S2048x4096 0 [⟨S2047x4096, extractStridedSlice S2047x4096 ![1, 0] a slices_S2048x4096_S2047x4096_1_0⟩, ⟨S1x4096, extractStridedSlice S1x4096 ![0, 0] a slices_S2048x4096_S1x4096_0_0⟩] concatenates_S2047x4096_S1x4096_S2048x4096_d0) slices_S2048x4096_S2048x1_0_4095⟩, ⟨S2048x4095, extractStridedSlice S2048x4095 ![0, 0]
      (concatenate S2048x4096 0 [⟨S2047x4096, extractStridedSlice S2047x4096 ![1, 0] a slices_S2048x4096_S2047x4096_1_0⟩, ⟨S1x4096, extractStridedSlice S1x4096 ![0, 0] a slices_S2048x4096_S1x4096_0_0⟩] concatenates_S2047x4096_S1x4096_S2048x4096_d0) slices_S2048x4096_S2048x4095_0_0⟩] concatenates_S2048x1_S2048x4095_S2048x4096_d1

/-- The streamed populations (%62), the density (%63) and the velocity (%67) as the compositions of @main's
    operations from the relaxed populations (%25) on: channel `q` sliced out, viewed as a lattice field, rearranged
    by `rollR q`, given back its unit last axis, and the nine joined along the last axis; the density its sum over
    the last axis from the zero word; the velocity its contraction with the 9 x 2 direction table divided by the
    density broadcast over the two components. -/
def refF (g : (⟨S2048x4096x9, .f32⟩ : BufTy).Contents (Elt F)) : (⟨S2048x4096x9, .f32⟩ : BufTy).Contents (Elt F) :=
  concatenate S2048x4096x9 2
    [⟨S2048x4096x1, broadcastInDim S2048x4096x1 ![0, 1] bcast_S2048x4096_S2048x4096x1_0_1 (rollR 0 (shapeCast S2048x4096 (extractStridedSlice S2048x4096x1 ![0, 0, 0] g slices_S2048x4096x9_S2048x4096x1_0_0_0) shapeCasts_S2048x4096x1_S2048x4096))⟩,
     ⟨S2048x4096x1, broadcastInDim S2048x4096x1 ![0, 1] bcast_S2048x4096_S2048x4096x1_0_1 (rollR 1 (shapeCast S2048x4096 (extractStridedSlice S2048x4096x1 ![0, 0, 1] g slices_S2048x4096x9_S2048x4096x1_0_0_1) shapeCasts_S2048x4096x1_S2048x4096))⟩,
     ⟨S2048x4096x1, broadcastInDim S2048x4096x1 ![0, 1] bcast_S2048x4096_S2048x4096x1_0_1 (rollR 2 (shapeCast S2048x4096 (extractStridedSlice S2048x4096x1 ![0, 0, 2] g slices_S2048x4096x9_S2048x4096x1_0_0_2) shapeCasts_S2048x4096x1_S2048x4096))⟩,
     ⟨S2048x4096x1, broadcastInDim S2048x4096x1 ![0, 1] bcast_S2048x4096_S2048x4096x1_0_1 (rollR 3 (shapeCast S2048x4096 (extractStridedSlice S2048x4096x1 ![0, 0, 3] g slices_S2048x4096x9_S2048x4096x1_0_0_3) shapeCasts_S2048x4096x1_S2048x4096))⟩,
     ⟨S2048x4096x1, broadcastInDim S2048x4096x1 ![0, 1] bcast_S2048x4096_S2048x4096x1_0_1 (rollR 4 (shapeCast S2048x4096 (extractStridedSlice S2048x4096x1 ![0, 0, 4] g slices_S2048x4096x9_S2048x4096x1_0_0_4) shapeCasts_S2048x4096x1_S2048x4096))⟩,
     ⟨S2048x4096x1, broadcastInDim S2048x4096x1 ![0, 1] bcast_S2048x4096_S2048x4096x1_0_1 (rollR 5 (shapeCast S2048x4096 (extractStridedSlice S2048x4096x1 ![0, 0, 5] g slices_S2048x4096x9_S2048x4096x1_0_0_5) shapeCasts_S2048x4096x1_S2048x4096))⟩,
     ⟨S2048x4096x1, broadcastInDim S2048x4096x1 ![0, 1] bcast_S2048x4096_S2048x4096x1_0_1 (rollR 6 (shapeCast S2048x4096 (extractStridedSlice S2048x4096x1 ![0, 0, 6] g slices_S2048x4096x9_S2048x4096x1_0_0_6) shapeCasts_S2048x4096x1_S2048x4096))⟩,
     ⟨S2048x4096x1, broadcastInDim S2048x4096x1 ![0, 1] bcast_S2048x4096_S2048x4096x1_0_1 (rollR 7 (shapeCast S2048x4096 (extractStridedSlice S2048x4096x1 ![0, 0, 7] g slices_S2048x4096x9_S2048x4096x1_0_0_7) shapeCasts_S2048x4096x1_S2048x4096))⟩,
     ⟨S2048x4096x1, broadcastInDim S2048x4096x1 ![0, 1] bcast_S2048x4096_S2048x4096x1_0_1 (rollR 8 (shapeCast S2048x4096 (extractStridedSlice S2048x4096x1 ![0, 0, 8] g slices_S2048x4096x9_S2048x4096x1_0_0_8) shapeCasts_S2048x4096x1_S2048x4096))⟩]
    concatenates_S2048x4096x1_S2048x4096x1_S2048x4096x1_S2048x4096x1_S2048x4096x1_S2048x4096x1_S2048x4096x1_S2048x4096x1_S2048x4096x1_S2048x4096x9_d2
def refRho (g : (⟨S2048x4096x9, .f32⟩ : BufTy).Contents (Elt F)) : (⟨S2048x4096, .f32⟩ : BufTy).Contents (Elt F) :=
  Host.reduceAdd (refF g) (constant S_ .f32 0x00000000#32) reducesTo_S2048x4096x9_S2048x4096_d2 h_S_
def refU (g : (⟨S2048x4096x9, .f32⟩ : BufTy).Contents (Elt F)) : (⟨S2048x4096x2, .f32⟩ : BufTy).Contents (Elt F) :=
  Host.divf
    (Host.dotGeneral dot_S2048x4096x9_S9x2_S2048x4096x2_2_0_01_1_n_n none (refF g)
      (fun i => FloatOps.ofBits .f32 (lit2 (S9x2.rowMajor i))))
    (broadcastInDim S2048x4096x2 ![0, 1, 2] bcast_S2048x4096x1_S2048x4096x2_0_1_2
      (broadcastInDim S2048x4096x1 ![0, 1] bcast_S2048x4096_S2048x4096x1_0_1 (refRho g)))

end Cert.ReferenceIdeal.Hand

end
-- ==== Proof.RLift.lean ====
/-
  The reference's streaming and lift: each channel of the relaxed populations sliced out, rearranged on the lattice
  by that channel's fixed shift (`rollR q`: the two slice-and-concatenate pairs the program applies), the nine
  results joined along the last axis; then the density as the sum over the channels and the velocity as the
  contraction with the direction table divided by the broadcast density - as functions of the relaxed array, read
  at an index.  The rearrangement itself is never opened: the streamed array at a site and a channel is `rollR q` of
  that channel of the relaxed array at the site; the sum over the last axis from the zero word is the plain
  left-associated sum of the nine channels; the contraction over the one shared axis is the sum of the nine
  products with the table's column, whose words are the specification's direction components; the quotient at an
  index is the division of the two entries, the divisor being the density read through its two broadcasts.
-/
import proofs.«419865_j42563125903664_3_alg».proof.Proof.Spec
import proofs.«419865_j42563125903664_3_alg».proof.Proof.Gen.ReferenceIdeal
import proofs.«419865_j42563125903664_3_alg».proof.Proof.RLiftDef
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx Idealize.SL.Sem Idealize.ShloMosaic.StableHlo

variable {F : FTy → Type} [FloatOps F]

/-- Channel `q` of a channel-last array as a field. -/
abbrev chanL (g : (⟨S2048x4096x9, .f32⟩ : BufTy).Contents (Elt Ideal)) (q : Fin 9) : Cert.Lbm.Field := fun s => g (ix3 (s 0) (s 1) q)

/-- Nine arrays with a unit last axis joined along it, read at an index: the array the last coordinate names, read
    at the same site. -/
theorem concat9_apply {α : Type} (u : Fin 9 → S2048x4096x1.Idx → α)
    (h : Shape.Concatenates (([⟨S2048x4096x1, u 0⟩, ⟨S2048x4096x1, u 1⟩, ⟨S2048x4096x1, u 2⟩, ⟨S2048x4096x1, u 3⟩, ⟨S2048x4096x1, u 4⟩, ⟨S2048x4096x1, u 5⟩, ⟨S2048x4096x1, u 6⟩, ⟨S2048x4096x1, u 7⟩, ⟨S2048x4096x1, u 8⟩] : List ((s : Shape) × (s.Idx → α))).map (·.1)) S2048x4096x9 2)
    (y : Fin 2048) (x : Fin 4096) (q : Fin 9) :
    concatenate S2048x4096x9 2 [⟨S2048x4096x1, u 0⟩, ⟨S2048x4096x1, u 1⟩, ⟨S2048x4096x1, u 2⟩, ⟨S2048x4096x1, u 3⟩, ⟨S2048x4096x1, u 4⟩, ⟨S2048x4096x1, u 5⟩, ⟨S2048x4096x1, u 6⟩, ⟨S2048x4096x1, u 7⟩, ⟨S2048x4096x1, u 8⟩] h (ix3 y x q) = u q (ix3 y x 0) := by
  have e : ([⟨S2048x4096x1, u 0⟩, ⟨S2048x4096x1, u 1⟩, ⟨S2048x4096x1, u 2⟩, ⟨S2048x4096x1, u 3⟩, ⟨S2048x4096x1, u 4⟩, ⟨S2048x4096x1, u 5⟩, ⟨S2048x4096x1, u 6⟩, ⟨S2048x4096x1, u 7⟩, ⟨S2048x4096x1, u 8⟩] : List ((s : Shape) × (s.Idx → α)))
      = List.ofFn fun n : Fin 9 => (⟨S2048x4096x1, u n⟩ : (s : Shape) × (s.Idx → α)) := rfl
  revert h; rw [e]; intro h
  exact concatenate_ofFn_unit_apply 2 u h rfl rfl (ix3 y x q) q rfl (ix3 y x 0) fun b hb => by
    match b with
    | ⟨0, _⟩ => rfl
    | ⟨1, _⟩ => rfl
    | ⟨2, _⟩ => exact absurd rfl hb

/-- One channel's stretch of the program read at a site: the slice of the array at last coordinate `c`, viewed as a
    lattice field, is channel `c`; whatever rearrangement `r` is applied to it, giving the result a unit last axis
    and reading it at last coordinate 0 reads the rearranged field at the site. -/
theorem lane_apply (r : Cert.Lbm.Field → Cert.Lbm.Field) (c : Nat) (hs : S2048x4096x9.Slices ![0, 0, c] S2048x4096x1)
    (g : (⟨S2048x4096x9, .f32⟩ : BufTy).Contents (Elt Ideal)) (q : Fin 9) (hq : q.val = c) (y : Fin 2048) (x : Fin 4096) :
    broadcastInDim S2048x4096x1 ![0, 1] bcast_S2048x4096_S2048x4096x1_0_1
        (r (shapeCast S2048x4096 (extractStridedSlice S2048x4096x1 ![0, 0, c] g hs) shapeCasts_S2048x4096x1_S2048x4096))
        (ix3 y x 0)
      = r (chanL g q) (ix2 y x) := by
  refine (broadcastInDim_apply _ _ _ (ix3 y x 0) (ix2 y x) fun a => ?_).trans ?_
  · match a with
    | ⟨0, _⟩ => rfl
    | ⟨1, _⟩ => rfl
  · refine congrArg (fun a => r a (ix2 y x)) (funext fun s => ?_)
    refine (shapeCast_apply _ _ s (ix3 (s 0) (s 1) 0) ?_).trans
      (extractStridedSlice_apply _ g hs (ix3 (s 0) (s 1) 0) (ix3 (s 0) (s 1) q) fun a => ?_)
    · rw [Shape.rowMajor_val_three, Shape.rowMajor_val_two]
      show ((s 0).val * 4096 + (s 1).val) * 1 + 0 = (s 0).val * 4096 + (s 1).val
      omega
    · match a with
      | ⟨0, _⟩ => exact (Nat.zero_add _).symm
      | ⟨1, _⟩ => exact (Nat.zero_add _).symm
      | ⟨2, _⟩ => exact hq.trans (Nat.add_zero c).symm

/-- Every channel's unit slice lies inside the array. -/
theorem slices_chan (q : Fin 9) : S2048x4096x9.Slices ![0, 0, q.val] S2048x4096x1 := by
  revert q; decide

/-- The streamed populations at a site and a channel: that channel of the relaxed populations, rearranged, at the
    site. -/
theorem refF_apply (g : (⟨S2048x4096x9, .f32⟩ : BufTy).Contents (Elt Ideal)) (y : Fin 2048) (x : Fin 4096) (q : Fin 9) :
    refF (F := Ideal) g (ix3 y x q) = rollR (F := Ideal) q (chanL g q) (ix2 y x) := by
  unfold refF
  refine (concat9_apply (fun n : Fin 9 => broadcastInDim S2048x4096x1 ![0, 1] bcast_S2048x4096_S2048x4096x1_0_1
      (rollR (F := Ideal) n (shapeCast S2048x4096 (extractStridedSlice S2048x4096x1 ![0, 0, n.val] g (slices_chan n))
        shapeCasts_S2048x4096x1_S2048x4096))) _ y x q).trans ?_
  exact lane_apply (rollR (F := Ideal) q) q.val (slices_chan q) g q rfl y x

/-- A sum over nine terms is the specification's left-associated sum. -/
theorem sum9_eq (a : Fin 9 → EReal) : ∑ k : Fin 9, a k = Cert.Lbm.sum9 a := by
  rw [Fin.sum_univ_castSucc, Fin.sum_univ_eight]; rfl

/-- The density at a site: the zero word plus the sum over the last axis of the streamed populations, which is the
    sum of the nine rearranged channels there. -/
theorem refRho_apply (g : (⟨S2048x4096x9, .f32⟩ : BufTy).Contents (Elt Ideal)) (y : Fin 2048) (x : Fin 4096) :
    refRho (F := Ideal) g (ix2 y x) = Cert.Lbm.sum9 fun q => rollR (F := Ideal) q (chanL g q) (ix2 y x) := by
  unfold refRho
  show Ideal.hostReduceAdd reducesTo_S2048x4096x9_S2048x4096_d2 (refF (F := Ideal) g)
      (constant (F := Ideal) S_ .f32 0x00000000#32 (Shape.Idx.first h_S_)) (ix2 y x) = _
  rw [Ideal.hostReduceAdd_single reducesTo_S2048x4096x9_S2048x4096_d2 (by decide), constant_apply, Ideal.ofBits_zero_f32, zero_add]
  refine Eq.trans (Finset.sum_congr rfl fun k _ => ?_) (sum9_eq fun q => rollR (F := Ideal) q (chanL g q) (ix2 y x))
  refine Eq.trans (congrArg (refF (F := Ideal) g) (funext fun a => Fin.ext ?_)) (refF_apply g y x k)
  match a with
  | ⟨0, _⟩ => rfl
  | ⟨1, _⟩ => rfl
  | ⟨2, _⟩ => rfl

theorem refRho_eq (g : (⟨S2048x4096x9, .f32⟩ : BufTy).Contents (Elt Ideal)) :
    refRho (F := Ideal) g = Cert.Lbm.dens (fun q => rollR (F := Ideal) q (chanL g q)) := by
  funext s
  obtain ⟨y, x, rfl⟩ : ∃ (y : Fin 2048) (x : Fin 4096), s = ix2 y x := ⟨s 0, s 1, eq_ix2 s⟩
  exact refRho_apply g y x

/-! The contraction's operand indices, axis by axis: at a result index `(y, x, d)` and a contraction position `k` the
    streamed populations are read at `(y, x, k)` and the direction table at `(k, d)`. -/

theorem lhs_dot_0 (i : S2048x4096x2.Idx) (q : dot_S2048x4096x9_S9x2_S2048x4096x2_2_0_01_1_n_n.contr.Idx) :
    (dot_S2048x4096x9_S9x2_S2048x4096x2_2_0_01_1_n_n.lhsIdx i q 0).val = (i 0).val := by
  unfold DotDims.lhsIdx
  rw [dif_neg (show ¬(0 : Fin S2048x4096x9.rank) ∈ dot_S2048x4096x9_S9x2_S2048x4096x2_2_0_01_1_n_n.lhsBatch by decide),
    dif_pos (show (0 : Fin S2048x4096x9.rank) ∈ dot_S2048x4096x9_S9x2_S2048x4096x2_2_0_01_1_n_n.lhsNonContracting by decide)]
  rfl
theorem lhs_dot_1 (i : S2048x4096x2.Idx) (q : dot_S2048x4096x9_S9x2_S2048x4096x2_2_0_01_1_n_n.contr.Idx) :
    (dot_S2048x4096x9_S9x2_S2048x4096x2_2_0_01_1_n_n.lhsIdx i q 1).val = (i 1).val := by
  unfold DotDims.lhsIdx
  rw [dif_neg (show ¬(1 : Fin S2048x4096x9.rank) ∈ dot_S2048x4096x9_S9x2_S2048x4096x2_2_0_01_1_n_n.lhsBatch by decide),
    dif_pos (show (1 : Fin S2048x4096x9.rank) ∈ dot_S2048x4096x9_S9x2_S2048x4096x2_2_0_01_1_n_n.lhsNonContracting by decide)]
  rfl
theorem lhs_dot_2 (i : S2048x4096x2.Idx) (q : dot_S2048x4096x9_S9x2_S2048x4096x2_2_0_01_1_n_n.contr.Idx) :
    (dot_S2048x4096x9_S9x2_S2048x4096x2_2_0_01_1_n_n.lhsIdx i q 2).val = (q ⟨0, by decide⟩).val :=
  dot_S2048x4096x9_S9x2_S2048x4096x2_2_0_01_1_n_n.lhsIdx_val_of_single rfl i q
theorem rhs_dot_0 (i : S2048x4096x2.Idx) (q : dot_S2048x4096x9_S9x2_S2048x4096x2_2_0_01_1_n_n.contr.Idx) :
    (dot_S2048x4096x9_S9x2_S2048x4096x2_2_0_01_1_n_n.rhsIdx i q 0).val = (q ⟨0, by decide⟩).val :=
  dot_S2048x4096x9_S9x2_S2048x4096x2_2_0_01_1_n_n.rhsIdx_val_of_single rfl i q
theorem rhs_dot_1 (i : S2048x4096x2.Idx) (q : dot_S2048x4096x9_S9x2_S2048x4096x2_2_0_01_1_n_n.contr.Idx) :
    (dot_S2048x4096x9_S9x2_S2048x4096x2_2_0_01_1_n_n.rhsIdx i q 1).val = (i 2).val := by
  unfold DotDims.rhsIdx
  rw [dif_neg (show ¬(1 : Fin S9x2.rank) ∈ dot_S2048x4096x9_S9x2_S2048x4096x2_2_0_01_1_n_n.rhsBatch by decide),
    dif_pos (show (1 : Fin S9x2.rank) ∈ dot_S2048x4096x9_S9x2_S2048x4096x2_2_0_01_1_n_n.rhsNonContracting by decide)]
  rfl

/-- The contraction of the streamed populations with a 9 x 2 table at a site and a component: the sum over the nine
    channels of the rearranged channel there times the table's entry for that channel and component. -/
theorem refDot_apply (g : (⟨S2048x4096x9, .f32⟩ : BufTy).Contents (Elt Ideal)) (T : (⟨S9x2, .f32⟩ : BufTy).Contents (Elt Ideal))
    (y : Fin 2048) (x : Fin 4096) (d : Fin 2) :
    Host.dotGeneral (F := Ideal) (φ₁ := .f32) (φ₂ := .f32) dot_S2048x4096x9_S9x2_S2048x4096x2_2_0_01_1_n_n none (refF (F := Ideal) g) T (ix3 y x d)
      = Cert.Lbm.sum9 fun q => rollR (F := Ideal) q (chanL g q) (ix2 y x) * T (ix2 q d) := by
  simp only [Host.dotGeneral]
  rw [Ideal.dotGeneral_apply, ← Equiv.sum_comp (contrEquiv1 dot_S2048x4096x9_S9x2_S2048x4096x2_2_0_01_1_n_n 9 rfl rfl).symm]
  refine Eq.trans (Finset.sum_congr rfl fun k _ => ?_) (sum9_eq _)
  have hk := contrEquiv1_symm_val dot_S2048x4096x9_S9x2_S2048x4096x2_2_0_01_1_n_n 9 rfl rfl k
  have el : dot_S2048x4096x9_S9x2_S2048x4096x2_2_0_01_1_n_n.lhsIdx (ix3 y x d) ((contrEquiv1 dot_S2048x4096x9_S9x2_S2048x4096x2_2_0_01_1_n_n 9 rfl rfl).symm k) = ix3 y x k := funext fun a => Fin.ext (by
    match a with
    | ⟨0, _⟩ => exact lhs_dot_0 _ _
    | ⟨1, _⟩ => exact lhs_dot_1 _ _
    | ⟨2, _⟩ => exact (lhs_dot_2 _ _).trans hk)
  have er : dot_S2048x4096x9_S9x2_S2048x4096x2_2_0_01_1_n_n.rhsIdx (ix3 y x d) ((contrEquiv1 dot_S2048x4096x9_S9x2_S2048x4096x2_2_0_01_1_n_n 9 rfl rfl).symm k) = ix2 k d := funext fun a => Fin.ext (by
    match a with
    | ⟨0, _⟩ => exact (rhs_dot_0 _ _).trans hk
    | ⟨1, _⟩ => exact rhs_dot_1 _ _)
  rw [el, er, refF_apply]

/-- The direction table's two columns are the words the specification carries for the two velocity components. -/
theorem table_x (k : Fin 9) : Ideal.ofBits .f32 (lit2 (S9x2.rowMajor (ix2 k (0 : Fin 2)))) = Cert.Lbm.cx k := by
  fin_cases k <;> rfl
theorem table_y (k : Fin 9) : Ideal.ofBits .f32 (lit2 (S9x2.rowMajor (ix2 k (1 : Fin 2)))) = Cert.Lbm.cy k := by
  fin_cases k <;> rfl

/-- The density given a unit last axis and broadcast over the two velocity components, read at a site and a
    component: the density at the site. -/
theorem bcast2_apply (r : (⟨S2048x4096, .f32⟩ : BufTy).Contents (Elt Ideal)) (y : Fin 2048) (x : Fin 4096) (d : Fin 2) :
    broadcastInDim S2048x4096x2 ![0, 1, 2] bcast_S2048x4096x1_S2048x4096x2_0_1_2
        (broadcastInDim S2048x4096x1 ![0, 1] bcast_S2048x4096_S2048x4096x1_0_1 r) (ix3 y x d) = r (ix2 y x) := by
  refine (broadcastInDim_apply _ _ _ (ix3 y x d) (ix3 y x 0) fun a => ?_).trans
    (broadcastInDim_apply _ _ r (ix3 y x 0) (ix2 y x) fun a => ?_)
  · match a with
    | ⟨0, _⟩ => rfl
    | ⟨1, _⟩ => rfl
    | ⟨2, _⟩ => rfl
  · match a with
    | ⟨0, _⟩ => rfl
    | ⟨1, _⟩ => rfl

/-- The host's quotient at an index is the division of the two entries. -/
theorem hostDivf_at {s : Shape} {φ : FTy} (a b : FVec Ideal s φ) (i : s.Idx) : Host.divf a b i = Ideal.div (a i) (b i) := rfl

/-- The velocity at a site and a component: the table-weighted sum of the nine rearranged channels there divided by
    their sum. -/
theorem refU_apply (g : (⟨S2048x4096x9, .f32⟩ : BufTy).Contents (Elt Ideal)) (y : Fin 2048) (x : Fin 4096) (d : Fin 2) :
    refU (F := Ideal) g (ix3 y x d)
      = Ideal.div (Cert.Lbm.sum9 fun q => rollR (F := Ideal) q (chanL g q) (ix2 y x) * Ideal.ofBits .f32 (lit2 (S9x2.rowMajor (ix2 q d))))
          (Cert.Lbm.sum9 fun q => rollR (F := Ideal) q (chanL g q) (ix2 y x)) := by
  unfold refU
  refine Eq.trans (hostDivf_at _ _ (ix3 y x d)) ?_
  refine congrArg₂ Ideal.div ?_ ((bcast2_apply (refRho (F := Ideal) g) y x d).trans (refRho_apply g y x))
  exact refDot_apply g (fun i => FloatOps.ofBits (F := Ideal) .f32 (lit2 (S9x2.rowMajor i))) y x d

theorem refU_eq (g : (⟨S2048x4096x9, .f32⟩ : BufTy).Contents (Elt Ideal)) :
    refU (F := Ideal) g = fun j => if (j 2).val = 0 then Cert.Lbm.velx (fun q => rollR (F := Ideal) q (chanL g q)) (ix2 (j 0) (j 1))
      else Cert.Lbm.vely (fun q => rollR (F := Ideal) q (chanL g q)) (ix2 (j 0) (j 1)) := by
  funext j
  obtain ⟨y, x, d, rfl⟩ : ∃ (y : Fin 2048) (x : Fin 4096) (d : Fin 2), j = ix3 y x d := ⟨j 0, j 1, j 2, eq_ix3 j⟩
  rw [refU_apply]
  match d with
  | ⟨0, h⟩ =>
    refine Eq.trans ?_ (if_pos (show ((ix3 y x (⟨0, h⟩ : Fin 2)) 2).val = 0 from rfl)).symm
    exact congrArg (fun t => Ideal.div t _) (congrArg Cert.Lbm.sum9 (funext fun q => congrArg (_ * ·) (table_x q)))
  | ⟨1, h⟩ =>
    refine Eq.trans ?_ (if_neg (show ¬((ix3 y x (⟨1, h⟩ : Fin 2)) 2).val = 0 from Nat.one_ne_zero)).symm
    exact congrArg (fun t => Ideal.div t _) (congrArg Cert.Lbm.sum9 (funext fun q => congrArg (_ * ·) (table_y q)))

end Cert.ReferenceIdeal.Hand

end
-- ==== Proof.RRunOps.lean ====
/-
  The reference program as a run: @main as the list of its host operations (the nine streaming calls' operations
  listed at their call sites over the calls' buffer records), that @main is that straight line, that every weakly
  fair execution terminates with every buffer at the operations' fold over the launch memory, and that the fold
  leaves the three argument buffers as they were (no operation writes them).
-/
import proofs.«419865_j42563125903664_3_alg».proof.Proof.Gen.ReferenceIdeal
import Idealize.ShloMosaic.Lib.StableHlo.Run

set_option maxRecDepth 16384

noncomputable section

namespace Cert.ReferenceIdeal.Hand

open Cert.ReferenceIdeal Cert.ReferenceIdeal.Gen
open Idealize.ShloMosaic Idealize.ShloMosaic.TcCoe Idealize.SL.Sem Idealize.ShloMosaic.StableHlo

variable {F : FTy → Type} [FloatOps F]

/-- The contents of an f32 array of shape `S`. -/
local notation "𝒞" S:max => (BufTy.Contents (Elt F) (BufTy.mk S EltTy.f32))

/-- @main's operations, in order: the collision (the two constant tables and the second direction table, the
    contraction of the velocity with the directions, the squared speed, the weighted density, the equilibrium's
    polynomial, the relaxation), then per channel `q = 0 … 8` the channel's slice, its reshape to a field and the six
    operations of that channel's shift (rows: two slices and their join along axis 0; columns: two slices of the join
    and their join along axis 1), then the nine broadcasts and their join along the channel axis, and the lift (the sum
    over the channels, the contraction with the direction table, the density's two broadcasts, the quotient). -/
abbrev ops : List (HloOp τ sig (Elt F)) :=
  [ nullary main_cst (fun i => FloatOps.ofBits .f32 (lit0 (S9x2.rowMajor i))),
    nullary main_cst_0 (fun i => FloatOps.ofBits .f32 (lit1 (S9.rowMajor i))),
    nullary main_cst_1 (fun i => FloatOps.ofBits .f32 (lit2 (S9x2.rowMajor i))),
    binary main_arg2 main_cst main_v0 ((fun l r => Host.dotGeneral dot_S2048x4096x2_S9x2_S2048x4096x9_2_1_01_0_n_n none l r) : 𝒞 S2048x4096x2 → 𝒞 S9x2 → 𝒞 S2048x4096x9),
    binary main_arg2 main_arg2 main_v1 (mulf : 𝒞 S2048x4096x2 → 𝒞 S2048x4096x2 → 𝒞 S2048x4096x2),
    nullary main_cst_2 (constant S_ .f32 0x00000000#32),
    binary main_v1 main_cst_2 main_v2 ((fun x v => Host.reduceAdd x v reducesTo_S2048x4096x2_S2048x4096_d2 h_S_) : 𝒞 S2048x4096x2 → 𝒞 S_ → 𝒞 S2048x4096),
    unary main_v2 main_v3 (broadcastInDim S2048x4096x1 ![0, 1] bcast_S2048x4096_S2048x4096x1_0_1 : 𝒞 S2048x4096 → 𝒞 S2048x4096x1),
    unary main_arg1 main_v4 (broadcastInDim S2048x4096x1 ![0, 1] bcast_S2048x4096_S2048x4096x1_0_1 : 𝒞 S2048x4096 → 𝒞 S2048x4096x1),
    unary main_cst_0 main_v5 (broadcastInDim S1x1x9 ![2] bcast_S9_S1x1x9_2 : 𝒞 S9 → 𝒞 S1x1x9),
    unary main_v5 main_v6 (broadcastInDim S2048x4096x9 ![0, 1, 2] bcast_S1x1x9_S2048x4096x9_0_1_2 : 𝒞 S1x1x9 → 𝒞 S2048x4096x9),
    unary main_v4 main_v7 (broadcastInDim S2048x4096x9 ![0, 1, 2] bcast_S2048x4096x1_S2048x4096x9_0_1_2 : 𝒞 S2048x4096x1 → 𝒞 S2048x4096x9),
    binary main_v6 main_v7 main_v8 (mulf : 𝒞 S2048x4096x9 → 𝒞 S2048x4096x9 → 𝒞 S2048x4096x9),
    nullary main_cst_3 (constant S_ .f32 0x40400000#32),
    unary main_cst_3 main_v9 (broadcastInDim S2048x4096x9 ![] bcast_S_S2048x4096x9 : 𝒞 S_ → 𝒞 S2048x4096x9),
    binary main_v9 main_v0 main_v10 (mulf : 𝒞 S2048x4096x9 → 𝒞 S2048x4096x9 → 𝒞 S2048x4096x9),
    nullary main_cst_4 (constant S_ .f32 0x3F800000#32),
    unary main_cst_4 main_v11 (broadcastInDim S2048x4096x9 ![] bcast_S_S2048x4096x9 : 𝒞 S_ → 𝒞 S2048x4096x9),
    binary main_v11 main_v10 main_v12 (addf : 𝒞 S2048x4096x9 → 𝒞 S2048x4096x9 → 𝒞 S2048x4096x9),
    nullary main_cst_5 (constant S_ .f32 0x40900000#32),
    unary main_cst_5 main_v13 (broadcastInDim S2048x4096x9 ![] bcast_S_S2048x4096x9 : 𝒞 S_ → 𝒞 S2048x4096x9),
    binary main_v13 main_v0 main_v14 (mulf : 𝒞 S2048x4096x9 → 𝒞 S2048x4096x9 → 𝒞 S2048x4096x9),
    binary main_v14 main_v0 main_v15 (mulf : 𝒞 S2048x4096x9 → 𝒞 S2048x4096x9 → 𝒞 S2048x4096x9),
    binary main_v12 main_v15 main_v16 (addf : 𝒞 S2048x4096x9 → 𝒞 S2048x4096x9 → 𝒞 S2048x4096x9),
    nullary main_cst_6 (constant S_ .f32 0x3FC00000#32),
    unary main_cst_6 main_v17 (broadcastInDim S2048x4096x1 ![] bcast_S_S2048x4096x1 : 𝒞 S_ → 𝒞 S2048x4096x1),
    binary main_v17 main_v3 main_v18 (mulf : 𝒞 S2048x4096x1 → 𝒞 S2048x4096x1 → 𝒞 S2048x4096x1),
    unary main_v18 main_v19 (broadcastInDim S2048x4096x9 ![0, 1, 2] bcast_S2048x4096x1_S2048x4096x9_0_1_2 : 𝒞 S2048x4096x1 → 𝒞 S2048x4096x9),
    binary main_v16 main_v19 main_v20 (subf : 𝒞 S2048x4096x9 → 𝒞 S2048x4096x9 → 𝒞 S2048x4096x9),
    binary main_v8 main_v20 main_v21 (mulf : 𝒞 S2048x4096x9 → 𝒞 S2048x4096x9 → 𝒞 S2048x4096x9),
    binary main_arg0 main_v21 main_v22 (subf : 𝒞 S2048x4096x9 → 𝒞 S2048x4096x9 → 𝒞 S2048x4096x9),
    nullary main_cst_7 (constant S_ .f32 0x3F19999A#32),
    unary main_cst_7 main_v23 (broadcastInDim S2048x4096x9 ![] bcast_S_S2048x4096x9 : 𝒞 S_ → 𝒞 S2048x4096x9),
    binary main_v22 main_v23 main_v24 (Host.divf : 𝒞 S2048x4096x9 → 𝒞 S2048x4096x9 → 𝒞 S2048x4096x9),
    binary main_arg0 main_v24 main_v25 (subf : 𝒞 S2048x4096x9 → 𝒞 S2048x4096x9 → 𝒞 S2048x4096x9),
    -- channel 0: rows and columns as they are
    unary main_v25 main_v26 ((extractStridedSlice S2048x4096x1 ![0, 0, 0] · slices_S2048x4096x9_S2048x4096x1_0_0_0) : 𝒞 S2048x4096x9 → 𝒞 S2048x4096x1),
    reshape main_v26 main_v27 rfl shapeCasts_S2048x4096x1_S2048x4096,
    TRef.unary (.of main_v27 rfl) main_call0.v0 (extractStridedSlice S2048x4096 ![0, 0] · slices_S2048x4096_S2048x4096_0_0),
    TRef.unary (.of main_v27 rfl) main_call0.v1 (extractStridedSlice S0x4096 ![0, 0] · slices_S2048x4096_S0x4096_0_0),
    TRef.binary main_call0.v0 main_call0.v1 main_call0.v2 (fun a b => concatenate S2048x4096 0 [⟨S2048x4096, a⟩, ⟨S0x4096, b⟩] concatenates_S2048x4096_S0x4096_S2048x4096_d0),
    TRef.unary main_call0.v2 main_call0.v3 (extractStridedSlice S2048x4096 ![0, 0] · slices_S2048x4096_S2048x4096_0_0),
    TRef.unary main_call0.v2 main_call0.v4 (extractStridedSlice S2048x0 ![0, 0] · slices_S2048x4096_S2048x0_0_0),
    TRef.binary main_call0.v3 main_call0.v4 main_call0.v5 (fun a b => concatenate S2048x4096 1 [⟨S2048x4096, a⟩, ⟨S2048x0, b⟩] concatenates_S2048x4096_S2048x0_S2048x4096_d1),
    -- channel 1: rows as they are, the last column first
    unary main_v25 main_v29 ((extractStridedSlice S2048x4096x1 ![0, 0, 1] · slices_S2048x4096x9_S2048x4096x1_0_0_1) : 𝒞 S2048x4096x9 → 𝒞 S2048x4096x1),
    reshape main_v29 main_v30 rfl shapeCasts_S2048x4096x1_S2048x4096,
    TRef.unary (.of main_v30 rfl) main_call1.v0 (extractStridedSlice S2048x4096 ![0, 0] · slices_S2048x4096_S2048x4096_0_0),
    TRef.unary (.of main_v30 rfl) main_call1.v1 (extractStridedSlice S0x4096 ![0, 0] · slices_S2048x4096_S0x4096_0_0),
    TRef.binary main_call1.v0 main_call1.v1 main_call1.v2 (fun a b => concatenate S2048x4096 0 [⟨S2048x4096, a⟩, ⟨S0x4096, b⟩] concatenates_S2048x4096_S0x4096_S2048x4096_d0),
    TRef.unary main_call1.v2 main_call1.v3 (extractStridedSlice S2048x1 ![0, 4095] · slices_S2048x4096_S2048x1_0_4095),
    TRef.unary main_call1.v2 main_call1.v4 (extractStridedSlice S2048x4095 ![0, 0] · slices_S2048x4096_S2048x4095_0_0),
    TRef.binary main_call1.v3 main_call1.v4 main_call1.v5 (fun a b => concatenate S2048x4096 1 [⟨S2048x1, a⟩, ⟨S2048x4095, b⟩] concatenates_S2048x1_S2048x4095_S2048x4096_d1),
    -- channel 2: the last row first, columns as they are
    unary main_v25 main_v32 ((extractStridedSlice S2048x4096x1 ![0, 0, 2] · slices_S2048x4096x9_S2048x4096x1_0_0_2) : 𝒞 S2048x4096x9 → 𝒞 S2048x4096x1),
    reshape main_v32 main_v33 rfl shapeCasts_S2048x4096x1_S2048x4096,
    TRef.unary (.of main_v33 rfl) main_call2.v0 (extractStridedSlice S1x4096 ![2047, 0] · slices_S2048x4096_S1x4096_2047_0),
    TRef.unary (.of main_v33 rfl) main_call2.v1 (extractStridedSlice S2047x4096 ![0, 0] · slices_S2048x4096_S2047x4096_0_0),
    TRef.binary main_call2.v0 main_call2.v1 main_call2.v2 (fun a b => concatenate S2048x4096 0 [⟨S1x4096, a⟩, ⟨S2047x4096, b⟩] concatenates_S1x4096_S2047x4096_S2048x4096_d0),
    TRef.unary main_call2.v2 main_call2.v3 (extractStridedSlice S2048x4096 ![0, 0] · slices_S2048x4096_S2048x4096_0_0),
    TRef.unary main_call2.v2 main_call2.v4 (extractStridedSlice S2048x0 ![0, 0] · slices_S2048x4096_S2048x0_0_0),
    TRef.binary main_call2.v3 main_call2.v4 main_call2.v5 (fun a b => concatenate S2048x4096 1 [⟨S2048x4096, a⟩, ⟨S2048x0, b⟩] concatenates_S2048x4096_S2048x0_S2048x4096_d1),
    -- channel 3: rows as they are, the first column last
    unary main_v25 main_v35 ((extractStridedSlice S2048x4096x1 ![0, 0, 3] · slices_S2048x4096x9_S2048x4096x1_0_0_3) : 𝒞 S2048x4096x9 → 𝒞 S2048x4096x1),
    reshape main_v35 main_v36 rfl shapeCasts_S2048x4096x1_S2048x4096,
    TRef.unary (.of main_v36 rfl) main_call3.v0 (extractStridedSlice S2048x4096 ![0, 0] · slices_S2048x4096_S2048x4096_0_0),
    TRef.unary (.of main_v36 rfl) main_call3.v1 (extractStridedSlice S0x4096 ![0, 0] · slices_S2048x4096_S0x4096_0_0),
    TRef.binary main_call3.v0 main_call3.v1 main_call3.v2 (fun a b => concatenate S2048x4096 0 [⟨S2048x4096, a⟩, ⟨S0x4096, b⟩] concatenates_S2048x4096_S0x4096_S2048x4096_d0),
    TRef.unary main_call3.v2 main_call3.v3 (extractStridedSlice S2048x4095 ![0, 1] · slices_S2048x4096_S2048x4095_0_1),
    TRef.unary main_call3.v2 main_call3.v4 (extractStridedSlice S2048x1 ![0, 0] · slices_S2048x4096_S2048x1_0_0),
    TRef.binary main_call3.v3 main_call3.v4 main_call3.v5 (fun a b => concatenate S2048x4096 1 [⟨S2048x4095, a⟩, ⟨S2048x1, b⟩] concatenates_S2048x4095_S2048x1_S2048x4096_d1),
    -- channel 4: the first row last, columns as they are
    unary main_v25 main_v38 ((extractStridedSlice S2048x4096x1 ![0, 0, 4] · slices_S2048x4096x9_S2048x4096x1_0_0_4) : 𝒞 S2048x4096x9 → 𝒞 S2048x4096x1),
    reshape main_v38 main_v39 rfl shapeCasts_S2048x4096x1_S2048x4096,
    TRef.unary (.of main_v39 rfl) main_call4.v0 (extractStridedSlice S2047x4096 ![1, 0] · slices_S2048x4096_S2047x4096_1_0),
    TRef.unary (.of main_v39 rfl) main_call4.v1 (extractStridedSlice S1x4096 ![0, 0] · slices_S2048x4096_S1x4096_0_0),
    TRef.binary main_call4.v0 main_call4.v1 main_call4.v2 (fun a b => concatenate S2048x4096 0 [⟨S2047x4096, a⟩, ⟨S1x4096, b⟩] concatenates_S2047x4096_S1x4096_S2048x4096_d0),
    TRef.unary main_call4.v2 main_call4.v3 (extractStridedSlice S2048x4096 ![0, 0] · slices_S2048x4096_S2048x4096_0_0),
    TRef.unary main_call4.v2 main_call4.v4 (extractStridedSlice S2048x0 ![0, 0] · slices_S2048x4096_S2048x0_0_0),
    TRef.binary main_call4.v3 main_call4.v4 main_call4.v5 (fun a b => concatenate S2048x4096 1 [⟨S2048x4096, a⟩, ⟨S2048x0, b⟩] concatenates_S2048x4096_S2048x0_S2048x4096_d1),
    -- channel 5: the last row first, the last column first
    unary main_v25 main_v41 ((extractStridedSlice S2048x4096x1 ![0, 0, 5] · slices_S2048x4096x9_S2048x4096x1_0_0_5) : 𝒞 S2048x4096x9 → 𝒞 S2048x4096x1),
    reshape main_v41 main_v42 rfl shapeCasts_S2048x4096x1_S2048x4096,
    TRef.unary (.of main_v42 rfl) main_call5.v0 (extractStridedSlice S1x4096 ![2047, 0] · slices_S2048x4096_S1x4096_2047_0),
    TRef.unary (.of main_v42 rfl) main_call5.v1 (extractStridedSlice S2047x4096 ![0, 0] · slices_S2048x4096_S2047x4096_0_0),
    TRef.binary main_call5.v0 main_call5.v1 main_call5.v2 (fun a b => concatenate S2048x4096 0 [⟨S1x4096, a⟩, ⟨S2047x4096, b⟩] concatenates_S1x4096_S2047x4096_S2048x4096_d0),
    TRef.unary main_call5.v2 main_call5.v3 (extractStridedSlice S2048x1 ![0, 4095] · slices_S2048x4096_S2048x1_0_4095),
    TRef.unary main_call5.v2 main_call5.v4 (extractStridedSlice S2048x4095 ![0, 0] · slices_S2048x4096_S2048x4095_0_0),
    TRef.binary main_call5.v3 main_call5.v4 main_call5.v5 (fun a b => concatenate S2048x4096 1 [⟨S2048x1, a⟩, ⟨S2048x4095, b⟩] concatenates_S2048x1_S2048x4095_S2048x4096_d1),
    -- channel 6: the last row first, the first column last
    unary main_v25 main_v44 ((extractStridedSlice S2048x4096x1 ![0, 0, 6] · slices_S2048x4096x9_S2048x4096x1_0_0_6) : 𝒞 S2048x4096x9 → 𝒞 S2048x4096x1),
    reshape main_v44 main_v45 rfl shapeCasts_S2048x4096x1_S2048x4096,
    TRef.unary (.of main_v45 rfl) main_call6.v0 (extractStridedSlice S1x4096 ![2047, 0] · slices_S2048x4096_S1x4096_2047_0),
    TRef.unary (.of main_v45 rfl) main_call6.v1 (extractStridedSlice S2047x4096 ![0, 0] · slices_S2048x4096_S2047x4096_0_0),
    TRef.binary main_call6.v0 main_call6.v1 main_call6.v2 (fun a b => concatenate S2048x4096 0 [⟨S1x4096, a⟩, ⟨S2047x4096, b⟩] concatenates_S1x4096_S2047x4096_S2048x4096_d0),
    TRef.unary main_call6.v2 main_call6.v3 (extractStridedSlice S2048x4095 ![0, 1] · slices_S2048x4096_S2048x4095_0_1),
    TRef.unary main_call6.v2 main_call6.v4 (extractStridedSlice S2048x1 ![0, 0] · slices_S2048x4096_S2048x1_0_0),
    TRef.binary main_call6.v3 main_call6.v4 main_call6.v5 (fun a b => concatenate S2048x4096 1 [⟨S2048x4095, a⟩, ⟨S2048x1, b⟩] concatenates_S2048x4095_S2048x1_S2048x4096_d1),
    -- channel 7: the first row last, the first column last
    unary main_v25 main_v47 ((extractStridedSlice S2048x4096x1 ![0, 0, 7] · slices_S2048x4096x9_S2048x4096x1_0_0_7) : 𝒞 S2048x4096x9 → 𝒞 S2048x4096x1),
    reshape main_v47 main_v48 rfl shapeCasts_S2048x4096x1_S2048x4096,
    TRef.unary (.of main_v48 rfl) main_call7.v0 (extractStridedSlice S2047x4096 ![1, 0] · slices_S2048x4096_S2047x4096_1_0),
    TRef.unary (.of main_v48 rfl) main_call7.v1 (extractStridedSlice S1x4096 ![0, 0] · slices_S2048x4096_S1x4096_0_0),
    TRef.binary main_call7.v0 main_call7.v1 main_call7.v2 (fun a b => concatenate S2048x4096 0 [⟨S2047x4096, a⟩, ⟨S1x4096, b⟩] concatenates_S2047x4096_S1x4096_S2048x4096_d0),
    TRef.unary main_call7.v2 main_call7.v3 (extractStridedSlice S2048x4095 ![0, 1] · slices_S2048x4096_S2048x4095_0_1),
    TRef.unary main_call7.v2 main_call7.v4 (extractStridedSlice S2048x1 ![0, 0] · slices_S2048x4096_S2048x1_0_0),
    TRef.binary main_call7.v3 main_call7.v4 main_call7.v5 (fun a b => concatenate S2048x4096 1 [⟨S2048x4095, a⟩, ⟨S2048x1, b⟩] concatenates_S2048x4095_S2048x1_S2048x4096_d1),
    -- channel 8: the first row last, the last column first
    unary main_v25 main_v50 ((extractStridedSlice S2048x4096x1 ![0, 0, 8] · slices_S2048x4096x9_S2048x4096x1_0_0_8) : 𝒞 S2048x4096x9 → 𝒞 S2048x4096x1),
    reshape main_v50 main_v51 rfl shapeCasts_S2048x4096x1_S2048x4096,
    TRef.unary (.of main_v51 rfl) main_call8.v0 (extractStridedSlice S2047x4096 ![1, 0] · slices_S2048x4096_S2047x4096_1_0),
    TRef.unary (.of main_v51 rfl) main_call8.v1 (extractStridedSlice S1x4096 ![0, 0] · slices_S2048x4096_S1x4096_0_0),
    TRef.binary main_call8.v0 main_call8.v1 main_call8.v2 (fun a b => concatenate S2048x4096 0 [⟨S2047x4096, a⟩, ⟨S1x4096, b⟩] concatenates_S2047x4096_S1x4096_S2048x4096_d0),
    TRef.unary main_call8.v2 main_call8.v3 (extractStridedSlice S2048x1 ![0, 4095] · slices_S2048x4096_S2048x1_0_4095),
    TRef.unary main_call8.v2 main_call8.v4 (extractStridedSlice S2048x4095 ![0, 0] · slices_S2048x4096_S2048x4095_0_0),
    TRef.binary main_call8.v3 main_call8.v4 main_call8.v5 (fun a b => concatenate S2048x4096 1 [⟨S2048x1, a⟩, ⟨S2048x4095, b⟩] concatenates_S2048x1_S2048x4095_S2048x4096_d1),
    -- the nine streamed fields as channels again
    unary main_v28 main_v53 (broadcastInDim S2048x4096x1 ![0, 1] bcast_S2048x4096_S2048x4096x1_0_1 : 𝒞 S2048x4096 → 𝒞 S2048x4096x1),
    unary main_v31 main_v54 (broadcastInDim S2048x4096x1 ![0, 1] bcast_S2048x4096_S2048x4096x1_0_1 : 𝒞 S2048x4096 → 𝒞 S2048x4096x1),
    unary main_v34 main_v55 (broadcastInDim S2048x4096x1 ![0, 1] bcast_S2048x4096_S2048x4096x1_0_1 : 𝒞 S2048x4096 → 𝒞 S2048x4096x1),
    unary main_v37 main_v56 (broadcastInDim S2048x4096x1 ![0, 1] bcast_S2048x4096_S2048x4096x1_0_1 : 𝒞 S2048x4096 → 𝒞 S2048x4096x1),
    unary main_v40 main_v57 (broadcastInDim S2048x4096x1 ![0, 1] bcast_S2048x4096_S2048x4096x1_0_1 : 𝒞 S2048x4096 → 𝒞 S2048x4096x1),
    unary main_v43 main_v58 (broadcastInDim S2048x4096x1 ![0, 1] bcast_S2048x4096_S2048x4096x1_0_1 : 𝒞 S2048x4096 → 𝒞 S2048x4096x1),
    unary main_v46 main_v59 (broadcastInDim S2048x4096x1 ![0, 1] bcast_S2048x4096_S2048x4096x1_0_1 : 𝒞 S2048x4096 → 𝒞 S2048x4096x1),
    unary main_v49 main_v60 (broadcastInDim S2048x4096x1 ![0, 1] bcast_S2048x4096_S2048x4096x1_0_1 : 𝒞 S2048x4096 → 𝒞 S2048x4096x1),
    unary main_v52 main_v61 (broadcastInDim S2048x4096x1 ![0, 1] bcast_S2048x4096_S2048x4096x1_0_1 : 𝒞 S2048x4096 → 𝒞 S2048x4096x1),
    nary ![main_v53, main_v54, main_v55, main_v56, main_v57, main_v58, main_v59, main_v60, main_v61] main_v62 (fun u => concatenate S2048x4096x9 2 [⟨S2048x4096x1, u 0⟩, ⟨S2048x4096x1, u 1⟩, ⟨S2048x4096x1, u 2⟩, ⟨S2048x4096x1, u 3⟩, ⟨S2048x4096x1, u 4⟩, ⟨S2048x4096x1, u 5⟩, ⟨S2048x4096x1, u 6⟩, ⟨S2048x4096x1, u 7⟩, ⟨S2048x4096x1, u 8⟩] concatenates_S2048x4096x1_S2048x4096x1_S2048x4096x1_S2048x4096x1_S2048x4096x1_S2048x4096x1_S2048x4096x1_S2048x4096x1_S2048x4096x1_S2048x4096x9_d2),
    -- the lift
    nullary main_cst_8 (constant S_ .f32 0x00000000#32),
    binary main_v62 main_cst_8 main_v63 ((fun x v => Host.reduceAdd x v reducesTo_S2048x4096x9_S2048x4096_d2 h_S_) : 𝒞 S2048x4096x9 → 𝒞 S_ → 𝒞 S2048x4096),
    binary main_v62 main_cst_1 main_v64 ((fun l r => Host.dotGeneral dot_S2048x4096x9_S9x2_S2048x4096x2_2_0_01_1_n_n none l r) : 𝒞 S2048x4096x9 → 𝒞 S9x2 → 𝒞 S2048x4096x2),
    unary main_v63 main_v65 (broadcastInDim S2048x4096x1 ![0, 1] bcast_S2048x4096_S2048x4096x1_0_1 : 𝒞 S2048x4096 → 𝒞 S2048x4096x1),
    unary main_v65 main_v66 (broadcastInDim S2048x4096x2 ![0, 1, 2] bcast_S2048x4096x1_S2048x4096x2_0_1_2 : 𝒞 S2048x4096x1 → 𝒞 S2048x4096x2),
    binary main_v64 main_v66 main_v67 (Host.divf : 𝒞 S2048x4096x2 → 𝒞 S2048x4096x2 → 𝒞 S2048x4096x2) ]

set_option maxHeartbeats 8000000 in
/-- @main is that straight line: its two windows and the nine shifts' definitions unfolded at their calls and the
    calls' records at their fields, both sides are one chain of steps once sequencing is reassociated. -/
theorem main_eq (c : Dev nD) : main (F := F) c = seq ops := by
  simp only [main, main_part0, main_part1, fn_roll_static.body, fn_roll_static_0.body, fn_roll_static_1.body,
    fn_roll_static_2.body, fn_roll_static_3.body, fn_roll_static_4.body, fn_roll_static_5.body, fn_roll_static_6.body,
    fn_roll_static_7.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only: one fact per operation, in order. -/
theorem ops_sub : (ops : List (HloOp τ sig (Elt F))).Forall fun op => op.bufs ⊆ tcRefs τ sig :=
  ⟨nullary_bufs_sub .., nullary_bufs_sub .., nullary_bufs_sub .., binary_bufs_sub .., binary_bufs_sub .., nullary_bufs_sub ..,
    binary_bufs_sub .., unary_bufs_sub .., unary_bufs_sub .., unary_bufs_sub .., unary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., binary_bufs_sub .., binary_bufs_sub ..,
    nullary_bufs_sub .., unary_bufs_sub .., binary_bufs_sub .., unary_bufs_sub .., binary_bufs_sub .., binary_bufs_sub ..,
    binary_bufs_sub .., nullary_bufs_sub .., unary_bufs_sub .., binary_bufs_sub .., binary_bufs_sub ..,
    unary_bufs_sub .., reshape_bufs_sub .., unary_bufs_sub .., unary_bufs_sub .., binary_bufs_sub .., unary_bufs_sub .., unary_bufs_sub .., binary_bufs_sub ..,
    unary_bufs_sub .., reshape_bufs_sub .., unary_bufs_sub .., unary_bufs_sub .., binary_bufs_sub .., unary_bufs_sub .., unary_bufs_sub .., binary_bufs_sub ..,
    unary_bufs_sub .., reshape_bufs_sub .., unary_bufs_sub .., unary_bufs_sub .., binary_bufs_sub .., unary_bufs_sub .., unary_bufs_sub .., binary_bufs_sub ..,
    unary_bufs_sub .., reshape_bufs_sub .., unary_bufs_sub .., unary_bufs_sub .., binary_bufs_sub .., unary_bufs_sub .., unary_bufs_sub .., binary_bufs_sub ..,
    unary_bufs_sub .., reshape_bufs_sub .., unary_bufs_sub .., unary_bufs_sub .., binary_bufs_sub .., unary_bufs_sub .., unary_bufs_sub .., binary_bufs_sub ..,
    unary_bufs_sub .., reshape_bufs_sub .., unary_bufs_sub .., unary_bufs_sub .., binary_bufs_sub .., unary_bufs_sub .., unary_bufs_sub .., binary_bufs_sub ..,
    unary_bufs_sub .., reshape_bufs_sub .., unary_bufs_sub .., unary_bufs_sub .., binary_bufs_sub .., unary_bufs_sub .., unary_bufs_sub .., binary_bufs_sub ..,
    unary_bufs_sub .., reshape_bufs_sub .., unary_bufs_sub .., unary_bufs_sub .., binary_bufs_sub .., unary_bufs_sub .., unary_bufs_sub .., binary_bufs_sub ..,
    unary_bufs_sub .., reshape_bufs_sub .., unary_bufs_sub .., unary_bufs_sub .., binary_bufs_sub .., unary_bufs_sub .., unary_bufs_sub .., binary_bufs_sub ..,
    unary_bufs_sub .., unary_bufs_sub .., unary_bufs_sub .., unary_bufs_sub .., unary_bufs_sub .., unary_bufs_sub .., unary_bufs_sub .., unary_bufs_sub .., unary_bufs_sub ..,
    nary_bufs_sub ..,
    nullary_bufs_sub .., binary_bufs_sub .., binary_bufs_sub .., unary_bufs_sub .., unary_bufs_sub .., binary_bufs_sub ..⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

theorem res_arg0 (V : Valuation τ sig (Elt F)) : after ops V (main_arg0 : DevRef τ sig) = V (main_arg0 : DevRef τ sig) := by
  after_results_simp
theorem res_arg1 (V : Valuation τ sig (Elt F)) : after ops V (main_arg1 : DevRef τ sig) = V (main_arg1 : DevRef τ sig) := by
  after_results_simp
theorem res_arg2 (V : Valuation τ sig (Elt F)) : after ops V (main_arg2 : DevRef τ sig) = V (main_arg2 : DevRef τ sig) := by
  after_results_simp

end Cert.ReferenceIdeal.Hand

end
-- ==== Proof.RRun.lean ====
/-
  The reference program as a run: @main as the list of its host operations (the nine streaming calls' operations
  listed at their call sites), that every weakly fair execution terminates with every buffer at the operations'
  fold over the launch memory, and the three results and the three arguments read off that fold: the results are
  the stage functions `refF`, `refRho`, `refU` of the relaxed populations `refStar` of the arguments.
-/
import proofs.«419865_j42563125903664_3_alg».proof.Proof.Spec
import proofs.«419865_j42563125903664_3_alg».proof.Proof.Gen.ReferenceIdeal
import proofs.«419865_j42563125903664_3_alg».proof.Proof.RRunOps
import proofs.«419865_j42563125903664_3_alg».proof.Proof.RStar
import proofs.«419865_j42563125903664_3_alg».proof.Proof.RLiftDef
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx Idealize.SL.Sem Idealize.ShloMosaic.StableHlo

variable {F : FTy → Type} [FloatOps F]

/-! ## The three results

The run is cut into stretches: the collision (the first thirty-five operations, up to the relaxed populations), one
stretch of eight operations per channel (its slice, its view as a lattice field, the six operations of its shift),
the nine broadcasts and their join along the channel axis (ten), and the lift (the last six). Each stretch is read
at the buffers the next ones take over; a buffer a stretch does not write passes through it. -/

/-- A join of nine operands given as a literal family: after it the result buffer holds the function's value at the
    family of the operands' contents, each read at its own reference. -/
theorem nary9_result (x0 x1 x2 x3 x4 x5 x6 x7 x8 y : Ref sig .tc)
    (f : ((k : Fin 9) → ((![x0, x1, x2, x3, x4, x5, x6, x7, x8] : Fin 9 → Ref sig .tc) k).ty.Contents (Elt F)) → y.ty.Contents (Elt F))
    (hxs hy) (W : Valuation τ sig (Elt F)) :
    (nary (τ := τ) ![x0, x1, x2, x3, x4, x5, x6, x7, x8] y f hxs hy).result W (Proc.devRef .tc y)
      = f (Fin.cons (W (Proc.devRef .tc x0)) (Fin.cons (W (Proc.devRef .tc x1)) (Fin.cons (W (Proc.devRef .tc x2))
          (Fin.cons (W (Proc.devRef .tc x3)) (Fin.cons (W (Proc.devRef .tc x4)) (Fin.cons (W (Proc.devRef .tc x5))
          (Fin.cons (W (Proc.devRef .tc x6)) (Fin.cons (W (Proc.devRef .tc x7)) (Fin.cons (W (Proc.devRef .tc x8))
          (fun i => i.elim0)))))))))) := by
  rw [nary_result]; congr 1; funext k; fin_cases k <;> rfl

/-- The same, with the result buffer written as the reference itself. -/
theorem nary9_result' (x0 x1 x2 x3 x4 x5 x6 x7 x8 y : Ref sig .tc)
    (f : ((k : Fin 9) → ((![x0, x1, x2, x3, x4, x5, x6, x7, x8] : Fin 9 → Ref sig .tc) k).ty.Contents (Elt F)) → y.ty.Contents (Elt F))
    (hxs hy) (W : Valuation τ sig (Elt F)) :
    (nary (τ := τ) ![x0, x1, x2, x3, x4, x5, x6, x7, x8] y f hxs hy).result W (no_index (Proc.devRef .tc y))
      = f (Fin.cons (W (Proc.devRef .tc x0)) (Fin.cons (W (Proc.devRef .tc x1)) (Fin.cons (W (Proc.devRef .tc x2))
          (Fin.cons (W (Proc.devRef .tc x3)) (Fin.cons (W (Proc.devRef .tc x4)) (Fin.cons (W (Proc.devRef .tc x5))
          (Fin.cons (W (Proc.devRef .tc x6)) (Fin.cons (W (Proc.devRef .tc x7)) (Fin.cons (W (Proc.devRef .tc x8))
          (fun i => i.elim0)))))))))) :=
  nary9_result x0 x1 x2 x3 x4 x5 x6 x7 x8 y f hxs hy W

/-- The fold read at a buffer: at an operation's own result its function's value of the operands' contents, at any
    other buffer what was there before it. -/
local macro "results9" : tactic =>
  `(tactic| (simp (disch := decide) only [after_cons, after_nil, nary9_result', nullary_result', unary_result', binary_result',
      reshape_result', nullary_result_ne', unary_result_ne', binary_result_ne', reshape_result_ne', nary_result_ne']))

/-- The contents after the nine channels' stretches, from the contents before them. -/
abbrev afterChans (W : Valuation τ sig (Elt F)) : Valuation τ sig (Elt F) :=
  (after ((ops.drop 99).take 8) (after ((ops.drop 91).take 8) (after ((ops.drop 83).take 8) (after ((ops.drop 75).take 8) (after ((ops.drop 67).take 8) (after ((ops.drop 59).take 8) (after ((ops.drop 51).take 8) (after ((ops.drop 43).take 8) (after ((ops.drop 35).take 8) W)))))))))

/-- The line is its stretches one after the other. -/
theorem ops_cut : (ops : List (HloOp τ sig (Elt F)))
    = (ops.take 35) ++ (((ops.drop 35).take 8) ++ (((ops.drop 43).take 8) ++ (((ops.drop 51).take 8) ++ (((ops.drop 59).take 8) ++ (((ops.drop 67).take 8) ++ (((ops.drop 75).take 8) ++ (((ops.drop 83).take 8) ++ (((ops.drop 91).take 8) ++ (((ops.drop 99).take 8) ++ (((ops.drop 107).take 10) ++ (ops.drop 117))))))))))) := by
  simp only [ops, List.take_succ_cons, List.take_zero, List.drop_succ_cons, List.drop_zero, List.cons_append, List.nil_append]

/-- The fold over the whole line is the fold over its stretches in turn. -/
theorem after_split (V : Valuation τ sig (Elt F)) :
    after ops V = after (ops.drop 117) (after ((ops.drop 107).take 10) (afterChans (after (ops.take 35) V))) := by
  refine (congrArg (fun l => after l V) ops_cut).trans ?_
  simp only [after_append]

/-! ### The collision -/

/-- After the collision the relaxed populations' buffer holds `refStar` of the three arguments. -/
theorem star_eq (V : Valuation τ sig (Elt F)) : after (ops.take 35) V (main_v25 : DevRef τ sig)
    = refStar (V (main_arg0 : DevRef τ sig)) (V (main_arg1 : DevRef τ sig)) (V (main_arg2 : DevRef τ sig)) := by
  simp only [ops, List.take_succ_cons, List.take_zero, List.drop_succ_cons, List.drop_zero]
  after_results_simp
  rfl

/-- The second direction table is written once, in the collision's stretch, and holds its literal entries. -/
theorem cst1_eq (V : Valuation τ sig (Elt F)) : after (ops.take 35) V (main_cst_1 : DevRef τ sig)
    = fun i => FloatOps.ofBits .f32 (lit2 (S9x2.rowMajor i)) := by
  simp only [ops, List.take_succ_cons, List.take_zero, List.drop_succ_cons, List.drop_zero]
  after_results_simp
  rfl

/-! ### The nine channels

After channel `q`'s stretch the buffer of its call holds `rollR q` of that channel of what the relaxed populations'
buffer held before it, viewed as a lattice field: the call's two slice-and-join pairs are `rollR q`'s own text. The
stretch writes its eight buffers and no other. -/

set_option maxHeartbeats 2000000 in
theorem chan0_eq (Z : Valuation τ sig (Elt F)) : after ((ops.drop 35).take 8) Z (main_v28 : DevRef τ sig)
    = rollR 0 (shapeCast S2048x4096 (extractStridedSlice S2048x4096x1 ![0, 0, 0] (Z (main_v25 : DevRef τ sig)) slices_S2048x4096x9_S2048x4096x1_0_0_0) shapeCasts_S2048x4096x1_S2048x4096) := by
  simp only [ops, List.take_succ_cons, List.take_zero, List.drop_succ_cons, List.drop_zero]
  after_results
  rfl
abbrev chan0_W : List (Ref sig .tc) := [main_v26, main_v27, main_call0_v0, main_call0_v1, main_call0_v2, main_call0_v3, main_call0_v4, main_v28]
theorem chan0_writes : (((ops.drop 35).take 8) : List (HloOp τ sig (Elt F))).Forall fun op => op.writes ⊆ (chan0_W.map (Proc.devRef (τ := τ) .tc)).toFinset := by
  simp only [ops, List.take_succ_cons, List.take_zero, List.drop_succ_cons, List.drop_zero]
  simp only [List.Forall]
  exact ⟨(by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide))⟩
theorem chan0_keep (Z : Valuation τ sig (Elt F)) (r : Ref sig .tc) (h : r ∉ chan0_W) :
    after ((ops.drop 35).take 8) Z (Proc.devRef .tc r) = Z (Proc.devRef .tc r) :=
  after_of_writes_sub _ _ chan0_writes h

set_option maxHeartbeats 2000000 in
theorem chan1_eq (Z : Valuation τ sig (Elt F)) : after ((ops.drop 43).take 8) Z (main_v31 : DevRef τ sig)
    = rollR 1 (shapeCast S2048x4096 (extractStridedSlice S2048x4096x1 ![0, 0, 1] (Z (main_v25 : DevRef τ sig)) slices_S2048x4096x9_S2048x4096x1_0_0_1) shapeCasts_S2048x4096x1_S2048x4096) := by
  simp only [ops, List.take_succ_cons, List.take_zero, List.drop_succ_cons, List.drop_zero]
  after_results
  rfl
abbrev chan1_W : List (Ref sig .tc) := [main_v29, main_v30, main_call1_v0, main_call1_v1, main_call1_v2, main_call1_v3, main_call1_v4, main_v31]
theorem chan1_writes : (((ops.drop 43).take 8) : List (HloOp τ sig (Elt F))).Forall fun op => op.writes ⊆ (chan1_W.map (Proc.devRef (τ := τ) .tc)).toFinset := by
  simp only [ops, List.take_succ_cons, List.take_zero, List.drop_succ_cons, List.drop_zero]
  simp only [List.Forall]
  exact ⟨(by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide))⟩
theorem chan1_keep (Z : Valuation τ sig (Elt F)) (r : Ref sig .tc) (h : r ∉ chan1_W) :
    after ((ops.drop 43).take 8) Z (Proc.devRef .tc r) = Z (Proc.devRef .tc r) :=
  after_of_writes_sub _ _ chan1_writes h

set_option maxHeartbeats 2000000 in
theorem chan2_eq (Z : Valuation τ sig (Elt F)) : after ((ops.drop 51).take 8) Z (main_v34 : DevRef τ sig)
    = rollR 2 (shapeCast S2048x4096 (extractStridedSlice S2048x4096x1 ![0, 0, 2] (Z (main_v25 : DevRef τ sig)) slices_S2048x4096x9_S2048x4096x1_0_0_2) shapeCasts_S2048x4096x1_S2048x4096) := by
  simp only [ops, List.take_succ_cons, List.take_zero, List.drop_succ_cons, List.drop_zero]
  after_results
  rfl
abbrev chan2_W : List (Ref sig .tc) := [main_v32, main_v33, main_call2_v0, main_call2_v1, main_call2_v2, main_call2_v3, main_call2_v4, main_v34]
theorem chan2_writes : (((ops.drop 51).take 8) : List (HloOp τ sig (Elt F))).Forall fun op => op.writes ⊆ (chan2_W.map (Proc.devRef (τ := τ) .tc)).toFinset := by
  simp only [ops, List.take_succ_cons, List.take_zero, List.drop_succ_cons, List.drop_zero]
  simp only [List.Forall]
  exact ⟨(by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide))⟩
theorem chan2_keep (Z : Valuation τ sig (Elt F)) (r : Ref sig .tc) (h : r ∉ chan2_W) :
    after ((ops.drop 51).take 8) Z (Proc.devRef .tc r) = Z (Proc.devRef .tc r) :=
  after_of_writes_sub _ _ chan2_writes h

set_option maxHeartbeats 2000000 in
theorem chan3_eq (Z : Valuation τ sig (Elt F)) : after ((ops.drop 59).take 8) Z (main_v37 : DevRef τ sig)
    = rollR 3 (shapeCast S2048x4096 (extractStridedSlice S2048x4096x1 ![0, 0, 3] (Z (main_v25 : DevRef τ sig)) slices_S2048x4096x9_S2048x4096x1_0_0_3) shapeCasts_S2048x4096x1_S2048x4096) := by
  simp only [ops, List.take_succ_cons, List.take_zero, List.drop_succ_cons, List.drop_zero]
  after_results
  rfl
abbrev chan3_W : List (Ref sig .tc) := [main_v35, main_v36, main_call3_v0, main_call3_v1, main_call3_v2, main_call3_v3, main_call3_v4, main_v37]
theorem chan3_writes : (((ops.drop 59).take 8) : List (HloOp τ sig (Elt F))).Forall fun op => op.writes ⊆ (chan3_W.map (Proc.devRef (τ := τ) .tc)).toFinset := by
  simp only [ops, List.take_succ_cons, List.take_zero, List.drop_succ_cons, List.drop_zero]
  simp only [List.Forall]
  exact ⟨(by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide))⟩
theorem chan3_keep (Z : Valuation τ sig (Elt F)) (r : Ref sig .tc) (h : r ∉ chan3_W) :
    after ((ops.drop 59).take 8) Z (Proc.devRef .tc r) = Z (Proc.devRef .tc r) :=
  after_of_writes_sub _ _ chan3_writes h

set_option maxHeartbeats 2000000 in
theorem chan4_eq (Z : Valuation τ sig (Elt F)) : after ((ops.drop 67).take 8) Z (main_v40 : DevRef τ sig)
    = rollR 4 (shapeCast S2048x4096 (extractStridedSlice S2048x4096x1 ![0, 0, 4] (Z (main_v25 : DevRef τ sig)) slices_S2048x4096x9_S2048x4096x1_0_0_4) shapeCasts_S2048x4096x1_S2048x4096) := by
  simp only [ops, List.take_succ_cons, List.take_zero, List.drop_succ_cons, List.drop_zero]
  after_results
  rfl
abbrev chan4_W : List (Ref sig .tc) := [main_v38, main_v39, main_call4_v0, main_call4_v1, main_call4_v2, main_call4_v3, main_call4_v4, main_v40]
theorem chan4_writes : (((ops.drop 67).take 8) : List (HloOp τ sig (Elt F))).Forall fun op => op.writes ⊆ (chan4_W.map (Proc.devRef (τ := τ) .tc)).toFinset := by
  simp only [ops, List.take_succ_cons, List.take_zero, List.drop_succ_cons, List.drop_zero]
  simp only [List.Forall]
  exact ⟨(by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide))⟩
theorem chan4_keep (Z : Valuation τ sig (Elt F)) (r : Ref sig .tc) (h : r ∉ chan4_W) :
    after ((ops.drop 67).take 8) Z (Proc.devRef .tc r) = Z (Proc.devRef .tc r) :=
  after_of_writes_sub _ _ chan4_writes h

set_option maxHeartbeats 2000000 in
theorem chan5_eq (Z : Valuation τ sig (Elt F)) : after ((ops.drop 75).take 8) Z (main_v43 : DevRef τ sig)
    = rollR 5 (shapeCast S2048x4096 (extractStridedSlice S2048x4096x1 ![0, 0, 5] (Z (main_v25 : DevRef τ sig)) slices_S2048x4096x9_S2048x4096x1_0_0_5) shapeCasts_S2048x4096x1_S2048x4096) := by
  simp only [ops, List.take_succ_cons, List.take_zero, List.drop_succ_cons, List.drop_zero]
  after_results
  rfl
abbrev chan5_W : List (Ref sig .tc) := [main_v41, main_v42, main_call5_v0, main_call5_v1, main_call5_v2, main_call5_v3, main_call5_v4, main_v43]
theorem chan5_writes : (((ops.drop 75).take 8) : List (HloOp τ sig (Elt F))).Forall fun op => op.writes ⊆ (chan5_W.map (Proc.devRef (τ := τ) .tc)).toFinset := by
  simp only [ops, List.take_succ_cons, List.take_zero, List.drop_succ_cons, List.drop_zero]
  simp only [List.Forall]
  exact ⟨(by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide))⟩
theorem chan5_keep (Z : Valuation τ sig (Elt F)) (r : Ref sig .tc) (h : r ∉ chan5_W) :
    after ((ops.drop 75).take 8) Z (Proc.devRef .tc r) = Z (Proc.devRef .tc r) :=
  after_of_writes_sub _ _ chan5_writes h

set_option maxHeartbeats 2000000 in
theorem chan6_eq (Z : Valuation τ sig (Elt F)) : after ((ops.drop 83).take 8) Z (main_v46 : DevRef τ sig)
    = rollR 6 (shapeCast S2048x4096 (extractStridedSlice S2048x4096x1 ![0, 0, 6] (Z (main_v25 : DevRef τ sig)) slices_S2048x4096x9_S2048x4096x1_0_0_6) shapeCasts_S2048x4096x1_S2048x4096) := by
  simp only [ops, List.take_succ_cons, List.take_zero, List.drop_succ_cons, List.drop_zero]
  after_results
  rfl
abbrev chan6_W : List (Ref sig .tc) := [main_v44, main_v45, main_call6_v0, main_call6_v1, main_call6_v2, main_call6_v3, main_call6_v4, main_v46]
theorem chan6_writes : (((ops.drop 83).take 8) : List (HloOp τ sig (Elt F))).Forall fun op => op.writes ⊆ (chan6_W.map (Proc.devRef (τ := τ) .tc)).toFinset := by
  simp only [ops, List.take_succ_cons, List.take_zero, List.drop_succ_cons, List.drop_zero]
  simp only [List.Forall]
  exact ⟨(by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide))⟩
theorem chan6_keep (Z : Valuation τ sig (Elt F)) (r : Ref sig .tc) (h : r ∉ chan6_W) :
    after ((ops.drop 83).take 8) Z (Proc.devRef .tc r) = Z (Proc.devRef .tc r) :=
  after_of_writes_sub _ _ chan6_writes h

set_option maxHeartbeats 2000000 in
theorem chan7_eq (Z : Valuation τ sig (Elt F)) : after ((ops.drop 91).take 8) Z (main_v49 : DevRef τ sig)
    = rollR 7 (shapeCast S2048x4096 (extractStridedSlice S2048x4096x1 ![0, 0, 7] (Z (main_v25 : DevRef τ sig)) slices_S2048x4096x9_S2048x4096x1_0_0_7) shapeCasts_S2048x4096x1_S2048x4096) := by
  simp only [ops, List.take_succ_cons, List.take_zero, List.drop_succ_cons, List.drop_zero]
  after_results
  rfl
abbrev chan7_W : List (Ref sig .tc) := [main_v47, main_v48, main_call7_v0, main_call7_v1, main_call7_v2, main_call7_v3, main_call7_v4, main_v49]
theorem chan7_writes : (((ops.drop 91).take 8) : List (HloOp τ sig (Elt F))).Forall fun op => op.writes ⊆ (chan7_W.map (Proc.devRef (τ := τ) .tc)).toFinset := by
  simp only [ops, List.take_succ_cons, List.take_zero, List.drop_succ_cons, List.drop_zero]
  simp only [List.Forall]
  exact ⟨(by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide))⟩
theorem chan7_keep (Z : Valuation τ sig (Elt F)) (r : Ref sig .tc) (h : r ∉ chan7_W) :
    after ((ops.drop 91).take 8) Z (Proc.devRef .tc r) = Z (Proc.devRef .tc r) :=
  after_of_writes_sub _ _ chan7_writes h

set_option maxHeartbeats 2000000 in
theorem chan8_eq (Z : Valuation τ sig (Elt F)) : after ((ops.drop 99).take 8) Z (main_v52 : DevRef τ sig)
    = rollR 8 (shapeCast S2048x4096 (extractStridedSlice S2048x4096x1 ![0, 0, 8] (Z (main_v25 : DevRef τ sig)) slices_S2048x4096x9_S2048x4096x1_0_0_8) shapeCasts_S2048x4096x1_S2048x4096) := by
  simp only [ops, List.take_succ_cons, List.take_zero, List.drop_succ_cons, List.drop_zero]
  after_results
  rfl
abbrev chan8_W : List (Ref sig .tc) := [main_v50, main_v51, main_call8_v0, main_call8_v1, main_call8_v2, main_call8_v3, main_call8_v4, main_v52]
theorem chan8_writes : (((ops.drop 99).take 8) : List (HloOp τ sig (Elt F))).Forall fun op => op.writes ⊆ (chan8_W.map (Proc.devRef (τ := τ) .tc)).toFinset := by
  simp only [ops, List.take_succ_cons, List.take_zero, List.drop_succ_cons, List.drop_zero]
  simp only [List.Forall]
  exact ⟨(by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide)),
    (by simp only [unary_writes, binary_writes, reshape_writes, Finset.singleton_subset_iff, List.mem_toFinset]; exact List.mem_map_of_mem (by decide))⟩
theorem chan8_keep (Z : Valuation τ sig (Elt F)) (r : Ref sig .tc) (h : r ∉ chan8_W) :
    after ((ops.drop 99).take 8) Z (Proc.devRef .tc r) = Z (Proc.devRef .tc r) :=
  after_of_writes_sub _ _ chan8_writes h

/-! After all nine stretches: each call's buffer holds its channel's shifted field of what the relaxed populations'
buffer held before the first, and the second direction table is as it was. -/

theorem reach0 (W : Valuation τ sig (Elt F)) : afterChans W (main_v28 : DevRef τ sig)
    = rollR 0 (shapeCast S2048x4096 (extractStridedSlice S2048x4096x1 ![0, 0, 0] (W (main_v25 : DevRef τ sig)) slices_S2048x4096x9_S2048x4096x1_0_0_0) shapeCasts_S2048x4096x1_S2048x4096) := by
  unfold afterChans
  rw [chan8_keep _ main_v28 (by decide),
    chan7_keep _ main_v28 (by decide),
    chan6_keep _ main_v28 (by decide),
    chan5_keep _ main_v28 (by decide),
    chan4_keep _ main_v28 (by decide),
    chan3_keep _ main_v28 (by decide),
    chan2_keep _ main_v28 (by decide),
    chan1_keep _ main_v28 (by decide),
    chan0_eq]

theorem reach1 (W : Valuation τ sig (Elt F)) : afterChans W (main_v31 : DevRef τ sig)
    = rollR 1 (shapeCast S2048x4096 (extractStridedSlice S2048x4096x1 ![0, 0, 1] (W (main_v25 : DevRef τ sig)) slices_S2048x4096x9_S2048x4096x1_0_0_1) shapeCasts_S2048x4096x1_S2048x4096) := by
  unfold afterChans
  rw [chan8_keep _ main_v31 (by decide),
    chan7_keep _ main_v31 (by decide),
    chan6_keep _ main_v31 (by decide),
    chan5_keep _ main_v31 (by decide),
    chan4_keep _ main_v31 (by decide),
    chan3_keep _ main_v31 (by decide),
    chan2_keep _ main_v31 (by decide),
    chan1_eq,
    chan0_keep _ main_v25 (by decide)]

theorem reach2 (W : Valuation τ sig (Elt F)) : afterChans W (main_v34 : DevRef τ sig)
    = rollR 2 (shapeCast S2048x4096 (extractStridedSlice S2048x4096x1 ![0, 0, 2] (W (main_v25 : DevRef τ sig)) slices_S2048x4096x9_S2048x4096x1_0_0_2) shapeCasts_S2048x4096x1_S2048x4096) := by
  unfold afterChans
  rw [chan8_keep _ main_v34 (by decide),
    chan7_keep _ main_v34 (by decide),
    chan6_keep _ main_v34 (by decide),
    chan5_keep _ main_v34 (by decide),
    chan4_keep _ main_v34 (by decide),
    chan3_keep _ main_v34 (by decide),
    chan2_eq,
    chan1_keep _ main_v25 (by decide),
    chan0_keep _ main_v25 (by decide)]

theorem reach3 (W : Valuation τ sig (Elt F)) : afterChans W (main_v37 : DevRef τ sig)
    = rollR 3 (shapeCast S2048x4096 (extractStridedSlice S2048x4096x1 ![0, 0, 3] (W (main_v25 : DevRef τ sig)) slices_S2048x4096x9_S2048x4096x1_0_0_3) shapeCasts_S2048x4096x1_S2048x4096) := by
  unfold afterChans
  rw [chan8_keep _ main_v37 (by decide),
    chan7_keep _ main_v37 (by decide),
    chan6_keep _ main_v37 (by decide),
    chan5_keep _ main_v37 (by decide),
    chan4_keep _ main_v37 (by decide),
    chan3_eq,
    chan2_keep _ main_v25 (by decide),
    chan1_keep _ main_v25 (by decide),
    chan0_keep _ main_v25 (by decide)]

theorem reach4 (W : Valuation τ sig (Elt F)) : afterChans W (main_v40 : DevRef τ sig)
    = rollR 4 (shapeCast S2048x4096 (extractStridedSlice S2048x4096x1 ![0, 0, 4] (W (main_v25 : DevRef τ sig)) slices_S2048x4096x9_S2048x4096x1_0_0_4) shapeCasts_S2048x4096x1_S2048x4096) := by
  unfold afterChans
  rw [chan8_keep _ main_v40 (by decide),
    chan7_keep _ main_v40 (by decide),
    chan6_keep _ main_v40 (by decide),
    chan5_keep _ main_v40 (by decide),
    chan4_eq,
    chan3_keep _ main_v25 (by decide),
    chan2_keep _ main_v25 (by decide),
    chan1_keep _ main_v25 (by decide),
    chan0_keep _ main_v25 (by decide)]

theorem reach5 (W : Valuation τ sig (Elt F)) : afterChans W (main_v43 : DevRef τ sig)
    = rollR 5 (shapeCast S2048x4096 (extractStridedSlice S2048x4096x1 ![0, 0, 5] (W (main_v25 : DevRef τ sig)) slices_S2048x4096x9_S2048x4096x1_0_0_5) shapeCasts_S2048x4096x1_S2048x4096) := by
  unfold afterChans
  rw [chan8_keep _ main_v43 (by decide),
    chan7_keep _ main_v43 (by decide),
    chan6_keep _ main_v43 (by decide),
    chan5_eq,
    chan4_keep _ main_v25 (by decide),
    chan3_keep _ main_v25 (by decide),
    chan2_keep _ main_v25 (by decide),
    chan1_keep _ main_v25 (by decide),
    chan0_keep _ main_v25 (by decide)]

theorem reach6 (W : Valuation τ sig (Elt F)) : afterChans W (main_v46 : DevRef τ sig)
    = rollR 6 (shapeCast S2048x4096 (extractStridedSlice S2048x4096x1 ![0, 0, 6] (W (main_v25 : DevRef τ sig)) slices_S2048x4096x9_S2048x4096x1_0_0_6) shapeCasts_S2048x4096x1_S2048x4096) := by
  unfold afterChans
  rw [chan8_keep _ main_v46 (by decide),
    chan7_keep _ main_v46 (by decide),
    chan6_eq,
    chan5_keep _ main_v25 (by decide),
    chan4_keep _ main_v25 (by decide),
    chan3_keep _ main_v25 (by decide),
    chan2_keep _ main_v25 (by decide),
    chan1_keep _ main_v25 (by decide),
    chan0_keep _ main_v25 (by decide)]

theorem reach7 (W : Valuation τ sig (Elt F)) : afterChans W (main_v49 : DevRef τ sig)
    = rollR 7 (shapeCast S2048x4096 (extractStridedSlice S2048x4096x1 ![0, 0, 7] (W (main_v25 : DevRef τ sig)) slices_S2048x4096x9_S2048x4096x1_0_0_7) shapeCasts_S2048x4096x1_S2048x4096) := by
  unfold afterChans
  rw [chan8_keep _ main_v49 (by decide),
    chan7_eq,
    chan6_keep _ main_v25 (by decide),
    chan5_keep _ main_v25 (by decide),
    chan4_keep _ main_v25 (by decide),
    chan3_keep _ main_v25 (by decide),
    chan2_keep _ main_v25 (by decide),
    chan1_keep _ main_v25 (by decide),
    chan0_keep _ main_v25 (by decide)]

theorem reach8 (W : Valuation τ sig (Elt F)) : afterChans W (main_v52 : DevRef τ sig)
    = rollR 8 (shapeCast S2048x4096 (extractStridedSlice S2048x4096x1 ![0, 0, 8] (W (main_v25 : DevRef τ sig)) slices_S2048x4096x9_S2048x4096x1_0_0_8) shapeCasts_S2048x4096x1_S2048x4096) := by
  unfold afterChans
  rw [chan8_eq,
    chan7_keep _ main_v25 (by decide),
    chan6_keep _ main_v25 (by decide),
    chan5_keep _ main_v25 (by decide),
    chan4_keep _ main_v25 (by decide),
    chan3_keep _ main_v25 (by decide),
    chan2_keep _ main_v25 (by decide),
    chan1_keep _ main_v25 (by decide),
    chan0_keep _ main_v25 (by decide)]

theorem reach_cst1 (W : Valuation τ sig (Elt F)) : afterChans W (main_cst_1 : DevRef τ sig) = W (main_cst_1 : DevRef τ sig) := by
  unfold afterChans
  rw [chan8_keep _ main_cst_1 (by decide),
    chan7_keep _ main_cst_1 (by decide),
    chan6_keep _ main_cst_1 (by decide),
    chan5_keep _ main_cst_1 (by decide),
    chan4_keep _ main_cst_1 (by decide),
    chan3_keep _ main_cst_1 (by decide),
    chan2_keep _ main_cst_1 (by decide),
    chan1_keep _ main_cst_1 (by decide),
    chan0_keep _ main_cst_1 (by decide)]

/-! ### The join -/

/-- After the nine broadcasts and the join the joined buffer holds the nine calls' results, each given back its unit
    last axis, joined along that axis. -/
theorem join_f (Z : Valuation τ sig (Elt F)) (g0 g1 g2 g3 g4 g5 g6 g7 g8 : (⟨S2048x4096, .f32⟩ : BufTy).Contents (Elt F))
    (h0 : Z (main_v28 : DevRef τ sig) = g0) (h1 : Z (main_v31 : DevRef τ sig) = g1) (h2 : Z (main_v34 : DevRef τ sig) = g2) (h3 : Z (main_v37 : DevRef τ sig) = g3) (h4 : Z (main_v40 : DevRef τ sig) = g4) (h5 : Z (main_v43 : DevRef τ sig) = g5) (h6 : Z (main_v46 : DevRef τ sig) = g6) (h7 : Z (main_v49 : DevRef τ sig) = g7) (h8 : Z (main_v52 : DevRef τ sig) = g8) :
    after ((ops.drop 107).take 10) Z (main_v62 : DevRef τ sig)
    = concatenate S2048x4096x9 2
        [⟨S2048x4096x1, broadcastInDim S2048x4096x1 ![0, 1] bcast_S2048x4096_S2048x4096x1_0_1 g0⟩,
         ⟨S2048x4096x1, broadcastInDim S2048x4096x1 ![0, 1] bcast_S2048x4096_S2048x4096x1_0_1 g1⟩,
         ⟨S2048x4096x1, broadcastInDim S2048x4096x1 ![0, 1] bcast_S2048x4096_S2048x4096x1_0_1 g2⟩,
         ⟨S2048x4096x1, broadcastInDim S2048x4096x1 ![0, 1] bcast_S2048x4096_S2048x4096x1_0_1 g3⟩,
         ⟨S2048x4096x1, broadcastInDim S2048x4096x1 ![0, 1] bcast_S2048x4096_S2048x4096x1_0_1 g4⟩,
         ⟨S2048x4096x1, broadcastInDim S2048x4096x1 ![0, 1] bcast_S2048x4096_S2048x4096x1_0_1 g5⟩,
         ⟨S2048x4096x1, broadcastInDim S2048x4096x1 ![0, 1] bcast_S2048x4096_S2048x4096x1_0_1 g6⟩,
         ⟨S2048x4096x1, broadcastInDim S2048x4096x1 ![0, 1] bcast_S2048x4096_S2048x4096x1_0_1 g7⟩,
         ⟨S2048x4096x1, broadcastInDim S2048x4096x1 ![0, 1] bcast_S2048x4096_S2048x4096x1_0_1 g8⟩]
        concatenates_S2048x4096x1_S2048x4096x1_S2048x4096x1_S2048x4096x1_S2048x4096x1_S2048x4096x1_S2048x4096x1_S2048x4096x1_S2048x4096x1_S2048x4096x9_d2 := by
  subst h0 h1 h2 h3 h4 h5 h6 h7 h8
  simp only [ops, List.take_succ_cons, List.take_zero, List.drop_succ_cons, List.drop_zero]
  results9
  rfl

/-- The join's stretch leaves the second direction table as it was. -/
theorem join_cst1 (Z : Valuation τ sig (Elt F)) : after ((ops.drop 107).take 10) Z (main_cst_1 : DevRef τ sig) = Z (main_cst_1 : DevRef τ sig) := by
  simp only [ops, List.take_succ_cons, List.take_zero, List.drop_succ_cons, List.drop_zero]
  results9

/-- After the channels and the join the joined buffer holds `refF` of what the relaxed populations' buffer held
    before them. -/
theorem stream_f (W : Valuation τ sig (Elt F)) : after ((ops.drop 107).take 10) (afterChans W) (main_v62 : DevRef τ sig)
    = refF (W (main_v25 : DevRef τ sig)) :=
  (join_f _ _ _ _ _ _ _ _ _ _ (reach0 W) (reach1 W) (reach2 W) (reach3 W) (reach4 W) (reach5 W) (reach6 W) (reach7 W) (reach8 W)).trans rfl

/-! ### The lift -/

/-- The lift leaves the joined buffer as it was; the density is its sum over the channel axis from the zero word; the
    velocity is its contraction with the direction table over the density broadcast to the two components. -/
theorem lift_f (X : Valuation τ sig (Elt F)) : after (ops.drop 117) X (main_v62 : DevRef τ sig) = X (main_v62 : DevRef τ sig) := by
  simp only [ops, List.take_succ_cons, List.take_zero, List.drop_succ_cons, List.drop_zero]
  after_results_simp
theorem lift_rho (X : Valuation τ sig (Elt F)) : after (ops.drop 117) X (main_v63 : DevRef τ sig)
    = Host.reduceAdd (X (main_v62 : DevRef τ sig)) (constant S_ .f32 0x00000000#32) reducesTo_S2048x4096x9_S2048x4096_d2 h_S_ := by
  simp only [ops, List.take_succ_cons, List.take_zero, List.drop_succ_cons, List.drop_zero]
  after_results_simp
theorem lift_u (X : Valuation τ sig (Elt F)) : after (ops.drop 117) X (main_v67 : DevRef τ sig)
    = Host.divf (Host.dotGeneral dot_S2048x4096x9_S9x2_S2048x4096x2_2_0_01_1_n_n none (X (main_v62 : DevRef τ sig)) (X (main_cst_1 : DevRef τ sig)))
        (broadcastInDim S2048x4096x2 ![0, 1, 2] bcast_S2048x4096x1_S2048x4096x2_0_1_2
          (broadcastInDim S2048x4096x1 ![0, 1] bcast_S2048x4096_S2048x4096x1_0_1
            (Host.reduceAdd (X (main_v62 : DevRef τ sig)) (constant S_ .f32 0x00000000#32) reducesTo_S2048x4096x9_S2048x4096_d2 h_S_))) := by
  simp only [ops, List.take_succ_cons, List.take_zero, List.drop_succ_cons, List.drop_zero]
  after_results_simp

/-! ### The results -/

theorem res_f (V : Valuation τ sig (Elt F)) : after ops V (main_v62 : DevRef τ sig)
    = refF (refStar (V (main_arg0 : DevRef τ sig)) (V (main_arg1 : DevRef τ sig)) (V (main_arg2 : DevRef τ sig))) := by
  rw [after_split, lift_f, stream_f, star_eq]
theorem res_rho (V : Valuation τ sig (Elt F)) : after ops V (main_v63 : DevRef τ sig)
    = refRho (refStar (V (main_arg0 : DevRef τ sig)) (V (main_arg1 : DevRef τ sig)) (V (main_arg2 : DevRef τ sig))) := by
  rw [after_split, lift_rho, stream_f, star_eq]
  rfl
theorem res_u (V : Valuation τ sig (Elt F)) : after ops V (main_v67 : DevRef τ sig)
    = refU (refStar (V (main_arg0 : DevRef τ sig)) (V (main_arg1 : DevRef τ sig)) (V (main_arg2 : DevRef τ sig))) := by
  rw [after_split, lift_u, stream_f, join_cst1, reach_cst1, cst1_eq, star_eq]
  rfl

end Cert.ReferenceIdeal.Hand

end
-- ==== Proof.RValue.lean ====
/-
  The reference's results as the specification's functions of its arguments: its run ends with every buffer at
  the fold of its operations over the launch memory; the three results are the streaming-and-lift stages of the
  relaxed populations; the relaxed populations are the specification's at every site and channel, so each channel
  of them is the specification's relaxed channel, and the stages read at an index are the specification's streamed
  populations, density and velocity.
-/
import proofs.«419865_j42563125903664_3_alg».proof.Proof.Spec
import proofs.«419865_j42563125903664_3_alg».proof.Proof.RStar
import proofs.«419865_j42563125903664_3_alg».proof.Proof.RLift
import proofs.«419865_j42563125903664_3_alg».proof.Proof.RRun

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx Idealize.SL.Sem Idealize.ShloMosaic.StableHlo

/-- The channels of the reference's relaxed populations are the specification's relaxed channels. -/
theorem chan_star (f : (⟨S2048x4096x9, .f32⟩ : BufTy).Contents (Elt Ideal)) (rho : (⟨S2048x4096, .f32⟩ : BufTy).Contents (Elt Ideal)) (u : (⟨S2048x4096x2, .f32⟩ : BufTy).Contents (Elt Ideal)) :
    (fun q => rollR (F := Ideal) q (chanL (refStar (F := Ideal) f rho u) q))
      = Cert.Lbm.streamed (rollR (F := Ideal)) f rho u := by
  funext q
  show rollR (F := Ideal) q _ = rollR (F := Ideal) q _
  congr 1
  funext s
  obtain ⟨a, b, rfl⟩ : ∃ (a : Fin 2048) (b : Fin 4096), s = ix2 a b := ⟨s 0, s 1, eq_ix2 s⟩
  show refStar (F := Ideal) f rho u (ix3 a b q) = Cert.Lbm.post q _ _ _ _
  rw [refStar_apply]

theorem stageF_eq (f : (⟨S2048x4096x9, .f32⟩ : BufTy).Contents (Elt Ideal)) (rho : (⟨S2048x4096, .f32⟩ : BufTy).Contents (Elt Ideal)) (u : (⟨S2048x4096x2, .f32⟩ : BufTy).Contents (Elt Ideal)) :
    refF (F := Ideal) (refStar (F := Ideal) f rho u) = Cert.Lbm.outF (rollR (F := Ideal)) f rho u := by
  funext j
  obtain ⟨a, b, q, rfl⟩ : ∃ (a : Fin 2048) (b : Fin 4096) (q : Fin 9), j = ix3 a b q := ⟨j 0, j 1, j 2, eq_ix3 j⟩
  rw [refF_apply]
  exact congrFun (congrFun (chan_star f rho u) q) (ix2 a b)

theorem stageRho_eq (f : (⟨S2048x4096x9, .f32⟩ : BufTy).Contents (Elt Ideal)) (rho : (⟨S2048x4096, .f32⟩ : BufTy).Contents (Elt Ideal)) (u : (⟨S2048x4096x2, .f32⟩ : BufTy).Contents (Elt Ideal)) :
    refRho (F := Ideal) (refStar (F := Ideal) f rho u) = Cert.Lbm.outRho (rollR (F := Ideal)) f rho u := by
  rw [refRho_eq, chan_star]; rfl

theorem stageU_eq (f : (⟨S2048x4096x9, .f32⟩ : BufTy).Contents (Elt Ideal)) (rho : (⟨S2048x4096, .f32⟩ : BufTy).Contents (Elt Ideal)) (u : (⟨S2048x4096x2, .f32⟩ : BufTy).Contents (Elt Ideal)) :
    refU (F := Ideal) (refStar (F := Ideal) f rho u) = Cert.Lbm.outU (rollR (F := Ideal)) f rho u := by
  rw [refU_eq, chan_star]; rfl

variable (m : (ℓ : Loc nD τ sig) → Buf (Elt Ideal) ℓ) (ρ : Dev nD → PrngReg)

/-- Every weakly fair execution of the reference terminates with its three results at the specification's functions
    of the arguments, and the arguments as launched. -/
theorem ref_values :
    θ_run (defs (F := Ideal)) (onTc (τ := τ) (main (F := Ideal))) ⟨m, fun _ => 0, ρ⟩ (fun r => ∀ c : Dev nD,
      r.2.mem ((c.tc : Thread nD τ).loc main_v62)
          = Cert.Lbm.outF (rollR (F := Ideal)) (m ((c.tc : Thread nD τ).loc main_arg0)) (m ((c.tc : Thread nD τ).loc main_arg1)) (m ((c.tc : Thread nD τ).loc main_arg2))
      ∧ r.2.mem ((c.tc : Thread nD τ).loc main_v63)
          = Cert.Lbm.outRho (rollR (F := Ideal)) (m ((c.tc : Thread nD τ).loc main_arg0)) (m ((c.tc : Thread nD τ).loc main_arg1)) (m ((c.tc : Thread nD τ).loc main_arg2))
      ∧ r.2.mem ((c.tc : Thread nD τ).loc main_v67)
          = Cert.Lbm.outU (rollR (F := Ideal)) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun r h c =>
    ⟨(h c main_v62).trans ((res_f (F := Ideal) (launchContents m c)).trans (stageF_eq _ _ _)),
     (h c main_v63).trans ((res_rho (F := Ideal) (launchContents m c)).trans (stageRho_eq _ _ _)),
     (h c main_v67).trans ((res_u (F := Ideal) (launchContents m c)).trans (stageU_eq _ _ _)),
     (h c main_arg0).trans (res_arg0 (F := Ideal) (launchContents m c)),
     (h c main_arg1).trans (res_arg1 (F := Ideal) (launchContents m c)),
     (h c main_arg2).trans (res_arg2 (F := Ideal) (launchContents m c))⟩)
    (run_main (F := Ideal) m ρ)

end Cert.ReferenceIdeal.Hand

end
-- ==== Proof.lean ====
/-
  One step of the D2Q9 lattice-Boltzmann scheme: the kernel program (two tiled passes - collision, and the lift to
  density and velocity - around a host-side streaming of the nine channels) against the plain array reference.

  Both programs compute, at every site and channel, the relaxed population `f - (f - feq) / tau`, rearrange each
  channel by the same fixed shift of the lattice, and lift density and velocity from the nine streamed channels
  (Spec.lean).  They differ in layout (channel first against channel last), in how the velocity's products with the
  lattice directions are spelt (explicit products with the directions' entries against a contraction with the
  direction table), in the order of the lift's sums, and in the relaxation: the kernel multiplies by the constant it
  names `inv_tau`, the reciprocal 8388608/5033165 of the relaxation time's f32 value 5033165/8388608, where the
  reference divides by that value; on the extended reals the product with the reciprocal of a nonzero real IS the
  quotient, at every extended real, so no finiteness of the inputs is used.

  The frames: each kernel pass at a grid point is run symbolically on whole staging buffers (KBody0, KBody1, and
  their word-level copies BBody0, BBody1), the two passes are threaded with the host stretches through the program
  (KRun, BRun); the reference is a straight line of host operations (RRun).  The values: what each pass leaves in
  its arrays (KVal0, KVal1), the host stretches read at an index (KHost), the reference's stages read at an index
  (RStar, RLift), each side equal to the specification (KValue, RValue); the two programs' nine shifts are one
  and the same composition of slices and concatenations.
-/
import proofs.«419865_j42563125903664_3_alg».proof.Defs
import proofs.«419865_j42563125903664_3_alg».proof.Proof.Gen.Kernel
import proofs.«419865_j42563125903664_3_alg».proof.Proof.Gen.KernelIdeal
import proofs.«419865_j42563125903664_3_alg».proof.Proof.Gen.ReferenceIdeal
import proofs.«419865_j42563125903664_3_alg».proof.Proof.Gen.Pre_finite_inputs
import proofs.«419865_j42563125903664_3_alg».proof.Proof.BRun
import proofs.«419865_j42563125903664_3_alg».proof.Proof.KValue
import proofs.«419865_j42563125903664_3_alg».proof.Proof.RValue
import Idealize.ShloMosaic.Adequacy
import Idealize.ShloMosaic.Init

noncomputable section

namespace Cert.Proof

open Idealize.ShloMosaic Idealize.ShloMosaic.TcCoe Idealize.SL.Sem

/-- The two programs rearrange each channel by the same composition of slices and concatenations. -/
theorem roll_eq : Cert.KernelIdeal.Hand.rollK = Cert.ReferenceIdeal.Hand.rollR (F := Ideal) := by
  funext q
  fin_cases q <;> rfl

/-- The word-level kernel program runs to the end, faults nowhere and leaves its arguments as launched. -/
theorem frame_k : Cert.frame_Kernel := fun m ρ _ =>
  (θ_run (Cert.Kernel.defs (F := Bits)) _ _).mono (fun r h c =>
    ⟨(h c Cert.Kernel.main_arg0 (by decide)).trans (Cert.Kernel.Gen.V23_main_arg0 m (Cert.Kernel.Hand.outs m) c),
     (h c Cert.Kernel.main_arg1 (by decide)).trans (Cert.Kernel.Gen.V23_main_arg1 m (Cert.Kernel.Hand.outs m) c),
     (h c Cert.Kernel.main_arg2 (by decide)).trans (Cert.Kernel.Gen.V23_main_arg2 m (Cert.Kernel.Hand.outs m) c)⟩)
    (Cert.Kernel.Hand.run_all (F := Bits) m ρ)

/-- So does the idealized kernel program. -/
theorem frame_ki : Cert.frame_KernelIdeal := fun m ρ _ =>
  (θ_run (Cert.KernelIdeal.defs (F := Ideal)) _ _).mono (fun r h c => (h c).2.2.2)
    (Cert.KernelIdeal.Hand.kernel_values m ρ)

/-- So does the reference. -/
theorem frame_ri : Cert.frame_ReferenceIdeal := fun m ρ _ =>
  (θ_run (Cert.ReferenceIdeal.defs (F := Ideal)) _ _).mono (fun r h c => (h c).2.2.2)
    (Cert.ReferenceIdeal.Hand.ref_values m ρ)

/-- The nine sites at which the idealized kernel reads the constant it names `inv_tau`: the name's value is what
    the table gives it, each time. -/
theorem inv_tau : IdealRules.named_const.Statement Cert.KernelIdeal.κ "inv_tau" .f32 0x3FD55555#32 ((8388608 / 5033165 : ℝ) : EReal) :=
  IdealRules.named_const.statement Cert.KernelIdeal.κ "inv_tau" .f32 0x3FD55555#32 ((8388608 / 5033165 : ℝ) : EReal) rfl

theorem preserves : Cert.preserves_Kernel_KernelIdeal :=
  ⟨inv_tau, inv_tau, inv_tau, inv_tau, inv_tau, inv_tau, inv_tau, inv_tau, inv_tau⟩

/-- From memories agreeing on the arguments both idealized programs end with the specification's three functions
    of the arguments in their results. -/
theorem algebraic : Cert.algebraic_KernelIdeal_ReferenceIdeal := by
  intro m ρ m' ρ' _ hagree
  refine ⟨_, _, _, Cert.KernelIdeal.Hand.kernel_values m ρ, ?_⟩
  refine (θ_run (Cert.ReferenceIdeal.defs (F := Ideal)) _ _).mono (fun r h c => ?_)
    (Cert.ReferenceIdeal.Hand.ref_values m' ρ')
  obtain ⟨h0, h1, h2, h3⟩ := h c
  refine ⟨h0.trans ?_, h1.trans ?_, h2.trans ?_, h3⟩ <;>
    rw [(hagree c).1, (hagree c).2.1, (hagree c).2.2, roll_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
